-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x513x32000 : Shape := ⟨3, ![16, 513, 32000]⟩
abbrev S16x513 : Shape := ⟨2, ![16, 513]⟩
abbrev S16 : Shape := ⟨1, ![16]⟩
abbrev S_ : Shape := ⟨0, ![]⟩

class Facts : Prop where
  bcast_S_S16x513x32000 : S_.BroadcastsInDim S16x513x32000 (![] : Fin 0 → Fin S16x513x32000.rank)
  reducesTo_S16x513x32000_S_d0_1_2 : S16x513x32000.ReducesTo [0, 1, 2] S_
  h_S_ : 0 < S_.numel
  bcast_S_S16x513 : S_.BroadcastsInDim S16x513 (![] : Fin 0 → Fin S16x513.rank)
  reducesTo_S16x513_S_d0_1 : S16x513.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S16x513x32000 .f32) (main_arg1 : IVec S16x513 32) (main_arg2 : IVec S16 32) : IVec S_ 1 :=
  let main_v0 : FVec F S16x513x32000 .f32 := Host.absf main_arg0
  let main_cst : FVec F S_ .f32 := constant S_ .f32 0x7F800000#32
  let main_v1 : FVec F S16x513x32000 .f32 := broadcastInDim S16x513x32000 ![] bcast_S_S16x513x32000 main_cst
  let main_v2 : IVec S16x513x32000 1 := cmpf .olt main_v0 main_v1
  let main_c : IVec S_ 1 := constantI S_ 1 1#1
  let main_v3 : IVec S_ 1 := (fun x v => Host.reduce IntOp.andi x v reducesTo_S16x513x32000_S_d0_1_2 h_S_) main_v2 main_c
  let main_c_0 : IVec S_ 32 := constantI S_ 32 0#32
  let main_v4 : IVec S16x513 32 := broadcastInDim S16x513 ![] bcast_S_S16x513 main_c_0
  let main_v5 : IVec S16x513 1 := cmpi .sge main_arg1 main_v4
  let main_c_1 : IVec S_ 32 := constantI S_ 32 32000#32
  let main_v6 : IVec S16x513 32 := broadcastInDim S16x513 ![] bcast_S_S16x513 main_c_1
  let main_v7 : IVec S16x513 1 := cmpi .slt main_arg1 main_v6
  let main_v8 : IVec S16x513 1 := andi main_v5 main_v7
  let main_c_2 : IVec S_ 1 := constantI S_ 1 1#1
  let main_v9 : IVec S_ 1 := (fun x v => Host.reduce IntOp.andi x v reducesTo_S16x513_S_d0_1 h_S_) main_v8 main_c_2
  let main_v10 : IVec S_ 1 := andi main_v3 main_v9
  let main_c_3 : IVec S_ 32 := constantI S_ 32 512#32
  let main_v11 : IVec S16 32 := broadcastInDim S16 ![] bcast_S_S16 main_c_3
  let main_v12 : IVec S16 1 := cmpi .sle main_arg2 main_v11
  let main_c_4 : IVec S_ 1 := constantI S_ 1 1#1
  let main_v13 : IVec S_ 1 := (fun x v => Host.reduce IntOp.andi x v reducesTo_S16_S_d0 h_S_) main_v12 main_c_4
  let main_v14 : IVec S_ 1 := andi main_v10 main_v13
  main_v14
-- ==== Kernel.lean ====
abbrev S16x513x32000 : Shape := ⟨3, ![16, 513, 32000]⟩
abbrev S16x513 : Shape := ⟨2, ![16, 513]⟩
abbrev S16 : Shape := ⟨1, ![16]⟩
abbrev S16x513x1 : Shape := ⟨3, ![16, 513, 1]⟩
abbrev S16x1x1 : Shape := ⟨3, ![16, 1, 1]⟩
abbrev S1x64x32000 : Shape := ⟨3, ![1, 64, 32000]⟩
abbrev S1x64x1 : Shape := ⟨3, ![1, 64, 1]⟩
abbrev S1x1x1 : Shape := ⟨3, ![1, 1, 1]⟩
abbrev S64x32000 : Shape := ⟨2, ![64, 32000]⟩
abbrev S64x1 : Shape := ⟨2, ![64, 1]⟩
abbrev S1 : Shape := ⟨1, ![1]⟩
abbrev S64 : Shape := ⟨1, ![64]⟩
abbrev S1x1 : Shape := ⟨2, ![1, 1]⟩
abbrev S_ : Shape := ⟨0, ![]⟩

abbrev nBuf : Space → Nat
  | .hbm => 12
  | .vmem => 8
  | .smem => 1
  | _ => 0

abbrev bufTy : (tb : Table) → Fin (tcTables nBuf tb) → BufTy
  | .hbm, ⟨0, _⟩ => ⟨S16x513x32000, .f32⟩
  | .hbm, ⟨1, _⟩ => ⟨S16x513, .i32⟩
  | .hbm, ⟨2, _⟩ => ⟨S16x513x1, .i32⟩
  | .hbm, ⟨3, _⟩ => ⟨S16x1x1, .f32⟩
  | .hbm, ⟨4, _⟩ => ⟨S16x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x64x32000, .f32⟩
  | .local _ .vmem, ⟨1, _⟩ => ⟨S1x64x32000, .f32⟩
  | .local _ .vmem, ⟨2, _⟩ => ⟨S1x64x1, .i32⟩
  | .local _ .vmem, ⟨3, _⟩ => ⟨S1x64x1, .i32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .smem, ⟨0, _⟩ => ⟨S16, .i32⟩
  | _, _ => ⟨S16x513x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 9], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v8 : Index := Scalar.indexCast arg0
  ![v8.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S16x513_S16x513x1_0_1 : S16x513.BroadcastsInDim S16x513x1 (![0, 1] : Fin 2 → Fin S16x513x1.rank)
  inb_S1x1x1_S1x1x1_0_0_0 : ∀ a, (![0, 0, 0] : Fin 3 → Nat) a + S1x1x1.size a ≤ S1x1x1.size a
  h_S1x1x1 : 0 < S1x1x1.numel
  inb_S1x64x32000_S1x64x32000_0_0_0 : ∀ a, (![0, 0, 0] : Fin 3 → Nat) a + S1x64x32000.size a ≤ S1x64x32000.size a
  h_S1x64x32000 : 0 < S1x64x32000.numel
  shapeCasts_S1x64x32000_S64x32000 : S1x64x32000.ShapeCasts S64x32000
  inb_S1x64x1_S1x64x1_0_0_0 : ∀ a, (![0, 0, 0] : Fin 3 → Nat) a + S1x64x1.size a ≤ S1x64x1.size a
  h_S1x64x1 : 0 < S1x64x1.numel
  shapeCasts_S1x64x1_S1x64x1 : S1x64x1.ShapeCasts S1x64x1
  shapeCasts_S1x64x1_S64x1 : S1x64x1.ShapeCasts S64x1
  numel1_S1 : S1.numel = 1
  reduces_S64x32000_S64 : S64x32000.Reduces [1] S64
  shapeCasts_S64_S64x1 : S64.ShapeCasts S64x1
  broadcasts_S64x1_S64x32000 : S64x1.Broadcasts S64x32000
  iota_S64x32000_d1_w32 : S64x32000.Iotas .tc 32 [1]
  iota_S64x1_d0_w32 : S64x1.Iotas .tc 32 [0]
  natLt_1_32 : 1 < 32
  shapeCasts_S1x1x1_S1x1x1 : S1x1x1.ShapeCasts S1x1x1
  reduces_S64x1_S1 : S64x1.Reduces [0] S1
  shapeCasts_S1_S1x1 : S1.ShapeCasts S1x1
  shapeCasts_S1x1_S1x1x1 : S1x1.ShapeCasts S1x1x1
  reducesTo_S16x1x1_S_d0_1_2 : S16x1x1.ReducesTo [0, 1, 2] S_
  h_S_ : 0 < S_.numel
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x64x32000.size a < S16x513x32000.size a
  hwx0_0 : ∀ i : grid0.Coords, EltTy.bits .f32 = 32 ∨ (Rect.unit (s := S16x513x32000) (fun a => cc0_transform_0 i a * S1x64x32000.size a) (fun a => (Pipeline.Clip.of (cc0_transform_0 i a) (S1x64x32000.size a) (S16x513x32000.size a)).extent (S1x64x32000.size a)) fun a => Pipeline.Clip.inb (Pipeline.Clip.ok_of (hstart0_0 i a))).WholeWords (EltTy.packing .f32)
  hwxs0_0 : ∀ i : grid0.Coords, EltTy.bits .f32 = 32 ∨ (Rect.unit (s := S1x64x32000) (fun _ => 0) (fun a => (Pipeline.Clip.of (cc0_transform_0 i a) (S1x64x32000.size a) (S16x513x32000.size a)).extent (S1x64x32000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x64x1.size a < S16x513x1.size a
  hwx0_1 : ∀ i : grid0.Coords, EltTy.bits .i32 = 32 ∨ (Rect.unit (s := S16x513x1) (fun a => cc0_transform_1 i a * S1x64x1.size a) (fun a => (Pipeline.Clip.of (cc0_transform_1 i a) (S1x64x1.size a) (S16x513x1.size a)).extent (S1x64x1.size a)) fun a => Pipeline.Clip.inb (Pipeline.Clip.ok_of (hstart0_1 i a))).WholeWords (EltTy.packing .i32)
  hwxs0_1 : ∀ i : grid0.Coords, EltTy.bits .i32 = 32 ∨ (Rect.unit (s := S1x64x1) (fun _ => 0) (fun a => (Pipeline.Clip.of (cc0_transform_1 i a) (S1x64x1.size a) (S16x513x1.size a)).extent (S1x64x1.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)

variable [Facts₀]

abbrev clip0_0 (i : grid0.Coords) : Fin S16x513x32000.rank → Pipeline.Clip := fun a => Pipeline.Clip.of (cc0_transform_0 i a) (S1x64x32000.size a) (S16x513x32000.size a)
abbrev spec0_0 : Pipeline.WinSpec sig grid0.rank :=
  Pipeline.WinSpec.ofSpec (Memref.whole main_arg0) S1x64x32000.size reads0_0 false false 2 stage0_0 sem0_0 nbuf0_0 hstage0_0

abbrev clip0_1 (i : grid0.Coords) : Fin S16x513x1.rank → Pipeline.Clip := fun a => Pipeline.Clip.of (cc0_transform_1 i a) (S1x64x1.size a) (S16x513x1.size a)
abbrev spec0_1 : Pipeline.WinSpec sig grid0.rank :=
  Pipeline.WinSpec.ofSpec (Memref.whole main_v0) S1x64x1.size reads0_1 false false 2 stage0_1 sem0_1 nbuf0_1 hstage0_1

abbrev spec0_2 : Pipeline.WinSpec sig grid0.rank :=
  Pipeline.WinSpec.ofSpec (Memref.whole main_v1_0) S1x1x1.size reads0_2 true false 2 stage0_2 sem0_2 nbuf0_2 hstage0_2

abbrev spec0_3 : Pipeline.WinSpec sig grid0.rank :=
  Pipeline.WinSpec.ofSpec (Memref.whole main_v1_1) S1x1x1.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
abbrev clip0 (pf : pre0.Contents (Elt F)) : (w : Fin 4) → grid0.Coords → Fin (spec0 w).shape.rank → Pipeline.Clip := fun | 0 => clip0_0 | 1 => clip0_1 | 2 => fun _ _ => none | 3 => fun _ _ => none | ⟨_ + 4, h⟩ => absurd h (Nat.not_lt.2 (Nat.le_add_left _ _))
theorem hclip0 : ∀ (pf : pre0.Contents (Elt F)), ok0 pf → ∀ w (i : grid0.Coords) a, Pipeline.Clip.Ok (ix0 pf w i a) ((spec0 w).size a) ((spec0 w).shape.size a) (clip0 pf w i a) :=
  fun _ _ => fun | 0 => fun i a => Pipeline.Clip.ok_of (hstart0_0 i a) | 1 => fun i a => Pipeline.Clip.ok_of (hstart0_1 i a) | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.unit (fun a => ix0 pf w i a * (spec0 w).size a)
    (fun a => (clip0 pf w i a).extent ((spec0 w).size a)) fun a => Pipeline.Clip.inb (hclip0 pf hok w i a)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))
theorem hwxs0 : ∀ (pf : pre0.Contents (Elt F)) (hok : ok0 pf) w (i : grid0.Coords), (spec0 w).elt.bits = 32 ∨ (Rect.unit (s := (spec0 w).block) (fun _ => 0)
    (fun a => (clip0 pf w i a).extent ((spec0 w).size a)) fun a => (Nat.zero_add _).trans_le (Pipeline.Clip.extent_le (hclip0 pf hok w i a))).WholeWords (spec0 w).elt.packing :=
  fun _ _ => fun | 0 => hwxs0_0 | 1 => hwxs0_1 | 2 => fun _ => .inr (Rect.wholeWords_whole _ _) | 3 => fun _ => .inr (Rect.wholeWords_whole _ _) | ⟨_ + 4, h⟩ => absurd h (Nat.not_lt.2 (Nat.le_add_left _ _))
abbrev loose0 : Fin 4 → Bool := fun | 0 => true | 1 => true | 2 => false | 3 => false | ⟨_ + 4, h⟩ => absurd h (Nat.not_lt.2 (Nat.le_add_left _ _))
theorem hstage0 : ∀ w s, ((spec0 w).stage s).IsWhole := fun | 0 => hstage0_0 | 1 => hstage0_1 | 2 => hstage0_2 | 3 => hstage0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16x513x32000 : Shape := ⟨3, ![16, 513, 32000]⟩
abbrev S16x513 : Shape := ⟨2, ![16, 513]⟩
abbrev S16 : Shape := ⟨1, ![16]⟩
abbrev S16x512x32000 : Shape := ⟨3, ![16, 512, 32000]⟩
abbrev S16x512 : Shape := ⟨2, ![16, 512]⟩
abbrev S512 : Shape := ⟨1, ![512]⟩
abbrev S1x512 : Shape := ⟨2, ![1, 512]⟩
abbrev S16x1 : Shape := ⟨2, ![16, 1]⟩
abbrev S_ : Shape := ⟨0, ![]⟩
abbrev S16x512x1 : Shape := ⟨3, ![16, 512, 1]⟩
abbrev S16x512x1x1 : Shape := ⟨4, ![16, 512, 1, 1]⟩
abbrev S1 : Shape := ⟨1, ![1]⟩
abbrev S1x1x1x1 : Shape := ⟨4, ![1, 1, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S16x513x32000, .f32⟩
  | .hbm, ⟨1, _⟩ => ⟨S16x513, .i32⟩
  | .hbm, ⟨2, _⟩ => ⟨S16, .i32⟩
  | .hbm, ⟨3, _⟩ => ⟨S16x512x32000, .f32⟩
  | .hbm, ⟨4, _⟩ => ⟨S16x512, .i32⟩
  | .hbm, ⟨5, _⟩ => ⟨S512, .i32⟩
  | .hbm, ⟨6, _⟩ => ⟨S1x512, .i32⟩
  | .hbm, ⟨7, _⟩ => ⟨S16x1, .i32⟩
  | .hbm, ⟨8, _⟩ => ⟨S16x512, .i32⟩
  | .hbm, ⟨9, _⟩ => ⟨S16x512, .i32⟩
  | .hbm, ⟨10, _⟩ => ⟨S16x512, .i1⟩
  | .hbm, ⟨11, _⟩ => ⟨S_, .i32⟩
  | .hbm, ⟨12, _⟩ => ⟨S16x512, .i32⟩
  | .hbm, ⟨13, _⟩ => ⟨S16x512, .i1⟩
  | .hbm, ⟨14, _⟩ => ⟨S16x512, .i1⟩
  | .hbm, ⟨15, _⟩ => ⟨S_, .f32⟩
  | .hbm, ⟨16, _⟩ => ⟨S16x512, .f32⟩
  | .hbm, ⟨17, _⟩ => ⟨S_, .f32⟩
  | .hbm, ⟨18, _⟩ => ⟨S16x512, .f32⟩
  | .hbm, ⟨19, _⟩ => ⟨S16x512, .f32⟩
  | .hbm, ⟨20, _⟩ => ⟨S16x512x1, .f32⟩
  | .hbm, ⟨21, _⟩ => ⟨S16x512x32000, .f32⟩
  | .hbm, ⟨22, _⟩ => ⟨S16x512x32000, .f32⟩
  | .hbm, ⟨23, _⟩ => ⟨S16x512x32000, .f32⟩
  | .hbm, ⟨24, _⟩ => ⟨S_, .f32⟩
  | .hbm, ⟨25, _⟩ => ⟨S16x512, .f32⟩
  | .hbm, ⟨26, _⟩ => ⟨S16x512x1, .f32⟩
  | .hbm, ⟨27, _⟩ => ⟨S16x512x1, .f32⟩
  | .hbm, ⟨28, _⟩ => ⟨S16x512x32000, .f32⟩
  | .hbm, ⟨29, _⟩ => ⟨S16x512x32000, .f32⟩
  | .hbm, ⟨30, _⟩ => ⟨S16x512x1, .i32⟩
  | .hbm, ⟨31, _⟩ => ⟨S_, .i32⟩
  | .hbm, ⟨32, _⟩ => ⟨S16x512x1, .i32⟩
  | .hbm, ⟨33, _⟩ => ⟨S16x512x1, .i1⟩
  | .hbm, ⟨34, _⟩ => ⟨S_, .i32⟩
  | .hbm, ⟨35, _⟩ => ⟨S16x512x1, .i32⟩
  | .hbm, ⟨36, _⟩ => ⟨S16x512x1, .i32⟩
  | .hbm, ⟨37, _⟩ => ⟨S16x512x1, .i32⟩
  | .hbm, ⟨38, _⟩ => ⟨S16x512x1x1, .i32⟩
  | .hbm, ⟨39, _⟩ => ⟨S1, .i32⟩
  | .hbm, ⟨40, _⟩ => ⟨S_, .i32⟩
  | .hbm, ⟨41, _⟩ => ⟨S16x512x1x1, .i32⟩
  | .hbm, ⟨42, _⟩ => ⟨S16x512x1x1, .i1⟩
  | .hbm, ⟨43, _⟩ => ⟨S1x1x1x1, .i32⟩
  | .hbm, ⟨44, _⟩ => ⟨S16x512x1x1, .i32⟩
  | .hbm, ⟨45, _⟩ => ⟨S16x512x1x1, .i1⟩
  | .hbm, ⟨46, _⟩ => ⟨S16x512x1x1, .i1⟩
  | .hbm, ⟨47, _⟩ => ⟨S_, .i1⟩
  | .hbm, ⟨48, _⟩ => ⟨S16x512x1, .i1⟩
  | .hbm, ⟨49, _⟩ => ⟨S16x512x1, .f32⟩
  | .hbm, ⟨50, _⟩ => ⟨S_, .f32⟩
  | .hbm, ⟨51, _⟩ => ⟨S16x512x1, .f32⟩
  | .hbm, ⟨52, _⟩ => ⟨S16x512x1, .f32⟩
  | .hbm, ⟨53, _⟩ => ⟨S16x512, .f32⟩
  | .hbm, ⟨54, _⟩ => ⟨S16x512, .f32⟩
  | .hbm, ⟨55, _⟩ => ⟨S16x512, .f32⟩
  | .hbm, ⟨56, _⟩ => ⟨S16x512, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S16x513x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_cst_1 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_v11 : Ref sig .tc := ⟨.hbm, 29, rfl⟩
abbrev main_v12 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_cst : Ref sig .tc := ⟨.hbm, 57, rfl⟩
abbrev main_v18 : Ref sig .tc := ⟨.hbm, 58, rfl⟩
abbrev main_cst_0 : Ref sig .tc := ⟨.hbm, 59, rfl⟩
abbrev main_v19 : Ref sig .tc := ⟨.hbm, 60, rfl⟩
abbrev main_cst_1 : Ref sig .tc := ⟨.hbm, 61, rfl⟩
abbrev main_v20 : Ref sig .tc := ⟨.hbm, 62, rfl⟩
abbrev main_v21 : Ref sig .tc := ⟨.hbm, 63, rfl⟩

abbrev nD : Nat := 1
abbrev τ : Topo := Topo.v7x

variable {F : FTy → Type} [FloatOps F]

class Facts₀ : Prop where
  slices_S16x513x32000_S16x512x32000_0_1_0 : S16x513x32000.Slices ![0, 1, 0] S16x512x32000
  slices_S16x513_S16x512_0_1 : S16x513.Slices ![0, 1] S16x512
  bcast_S512_S1x512_1 : S512.BroadcastsInDim S1x512 (![1] : Fin 1 → Fin S1x512.rank)
  bcast_S16_S16x1_0 : S16.BroadcastsInDim S16x1 (![0] : Fin 1 → Fin S16x1.rank)
  bcast_S1x512_S16x512_0_1 : S1x512.BroadcastsInDim S16x512 (![0, 1] : Fin 2 → Fin S16x512.rank)
  bcast_S16x1_S16x512_0_1 : S16x1.BroadcastsInDim S16x512 (![0, 1] : Fin 2 → Fin S16x512.rank)
  bcast_S_S16x512 : S_.BroadcastsInDim S16x512 (![] : Fin 0 → Fin S16x512.rank)
  reducesTo_S16x512x32000_S16x512_d2 : S16x512x32000.ReducesTo [2] S16x512
  h_S_ : 0 < S_.numel
  bcast_S16x512_S16x512x1_0_1 : S16x512.BroadcastsInDim S16x512x1 (![0, 1] : Fin 2 → Fin S16x512x1.rank)
  bcast_S16x512x1_S16x512x32000_0_1_2 : S16x512x1.BroadcastsInDim S16x512x32000 (![0, 1, 2] : Fin 3 → Fin S16x512x32000.rank)
  bcast_S_S16x512x1 : S_.BroadcastsInDim S16x512x1 (![] : Fin 0 → Fin S16x512x1.rank)
  shapeCasts_S16x512x1_S16x512x1x1 : S16x512x1.ShapeCasts S16x512x1x1
  bcast_S_S16x512x1x1 : S_.BroadcastsInDim S16x512x1x1 (![] : Fin 0 → Fin S16x512x1x1.rank)
  bcast_S1_S1x1x1x1_3 : S1.BroadcastsInDim S1x1x1x1 (![3] : Fin 1 → Fin S1x1x1x1.rank)
  bcast_S1x1x1x1_S16x512x1x1_0_1_2_3 : S1x1x1x1.BroadcastsInDim S16x512x1x1 (![0, 1, 2, 3] : Fin 4 → Fin S16x512x1x1.rank)
  reducesTo_S16x512x1x1_S16x512x1_d3 : S16x512x1x1.ReducesTo [3] S16x512x1
  shapeCasts_S16x512x1_S16x512 : S16x512x1.ShapeCasts S16x512
  reducesTo_S16x512_S_d0_1 : S16x512.ReducesTo [0, 1] S_
  gather_S16x512x32000_S16x512x1x1_S16x512x1_n_2_01_01_2_3_111_wf : GatherDims.WF S16x512x32000 S16x512x1x1 S16x512x1 [] [2] [0, 1] [2] [0, 1] 3 ![1, 1, 1]

variable [Facts₀]

def gather_S16x512x32000_S16x512x1x1_S16x512x1_n_2_01_01_2_3_111 : GatherDims S16x512x32000 S16x512x1x1 S16x512x1 where
  offsetDims := []
  collapsedSliceDims := [2]
  operandBatchingDims := [0, 1]
  startIndicesBatchingDims := [0, 1]
  startIndexMap := [2]
  indexVectorDim := 3
  sliceSizes := ![1, 1, 1]
  wf := gather_S16x512x32000_S16x512x1x1_S16x512x1_n_2_01_01_2_3_111_wf

class Facts : Prop extends Facts₀ where

variable [Facts]
-- ==== Proof.PreFacts.lean ====
/-
  The precondition, read back at its two integer arguments. The predicate is the conjunction of three
  universally quantified statements: every entry of the float array is finite in absolute value, every target word t
  satisfies 0 ≤ t < 32000 read signed, and every length word l satisfies l ≤ 512 read signed. When the predicate is
  all ones each conjunct is 1, each reduction by "and" over all axes gives its element at every index, and each element
  is a signed comparison of a word with a literal. A word that is nonnegative read signed has the same value read
  unsigned, so 0 ≤ t < 32000 signed gives t.toNat < 32000.
-/
import proofs.«429088_j18107582120438_1_alg».proof.Pre_finite_inputs
import Idealize.ShloMosaic.Lib.ReduceAll
import Idealize.ShloMosaic.Lib.ValueIdx

namespace Cert.PreFacts

open Idealize.ShloMosaic
open Cert.Pre_finite_inputs

/-- The rank-0 shape has one index. -/
instance : Subsingleton S_.Idx := ⟨fun a b => funext fun d => d.elim0⟩

variable {F : FTy → Type} [FloatOps F] [Cert.Pre_finite_inputs.Facts]

/-- The two integer conjuncts of the predicate, at every index, as comparisons of words with literals. -/
theorem words (x : FVec F S16x513x32000 .f32) (trg : IVec S16x513 32) (len : IVec S16 32)
    (h : Cert.Pre_finite_inputs.fn (F := F) x trg len = fun _ => 1#1) :
    (∀ j, IntOp.cmpi .sge (trg j) 0#32 = 1#1 ∧ IntOp.cmpi .slt (trg j) 32000#32 = 1#1)
      ∧ ∀ j, IntOp.cmpi .sle (len j) 512#32 = 1#1 := by
  have e := congrFun h ValueIdx.ix0
  dsimp only [Cert.Pre_finite_inputs.fn] at e
  obtain ⟨e12, e3⟩ := IntOp.andi_eq_one.1 e
  obtain ⟨-, e2⟩ := IntOp.andi_eq_one.1 e12
  refine ⟨fun j => ?_, fun j => ?_⟩
  · exact IntOp.andi_eq_one.1 (Host.reduce_andi_all _ _ _ _ _ e2 j)
  · exact Host.reduce_andi_all _ _ _ _ _ e3 j

/-- Every target word is below 32000 read unsigned. -/
theorem trg_lt (x : FVec F S16x513x32000 .f32) (trg : IVec S16x513 32) (len : IVec S16 32)
    (h : Cert.Pre_finite_inputs.fn (F := F) x trg len = fun _ => 1#1) : ∀ j, (trg j).toNat < 32000 := by
  intro j
  obtain ⟨h0, h1⟩ := (words x trg len h).1 j
  rw [IntOp.cmpi_sge] at h0
  rw [IntOp.cmpi_slt] at h1
  have c0 : (0#32 : BitVec 32).toInt = 0 := by decide
  have c1 : (32000#32 : BitVec 32).toInt = 32000 := by decide
  rw [c0] at h0
  rw [c1] at h1
  have hlt := (trg j).isLt
  rw [BitVec.toInt_eq_toNat_cond] at h0 h1
  split at h0 <;> omega

/-- Every length word is at most 512 read signed. -/
theorem len_le (x : FVec F S16x513x32000 .f32) (trg : IVec S16x513 32) (len : IVec S16 32)
    (h : Cert.Pre_finite_inputs.fn (F := F) x trg len = fun _ => 1#1) : ∀ j, (len j).toInt ≤ 512 := by
  intro j
  have h2 := (words x trg len h).2 j
  rw [IntOp.cmpi_sle] at h2
  have c : (512#32 : BitVec 32).toInt = 512 := by decide
  rw [c] at h2
  exact h2

end Cert.PreFacts
-- ==== Proof.Kit.lean ====
/-
  What the run of the program's one launch is stated over, for any float family: the arrays as the launch finds them
  (after the one host line before it, which lays the targets out as a column), the lengths table as the launch reads it,
  the pipeline at that table, and the host lines after the launch (two sums, a maximum with 1, a quotient), which touch
  neither an argument nor the table.
-/
import proofs.«429088_j18107582120438_1_alg».proof.Proof.Gen.KernelIdeal.Launch
import proofs.«429088_j18107582120438_1_alg».proof.Proof.Gen.KernelIdeal.Skeleton
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the launch is entered -/

/-- Every buffer's contents once the host line before the launch has run. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host line, the launch, and the seven host lines after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-- The host line before the launch writes the targets' column only: the three arguments are as launched. -/
theorem V_main_arg0 (c : Dev nD) : V m c main_arg0 = m ((c : Thread nD τ).loc main_arg0) := by
  show StableHlo.after (List.flatten [hostOps0]) (fun b => m (c, b)) (Proc.devRef .tc main_arg0) = _
  simp only [hostOps0, List.flatten_cons, List.flatten_nil, List.append_nil]; after_results
theorem V_main_arg1 (c : Dev nD) : V m c main_arg1 = m ((c : Thread nD τ).loc main_arg1) := by
  show StableHlo.after (List.flatten [hostOps0]) (fun b => m (c, b)) (Proc.devRef .tc main_arg1) = _
  simp only [hostOps0, List.flatten_cons, List.flatten_nil, List.append_nil]; after_results
theorem V_main_arg2 (c : Dev nD) : V m c main_arg2 = m ((c : Thread nD τ).loc main_arg2) := by
  show StableHlo.after (List.flatten [hostOps0]) (fun b => m (c, b)) (Proc.devRef .tc main_arg2) = _
  simp only [hostOps0, List.flatten_cons, List.flatten_nil, List.append_nil]; after_results
/-- The targets' column: entry (b, p, 0) is target (b, p). -/
theorem V_main_v0 (c : Dev nD) : (V m c main_v0 : S16x513x1.Idx → Elt F .i32)
    = broadcastInDim S16x513x1 ![0, 1] bcast_S16x513_S16x513x1_0_1 (m ((c : Thread nD τ).loc main_arg1)) := by
  show StableHlo.after (List.flatten [hostOps0]) (fun b => m (c, b)) (Proc.devRef .tc main_v0) = _
  simp only [hostOps0, List.flatten_cons, List.flatten_nil, List.append_nil]; after_results

/-! ## The lengths table -/

/-- The table's contents when the launch is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table: every contents of it is admissible. -/
abbrev adm : (pcfg0 (F := F)).Adm := ⟨tbl m, trivial⟩
/-- The pipeline at the table's contents. -/
abbrev cfgM : Pipeline.Cfg sig Λ₀ := cfg0 (adm m)

/-- The table as the body is handed it. -/
abbrev tbM : Memref sig .tc .smem S16 .i32 := Memref.whole main_arg2
abbrev htbM : (tbM).IsWhole := Memref.isWhole_whole _
abbrev TbBuf (c : Dev nD) : Type := Buf (Elt F) (tbM.view.loc (c : Thread nD τ))
/-- The body reads it at half the full share. -/
abbrev tbPt (c : Dev nD) (f : TbBuf (F := F) c) : sProp 𝕄 := tbM.view.loc (c : Thread nD τ) ↦{fullShare.right} f

theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The host lines after the launch -/

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  simp only [hostOps1, List.mem_cons, List.mem_nil_iff, or_false] at hop
  have h1 := (List.forall_iff_forall_mem.mp (hostOps1_sub (F := F))) op (by simp only [hostOps1, List.mem_cons, List.mem_nil_iff, or_false]; exact hop)
  refine Pipeline.sub_tailRefs pre0 spec0 op h1 fun k => ?_
  fin_cases k
  rcases hop with rfl | rfl | rfl | rfl | rfl | rfl | rfl <;>
    simp only [StableHlo.nullary_bufs, StableHlo.binary_bufs, Finset.mem_insert, Finset.mem_singleton, not_or] <;>
    (first | exact StableHlo.devRef_ne_of_ne (by decide) | exact ⟨StableHlo.devRef_ne_of_ne (by decide), StableHlo.devRef_ne_of_ne (by decide), StableHlo.devRef_ne_of_ne (by decide)⟩)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, Finset.mem_singleton] <;> exact StableHlo.devRef_ne_of_ne (by decide)

end Cert.KernelIdeal.Hand

end
-- ==== Proof.Sched.lean ====
/-
  The schedule of the program's one launch on its grid of 16 x 9 = 144 points, run row-major: point t has first
  coordinate t / 9 (the sequence) and second coordinate t % 9 (the tile of 64 positions). The logits' and the targets'
  windows move with both coordinates, so each is fetched at every point; the two 1x1x1 outputs move with the sequence
  only, so each is written back exactly at a sequence's last tile, t % 9 = 8; the body's reset of the two outputs is
  guarded by "the tile number is 0", which holds exactly at t % 9 = 0. No index map reads the lengths table, so all of
  this is the same at every contents of the table and is decided over the grid and the closed maps.
-/
import proofs.«429088_j18107582120438_1_alg».proof.Proof.Kit

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Cfg Window)

variable {F : FTy → Type} [FloatOps F]

variable (m : (ℓ : Loc nD τ sig) → Buf (Elt F) ℓ)

/-! ## The grid's points -/

/-- The grid has 144 points. -/
theorem N_eq : (cfgM m).N = 144 := N_0

/-- Point t is in sequence t / 9 … -/
theorem coords_0 (t : Fin (cfgM m).N) : ((grid0.coords t) 0).val = t.val / 9 :=
  (by decide +kernel : ∀ t : Fin grid0.N, ((grid0.coords t) 0).val = t.val / 9) t
/-- … at tile t % 9. -/
theorem coords_1 (t : Fin (cfgM m).N) : ((grid0.coords t) 1).val = t.val % 9 :=
  (by decide +kernel : ∀ t : Fin grid0.N, ((grid0.coords t) 1).val = t.val % 9) t

/-! ## Where each window is fetched or written back -/

/-- The logits' window is fetched at every point. -/
theorem fetch_0 : ∀ t : Fin (cfgM m).N, ((cfgM m).win 0).fetch t = true :=
  (by decide +kernel : ∀ t : Fin grid0.N, Pipeline.Window.fetchOf grid0 false cc0_transform_0 t = true)
/-- The targets' window is fetched at every point. -/
theorem fetch_1 : ∀ t : Fin (cfgM m).N, ((cfgM m).win 1).fetch t = true :=
  (by decide +kernel : ∀ t : Fin grid0.N, Pipeline.Window.fetchOf grid0 false cc0_transform_1 t = true)
/-- The first output is written back at a sequence's last tile only. -/
theorem flush_2 : ∀ t : Fin (cfgM m).N, ((cfgM m).win 2).flush t = true ↔ t.val % 9 = 8 :=
  (by decide +kernel : ∀ t : Fin grid0.N, Pipeline.Window.flushOf grid0 true cc0_transform_2 t = true ↔ t.val % 9 = 8)
/-- The second output is written back at a sequence's last tile only. -/
theorem flush_3 : ∀ t : Fin (cfgM m).N, ((cfgM m).win 3).flush t = true ↔ t.val % 9 = 8 :=
  (by decide +kernel : ∀ t : Fin grid0.N, Pipeline.Window.flushOf grid0 true cc0_transform_3 t = true ↔ t.val % 9 = 8)

/-! ## The guard of the outputs' reset -/

/-- The body's first test: the tile number, as a word, equals 0 (the comparison's bit widened to a word and compared
    with 0 again, as the body computes it). -/
abbrev cond0 (i : grid0.Coords) : Prop :=
  (Scalar.cmpi .ne (Scalar.extui (Scalar.cmpi .eq (BitVec.ofNat 32 (i 1).val) 0#32) : BitVec 32) 0#32) = 1#1
/-- It holds exactly at a sequence's first tile. -/
theorem cond0_iff : ∀ t : Fin (cfgM m).N, cond0 (grid0.coords t) ↔ t.val % 9 = 0 :=
  (by decide +kernel : ∀ t : Fin grid0.N, cond0 (grid0.coords t) ↔ t.val % 9 = 0)

/-! ## Idle points, cuts and directions -/

/-- No window is declared idle anywhere. -/
theorem idle_false (w : Fin (cfgM m).W) (i : (cfgM m).grid.Coords) : (cfgM m).idle w i = false := rfl
/-- The outputs' blocks tile their arrays: their transfers are never cut. -/
theorem clip_none_2 (i : (cfgM m).grid.Coords) (a : Fin ((cfgM m).win 2).shape.rank) : ((cfgM m).win 2).clip i a = none := rfl
theorem clip_none_3 (i : (cfgM m).grid.Coords) (a : Fin ((cfgM m).win 3).shape.rank) : ((cfgM m).win 3).clip i a = none := rfl
/-- Windows 0 and 1 are inputs, windows 2 and 3 outputs. -/
theorem isOut_0 : ((cfgM m).win 0).isOut = false := rfl
theorem isOut_1 : ((cfgM m).win 1).isOut = false := rfl
theorem isOut_2 : ((cfgM m).win 2).isOut = true := rfl
theorem isOut_3 : ((cfgM m).win 3).isOut = true := rfl

end Cert.KernelIdeal.Hand

end
-- ==== Proof.BodyRun.lean ====
/-
  The kernel body's triple, for any float family, with the final contents of the two 1x1x1 accumulators spelled out.

  One run of the body at grid point (b, k): if the tile number k is 0 both accumulators are first set to zero; the
  64 x 32000 block of logits, the 64 x 1 block of targets and word b of the lengths table are read; each accumulator is
  read and written back with the tile's contribution added. So with x0 the logits' block, x1 the targets' block and w
  the word read, the first accumulator ends at  pay2 (pay6 x1) (pay7 x0 x1) (pay8 (b, k) w) pay9 y  and the second at
  pay3 (pay6 x1) (pay8 (b, k) w) pay9 y,  where y is what the accumulator held before — zero (pay4, pay5) when k = 0.
  The inputs and the table are handed back as they were. The payloads stay folded throughout.
-/
import proofs.«429088_j18107582120438_1_alg».proof.Proof.Kit
import proofs.«429088_j18107582120438_1_alg».proof.Proof.Sched
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The word of the lengths table the body reads -/

/-- The word the body's scalar load reads out of the table's contents `xt` at grid point `i`: the one-entry load at
    the offset the body computes from the sequence's number. -/
def lenWord (c : Dev nD) (xt : TbBuf (F := F) c) (i : grid0.Coords) : Elt F .i32 :=
  tbM.view.readAt (Elt F) (Rect.unit (s := S16) (k0_off1 i) S1.size (k0_off1_inb i)).toLoadRect xt (Shape.Idx.first (numel1_S1.symm ▸ Nat.one_pos))

/-- It is the table's entry at the sequence's number. -/
theorem lenWord_eq (c : Dev nD) (xt : TbBuf (F := F) c) (i : grid0.Coords) :
    lenWord c xt i = (xt : S16.Idx → Elt F .i32) (ValueIdx.ix1 (n := 16) (i 0)) := by
  unfold lenWord
  rw [View.readAt_apply]
  show xt _ = xt _
  congr 1
  funext a
  apply Fin.ext
  match a with
  | ⟨0, _⟩ =>
    show k0_off1 i 0 + 1 * 0 = (i 0).val
    rw [k0_off1_eq]; rfl

/-! ## Whole loads of whole buffers -/

/-- Three zero offsets, however spelt, are the zero map. -/
theorem hz3 : (![0, 0, 0] : Fin 3 → Nat) = fun _ => 0 := funext fun a => by fin_cases a <;> rfl

/-- A whole load of a whole buffer held at the contents that read `X` reads `X`. -/
theorem readAt_unread {S : Shape} {e : EltTy} (m : Memref sig .tc .vmem S e) (h : m.IsWhole) (X : S.Idx → Elt F e)
    {off : Fin S.rank → Nat} (hz : off = fun _ => 0) (inb : ∀ a, off a + S.size a ≤ S.size a) :
    m.view.readAt (Elt F) (Rect.unit off S.size inb).toLoadRect (h.unread X) = X := by
  rw [View.readAt_eq_ld, h.read_unread, View.ld_unit_zero hz]

/-! ## The body at a sequence's first tile -/

set_option maxHeartbeats 1000000 in
/-- At tile 0 the accumulators, whatever they held, are zeroed and then updated: they end at the tile's contribution
    added to zero. -/
theorem bodyA (c : Dev nD) (E : Set ℕ) (i : grid0.Coords) (arg3 : Memref sig .tc .vmem S1x64x32000 .f32) (harg3 : arg3.IsWhole) (arg4 : Memref sig .tc .vmem S1x64x1 .i32) (harg4 : arg4.IsWhole)
    (arg5 : Memref sig .tc .vmem S1x1x1 .f32) (harg5 : arg5.IsWhole) (arg6 : Memref sig .tc .vmem S1x1x1 .f32) (harg6 : arg6.IsWhole) (hc : cond0 i)
    (x0 : Vec F S1x64x32000 .f32) (x1 : Vec F S1x64x1 .i32) (xt : TbBuf (F := F) c) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ tbPt c xt
        ∗ (iprop(owns (c : Thread nD τ) arg3 fullShare x0 ∗ owns (c : Thread nD τ) arg4 fullShare x1
              ∗ owns (c : Thread nD τ) arg5 fullShare (k0_pay2 (k0_pay6 x1) (k0_pay7 x0 x1) (k0_pay8 i (lenWord c xt i)) k0_pay9 k0_pay4)
              ∗ owns (c : Thread nD τ) arg6 fullShare (k0_pay3 (k0_pay6 x1) (k0_pay8 i (lenWord c xt i)) k0_pay9 k0_pay5) ∗ tbPt c xt) -∗ K ⟨⟩))
      ⊢ wp frame (wpE (defs₀ (F := F)) Variants.none c none) E (cc0__xent_kernel i tbM htbM arg3 harg3 arg4 harg4 arg5 harg5 arg6 harg6) K := by
  simp only [cc0__xent_kernel_eq_skeleton]; unfold cc0__xent_kernel_skel
  simp only [k0_part1_eq_skeleton]
  unfold owns
  iintro ⟨⟨%f0, %hf0, H0⟩, ⟨%f1, %hf1, H1⟩, ⟨%d2, %f2, -, H2⟩, ⟨%d3, %f3, -, H3⟩, HT, Hk⟩
  obtain rfl := harg3.eq_unread hf0; obtain rfl := harg4.eq_unread hf1
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [View.read_writes_eq_canon _ _ _ (fun y => ⟨_, List.mem_cons_self, View.mem_set_unit_zero (S := S1x1x1) hz3 inb_S1x1x1_S1x1x1_0_0_0 y⟩)]
    rw [View.canon_cons_unit_zero (S := S1x1x1) hz3, View.readCov_unit_zero (S := S1x1x1) _ hz3]
    rw [readAt_unread arg4 harg4 x1 hz3, readAt_unread arg3 harg3 x0 hz3]
    rfl
  isplitl [H3]
  · iexists _; isplitr
    swap; · iexact H3
    ipureintro
    sl_unfold_run_names
    rw [View.read_writes_eq_canon _ _ _ (fun y => ⟨_, List.mem_cons_self, View.mem_set_unit_zero (S := S1x1x1) hz3 inb_S1x1x1_S1x1x1_0_0_0 y⟩)]
    rw [View.canon_cons_unit_zero (S := S1x1x1) hz3, View.readCov_unit_zero (S := S1x1x1) _ hz3]
    rw [readAt_unread arg4 harg4 x1 hz3]
    rfl
  iexact HT

/-! ## The body at a later tile -/

set_option maxHeartbeats 1000000 in
/-- At a later tile the accumulators are updated in place: they end at the tile's contribution added to what they held. -/
theorem bodyB (c : Dev nD) (E : Set ℕ) (i : grid0.Coords) (arg3 : Memref sig .tc .vmem S1x64x32000 .f32) (harg3 : arg3.IsWhole) (arg4 : Memref sig .tc .vmem S1x64x1 .i32) (harg4 : arg4.IsWhole)
    (arg5 : Memref sig .tc .vmem S1x1x1 .f32) (harg5 : arg5.IsWhole) (arg6 : Memref sig .tc .vmem S1x1x1 .f32) (harg6 : arg6.IsWhole) (hc : ¬ cond0 i)
    (x0 : Vec F S1x64x32000 .f32) (x1 : Vec F S1x64x1 .i32) (y5 y6 : Vec F S1x1x1 .f32) (xt : TbBuf (F := F) c) (K : PUnit → sProp 𝕄) :
    iprop(owns (c : Thread nD τ) arg3 fullShare x0 ∗ owns (c : Thread nD τ) arg4 fullShare x1 ∗ owns (c : Thread nD τ) arg5 fullShare y5 ∗ owns (c : Thread nD τ) arg6 fullShare y6 ∗ tbPt c xt
        ∗ (iprop(owns (c : Thread nD τ) arg3 fullShare x0 ∗ owns (c : Thread nD τ) arg4 fullShare x1
              ∗ owns (c : Thread nD τ) arg5 fullShare (k0_pay2 (k0_pay6 x1) (k0_pay7 x0 x1) (k0_pay8 i (lenWord c xt i)) k0_pay9 y5)
              ∗ owns (c : Thread nD τ) arg6 fullShare (k0_pay3 (k0_pay6 x1) (k0_pay8 i (lenWord c xt i)) k0_pay9 y6) ∗ tbPt c xt) -∗ K ⟨⟩))
      ⊢ wp frame (wpE (defs₀ (F := F)) Variants.none c none) E (cc0__xent_kernel i tbM htbM arg3 harg3 arg4 harg4 arg5 harg5 arg6 harg6) K := by
  simp only [cc0__xent_kernel_eq_skeleton]; unfold cc0__xent_kernel_skel
  simp only [k0_part1_eq_skeleton]
  unfold owns
  iintro ⟨⟨%f0, %hf0, H0⟩, ⟨%f1, %hf1, H1⟩, ⟨%f2, %hf2, H2⟩, ⟨%f3, %hf3, H3⟩, HT, Hk⟩
  obtain rfl := harg3.eq_unread hf0; obtain rfl := harg4.eq_unread hf1
  obtain rfl := harg5.eq_unread hf2; obtain rfl := harg6.eq_unread hf3
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [View.read_writes_eq_canon _ _ _ (fun y => ⟨_, List.mem_cons_self, View.mem_set_unit_zero (S := S1x1x1) hz3 inb_S1x1x1_S1x1x1_0_0_0 y⟩)]
    rw [View.canon_unit_zero (S := S1x1x1) hz3]
    rw [readAt_unread arg4 harg4 x1 hz3, readAt_unread arg3 harg3 x0 hz3, readAt_unread arg5 harg5 y5 hz3]
    rfl
  isplitl [H3]
  · iexists _; isplitr
    swap; · iexact H3
    ipureintro
    sl_unfold_run_names
    rw [View.read_writes_eq_canon _ _ _ (fun y => ⟨_, List.mem_cons_self, View.mem_set_unit_zero (S := S1x1x1) hz3 inb_S1x1x1_S1x1x1_0_0_0 y⟩)]
    rw [View.canon_unit_zero (S := S1x1x1) hz3]
    rw [readAt_unread arg4 harg4 x1 hz3, readAt_unread arg6 harg6 y6 hz3]
    rfl
  iexact HT

end Cert.KernelIdeal.Hand

end
-- ==== Proof.FrameR.lean ====
/-
  The frame of the kernel program, for any float family: every weakly fair execution of @main terminates without a
  fault, and the three argument arrays (logits, targets, lengths) end as they began. No precondition is needed: the
  body reads its two input blocks and the lengths table, and writes only the two 1x1x1 accumulators, whatever words it
  finds; the host lines around the launch write neither an argument nor the table.

  Nothing about the contents of a staging buffer is named: the proof data relate what the body finds in a buffer to
  what it leaves there by the relation that always holds. The body is then only asked to RUN from any contents to
  some contents, which it does at a sequence's first tile (where it first resets the accumulators) and at every other
  tile (where it adds to what it finds).
-/
import proofs.«429088_j18107582120438_1_alg».proof.Proof.Kit
import proofs.«429088_j18107582120438_1_alg».proof.Proof.Sched
import proofs.«429088_j18107582120438_1_alg».proof.Proof.BodyRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace FrameR

/-! ## The proof data -/

/-- The relational proof data of the launch on core `c`: the four arrays as the launch finds them; of what the body
    leaves in a staging buffer, nothing; the invariant is the class's with the lengths table held at half; nothing
    owed; full shares. -/
def rdat (c : Dev nD) : RDat τ (Elt F) Unit ℕ (UR sig nD τ) ℕ (cfgM m) c where
  A w := V m c (Pipeline.arrRef spec0 w)
  after _ _ _ _ := True
  Φ _ := iprop(Pipeline.ΦA spec0 c ∗ Pipeline.ΦT pre0 (tbl m) c)
  q _ := fullShare
  owed _ := 0

theorem rdat_A (c : Dev nD) (w : Fin (cfgM m).W) : (rdat m c).A w = V m c (Pipeline.arrRef spec0 w) := by
  dsimp only [rdat]

theorem rdat_share (c : Dev nD) (w : Fin (cfgM m).W) : (rdat m c).share w = fullShare := by
  unfold RDat.share; split <;> rfl

/-! ## The buffers the host lines after the launch write -/

/-- The seven scalars the lines after the launch write: two zeros, the two sums, the one, the maximum, the quotient. -/
def T : Finset (Ref sig .tc) := {main_cst, main_v2, main_cst_0, main_v3, main_cst_1, main_v4, main_v5}

theorem sfx_T : ∀ ops ∈ ([hostOps1] : List (List (HloOp τ sig (Elt F)))), ∀ op ∈ ops,
    ∀ b : Ref sig .tc, Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl <;>
    simp only [StableHlo.nullary_writes, StableHlo.unary_writes, StableHlo.binary_writes, Finset.mem_singleton] at hb <;>
    (obtain rfl := Proc.devRef_injective (τ := τ) _ hb; decide)

/-! ## The body obligation -/

/-- The body at point `t`, on what the pipeline calls it with: the table whole, each window's current staging buffer. -/
abbrev bodyAt (t : Fin (cfgM m).N) : Prog (TpuEff nD τ sig (Elt F) Λ₀ .tc) PUnit :=
  cc0__xent_kernel (grid0.coords t) tbM htbM
    (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2))
    (spec0_3.stage ((cfgM m).slots t 3)) (hstage0_3 (((cfgM m).slots t 3).cast nbuf0_3))

/-- At every point, from any contents of the four current staging buffers, the body runs and hands the buffers back
    at some contents; the invariant (the table's half among it) passes through, the core owes nothing throughout. -/
theorem body_obligation (c : Dev nD) : (rdat m c).BodyObligation (defs₀ (F := F)) Variants.none () Set.univ := fun t Y _ => by
  rw [bigSep_W0, bigSep_W0]
  show iprop(iprop(Pipeline.ΦA spec0 c ∗ Pipeline.ΦT pre0 (tbl m) c) ∗ (rdat m c).owesAt () t.castSucc
      ∗ owns (c : Thread nD τ) (spec0_0.stage ((cfgM m).slots t 0)) fullShare (Y 0)
      ∗ owns (c : Thread nD τ) (spec0_1.stage ((cfgM m).slots t 1)) fullShare (Y 1)
      ∗ owns (c : Thread nD τ) (spec0_2.stage ((cfgM m).slots t 2)) fullShare (Y 2)
      ∗ owns (c : Thread nD τ) (spec0_3.stage ((cfgM m).slots t 3)) fullShare (Y 3))
    ⊢ wp frame (wpE (defs₀ (F := F)) Variants.none c none) Set.univ (bodyAt m t) (fun _ =>
      iprop(iprop(Pipeline.ΦA spec0 c ∗ Pipeline.ΦT pre0 (tbl m) c) ∗ (rdat m c).owesAt () t.castSucc
        ∗ (∃ X, ⌜True⌝ ∗ owns (c : Thread nD τ) (spec0_0.stage ((cfgM m).slots t 0)) fullShare X)
        ∗ (∃ X, ⌜True⌝ ∗ owns (c : Thread nD τ) (spec0_1.stage ((cfgM m).slots t 1)) fullShare X)
        ∗ (∃ X, ⌜True⌝ ∗ owns (c : Thread nD τ) (spec0_2.stage ((cfgM m).slots t 2)) fullShare X)
        ∗ (∃ X, ⌜True⌝ ∗ owns (c : Thread nD τ) (spec0_3.stage ((cfgM m).slots t 3)) fullShare X)))
  rw [PhiT_eq]
  iintro ⟨⟨HΦ, HT⟩, Ho, H0, H1, H2, H3⟩
  by_cases hc : cond0 (grid0.coords t)
  · iapply (bodyA c Set.univ (grid0.coords t) _ _ _ _ _ _ _ _ hc (Y 0) (Y 1) (tbl m 0) _)
    isplitl [H0]; · iexact H0
    isplitl [H1]; · iexact H1
    isplitl [H2]; · iexists _; iexact H2
    isplitl [H3]; · iexists _; iexact H3
    isplitl [HT]; · iexact HT
    iintro ⟨H0, H1, H2, H3, HT⟩
    isplitl [HΦ HT]
    · isplitl [HΦ]; · iexact HΦ
      iexact HT
    isplitl [Ho]; · iexact Ho
    isplitl [H0]; · iexists _; isplitr; · ipureintro; trivial
                    iexact H0
    isplitl [H1]; · iexists _; isplitr; · ipureintro; trivial
                    iexact H1
    isplitl [H2]; · iexists _; isplitr; · ipureintro; trivial
                    iexact H2
    iexists _; isplitr; · ipureintro; trivial
    iexact H3
  · iapply (bodyB c Set.univ (grid0.coords t) _ _ _ _ _ _ _ _ hc (Y 0) (Y 1) (Y 2) (Y 3) (tbl m 0) _)
    isplitl [H0]; · iexact H0
    isplitl [H1]; · iexact H1
    isplitl [H2]; · iexact H2
    isplitl [H3]; · iexact H3
    isplitl [HT]; · iexact HT
    iintro ⟨H0, H1, H2, H3, HT⟩
    isplitl [HΦ HT]
    · isplitl [HΦ]; · iexact HΦ
      iexact HT
    isplitl [Ho]; · iexact Ho
    isplitl [H0]; · iexists _; isplitr; · ipureintro; trivial
                    iexact H0
    isplitl [H1]; · iexists _; isplitr; · ipureintro; trivial
                    iexact H1
    isplitl [H2]; · iexists _; isplitr; · ipureintro; trivial
                    iexact H2
    iexists _; isplitr; · ipureintro; trivial
    iexact H3

/-! ## The run of @main -/

set_option backward.isDefEq.respectTransparency.types false in
/-- From any memory with zero counters, every weakly fair execution of @main terminates; at the end each input
    window's array is as the launch found it, and every buffer the launch bypasses and the later lines do not write
    (the targets and the lengths table among them) is as the launch found it. -/
theorem run_main :
    θ_run defs (onTc (τ := τ) (main (F := F))) (s₀ m ρ) (RDat.FramePostR (cfgM m) (rdat m) T (V m)) :=
  RDat.θ_run_frameP_around_T pcfgs (fun _ => adm m) (0 : Fin 1) launch0 defs₀ Variants.none (rdat m) T m ρ main
    (hbody := body_obligation m) (hshare := rdat_share m) (howed := fun _ _ => rfl) (V₀ := V0 m) (opss := [hostOps1])
    (hsub := sfx_sub) (hfresh := sfx_fresh) (hkeep := sfx_keeps) (hT := sfx_T)
    (hmain := hmain m Variants.none) (hA := rdat_A m) (hpf := V_pre m) (hΦ := fun _ _ => rfl)

/-! ## The frame from the run -/

/-- The three argument arrays at the end of such a run: the logits are an input window's array; the targets are
    bypassed by the launch (it reads their column) and written by no later line; the lengths table likewise. -/
theorem frame_of (h : θ_run defs (onTc (τ := τ) (main (F := F))) (s₀ m ρ) (RDat.FramePostR (cfgM m) (rdat m) T (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(RDat.FramePostR.arr_in h c 0 rfl).trans ((rdat_A m c 0).trans (V_main_arg0 m c)),
      ((h c).2 main_arg1 (by decide : main_arg1 ∈ Pipeline.restRefs sig spec0 \ T)).trans (V_main_arg1 m c),
      ((h c).2 main_arg2 (by decide : main_arg2 ∈ Pipeline.restRefs sig spec0 \ T)).trans (V_main_arg2 m c)⟩) h

end FrameR

/-- THE FRAME, at any float family and with no precondition: from any memory with zero counters, every weakly fair
    execution of @main terminates without a fault, and the logits, the targets and the lengths end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  FrameR.frame_of m ρ (FrameR.run_main m ρ)

/-- info: 'Cert.KernelIdeal.Hand.frame' depends on axioms: [propext, Classical.choice, Quot.sound] -/
#guard_msgs in #print axioms frame

end Cert.KernelIdeal.Hand

end
-- ==== Proof.KitW.lean ====
/-
  What the run of the program's one launch is stated over, for any float family: the arrays as the launch finds them
  (after the one host line before it, which lays the targets out as a column), the lengths table as the launch reads it,
  the pipeline at that table, and the host lines after the launch (two sums, a maximum with 1, a quotient), which touch
  neither an argument nor the table.
-/
import proofs.«429088_j18107582120438_1_alg».proof.Proof.Gen.Kernel.Launch
import proofs.«429088_j18107582120438_1_alg».proof.Proof.Gen.Kernel.Skeleton
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the launch is entered -/

/-- Every buffer's contents once the host line before the launch has run. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host line, the launch, and the seven host lines after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-- The host line before the launch writes the targets' column only: the three arguments are as launched. -/
theorem V_main_arg0 (c : Dev nD) : V m c main_arg0 = m ((c : Thread nD τ).loc main_arg0) := by
  show StableHlo.after (List.flatten [hostOps0]) (fun b => m (c, b)) (Proc.devRef .tc main_arg0) = _
  simp only [hostOps0, List.flatten_cons, List.flatten_nil, List.append_nil]; after_results
theorem V_main_arg1 (c : Dev nD) : V m c main_arg1 = m ((c : Thread nD τ).loc main_arg1) := by
  show StableHlo.after (List.flatten [hostOps0]) (fun b => m (c, b)) (Proc.devRef .tc main_arg1) = _
  simp only [hostOps0, List.flatten_cons, List.flatten_nil, List.append_nil]; after_results
theorem V_main_arg2 (c : Dev nD) : V m c main_arg2 = m ((c : Thread nD τ).loc main_arg2) := by
  show StableHlo.after (List.flatten [hostOps0]) (fun b => m (c, b)) (Proc.devRef .tc main_arg2) = _
  simp only [hostOps0, List.flatten_cons, List.flatten_nil, List.append_nil]; after_results
/-- The targets' column: entry (b, p, 0) is target (b, p). -/
theorem V_main_v0 (c : Dev nD) : (V m c main_v0 : S16x513x1.Idx → Elt F .i32)
    = broadcastInDim S16x513x1 ![0, 1] bcast_S16x513_S16x513x1_0_1 (m ((c : Thread nD τ).loc main_arg1)) := by
  show StableHlo.after (List.flatten [hostOps0]) (fun b => m (c, b)) (Proc.devRef .tc main_v0) = _
  simp only [hostOps0, List.flatten_cons, List.flatten_nil, List.append_nil]; after_results

/-! ## The lengths table -/

/-- The table's contents when the launch is entered (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table: every contents of it is admissible. -/
abbrev adm : (pcfg0 (F := F)).Adm := ⟨tbl m, trivial⟩
/-- The pipeline at the table's contents. -/
abbrev cfgM : Pipeline.Cfg sig Λ₀ := cfg0 (adm m)

/-- The table as the body is handed it. -/
abbrev tbM : Memref sig .tc .smem S16 .i32 := Memref.whole main_arg2
abbrev htbM : (tbM).IsWhole := Memref.isWhole_whole _
abbrev TbBuf (c : Dev nD) : Type := Buf (Elt F) (tbM.view.loc (c : Thread nD τ))
/-- The body reads it at half the full share. -/
abbrev tbPt (c : Dev nD) (f : TbBuf (F := F) c) : sProp 𝕄 := tbM.view.loc (c : Thread nD τ) ↦{fullShare.right} f

theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The host lines after the launch -/

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  simp only [hostOps1, List.mem_cons, List.mem_nil_iff, or_false] at hop
  have h1 := (List.forall_iff_forall_mem.mp (hostOps1_sub (F := F))) op (by simp only [hostOps1, List.mem_cons, List.mem_nil_iff, or_false]; exact hop)
  refine Pipeline.sub_tailRefs pre0 spec0 op h1 fun k => ?_
  fin_cases k
  rcases hop with rfl | rfl | rfl | rfl | rfl | rfl | rfl <;>
    simp only [StableHlo.nullary_bufs, StableHlo.binary_bufs, Finset.mem_insert, Finset.mem_singleton, not_or] <;>
    (first | exact StableHlo.devRef_ne_of_ne (by decide) | exact ⟨StableHlo.devRef_ne_of_ne (by decide), StableHlo.devRef_ne_of_ne (by decide), StableHlo.devRef_ne_of_ne (by decide)⟩)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, Finset.mem_singleton] <;> exact StableHlo.devRef_ne_of_ne (by decide)

end Cert.Kernel.Hand

end
-- ==== Proof.SchedW.lean ====
/-
  The schedule of the program's one launch on its grid of 16 x 9 = 144 points, run row-major: point t has first
  coordinate t / 9 (the sequence) and second coordinate t % 9 (the tile of 64 positions). The logits' and the targets'
  windows move with both coordinates, so each is fetched at every point; the two 1x1x1 outputs move with the sequence
  only, so each is written back exactly at a sequence's last tile, t % 9 = 8; the body's reset of the two outputs is
  guarded by "the tile number is 0", which holds exactly at t % 9 = 0. No index map reads the lengths table, so all of
  this is the same at every contents of the table and is decided over the grid and the closed maps.
-/
import proofs.«429088_j18107582120438_1_alg».proof.Proof.KitW

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Cfg Window)

variable {F : FTy → Type} [FloatOps F]

variable (m : (ℓ : Loc nD τ sig) → Buf (Elt F) ℓ)

/-! ## The grid's points -/

/-- The grid has 144 points. -/
theorem N_eq : (cfgM m).N = 144 := N_0

/-- Point t is in sequence t / 9 … -/
theorem coords_0 (t : Fin (cfgM m).N) : ((grid0.coords t) 0).val = t.val / 9 :=
  (by decide +kernel : ∀ t : Fin grid0.N, ((grid0.coords t) 0).val = t.val / 9) t
/-- … at tile t % 9. -/
theorem coords_1 (t : Fin (cfgM m).N) : ((grid0.coords t) 1).val = t.val % 9 :=
  (by decide +kernel : ∀ t : Fin grid0.N, ((grid0.coords t) 1).val = t.val % 9) t

/-! ## Where each window is fetched or written back -/

/-- The logits' window is fetched at every point. -/
theorem fetch_0 : ∀ t : Fin (cfgM m).N, ((cfgM m).win 0).fetch t = true :=
  (by decide +kernel : ∀ t : Fin grid0.N, Pipeline.Window.fetchOf grid0 false cc0_transform_0 t = true)
/-- The targets' window is fetched at every point. -/
theorem fetch_1 : ∀ t : Fin (cfgM m).N, ((cfgM m).win 1).fetch t = true :=
  (by decide +kernel : ∀ t : Fin grid0.N, Pipeline.Window.fetchOf grid0 false cc0_transform_1 t = true)
/-- The first output is written back at a sequence's last tile only. -/
theorem flush_2 : ∀ t : Fin (cfgM m).N, ((cfgM m).win 2).flush t = true ↔ t.val % 9 = 8 :=
  (by decide +kernel : ∀ t : Fin grid0.N, Pipeline.Window.flushOf grid0 true cc0_transform_2 t = true ↔ t.val % 9 = 8)
/-- The second output is written back at a sequence's last tile only. -/
theorem flush_3 : ∀ t : Fin (cfgM m).N, ((cfgM m).win 3).flush t = true ↔ t.val % 9 = 8 :=
  (by decide +kernel : ∀ t : Fin grid0.N, Pipeline.Window.flushOf grid0 true cc0_transform_3 t = true ↔ t.val % 9 = 8)

/-! ## The guard of the outputs' reset -/

/-- The body's first test: the tile number, as a word, equals 0 (the comparison's bit widened to a word and compared
    with 0 again, as the body computes it). -/
abbrev cond0 (i : grid0.Coords) : Prop :=
  (Scalar.cmpi .ne (Scalar.extui (Scalar.cmpi .eq (BitVec.ofNat 32 (i 1).val) 0#32) : BitVec 32) 0#32) = 1#1
/-- It holds exactly at a sequence's first tile. -/
theorem cond0_iff : ∀ t : Fin (cfgM m).N, cond0 (grid0.coords t) ↔ t.val % 9 = 0 :=
  (by decide +kernel : ∀ t : Fin grid0.N, cond0 (grid0.coords t) ↔ t.val % 9 = 0)

/-! ## Idle points, cuts and directions -/

/-- No window is declared idle anywhere. -/
theorem idle_false (w : Fin (cfgM m).W) (i : (cfgM m).grid.Coords) : (cfgM m).idle w i = false := rfl
/-- The outputs' blocks tile their arrays: their transfers are never cut. -/
theorem clip_none_2 (i : (cfgM m).grid.Coords) (a : Fin ((cfgM m).win 2).shape.rank) : ((cfgM m).win 2).clip i a = none := rfl
theorem clip_none_3 (i : (cfgM m).grid.Coords) (a : Fin ((cfgM m).win 3).shape.rank) : ((cfgM m).win 3).clip i a = none := rfl
/-- Windows 0 and 1 are inputs, windows 2 and 3 outputs. -/
theorem isOut_0 : ((cfgM m).win 0).isOut = false := rfl
theorem isOut_1 : ((cfgM m).win 1).isOut = false := rfl
theorem isOut_2 : ((cfgM m).win 2).isOut = true := rfl
theorem isOut_3 : ((cfgM m).win 3).isOut = true := rfl

end Cert.Kernel.Hand

end
-- ==== Proof.BodyRunW.lean ====
/-
  The kernel body's triple, for any float family, with the final contents of the two 1x1x1 accumulators spelled out.

  One run of the body at grid point (b, k): if the tile number k is 0 both accumulators are first set to zero; the
  64 x 32000 block of logits, the 64 x 1 block of targets and word b of the lengths table are read; each accumulator is
  read and written back with the tile's contribution added. So with x0 the logits' block, x1 the targets' block and w
  the word read, the first accumulator ends at  pay2 (pay6 x1) (pay7 x0 x1) (pay8 (b, k) w) pay9 y  and the second at
  pay3 (pay6 x1) (pay8 (b, k) w) pay9 y,  where y is what the accumulator held before — zero (pay4, pay5) when k = 0.
  The inputs and the table are handed back as they were. The payloads stay folded throughout.
-/
import proofs.«429088_j18107582120438_1_alg».proof.Proof.KitW
import proofs.«429088_j18107582120438_1_alg».proof.Proof.SchedW
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The word of the lengths table the body reads -/

/-- The word the body's scalar load reads out of the table's contents `xt` at grid point `i`: the one-entry load at
    the offset the body computes from the sequence's number. -/
def lenWord (c : Dev nD) (xt : TbBuf (F := F) c) (i : grid0.Coords) : Elt F .i32 :=
  tbM.view.readAt (Elt F) (Rect.unit (s := S16) (k0_off1 i) S1.size (k0_off1_inb i)).toLoadRect xt (Shape.Idx.first (numel1_S1.symm ▸ Nat.one_pos))

/-- It is the table's entry at the sequence's number. -/
theorem lenWord_eq (c : Dev nD) (xt : TbBuf (F := F) c) (i : grid0.Coords) :
    lenWord c xt i = (xt : S16.Idx → Elt F .i32) (ValueIdx.ix1 (n := 16) (i 0)) := by
  unfold lenWord
  rw [View.readAt_apply]
  show xt _ = xt _
  congr 1
  funext a
  apply Fin.ext
  match a with
  | ⟨0, _⟩ =>
    show k0_off1 i 0 + 1 * 0 = (i 0).val
    rw [k0_off1_eq]; rfl

/-! ## Whole loads of whole buffers -/

/-- Three zero offsets, however spelt, are the zero map. -/
theorem hz3 : (![0, 0, 0] : Fin 3 → Nat) = fun _ => 0 := funext fun a => by fin_cases a <;> rfl

/-- A whole load of a whole buffer held at the contents that read `X` reads `X`. -/
theorem readAt_unread {S : Shape} {e : EltTy} (m : Memref sig .tc .vmem S e) (h : m.IsWhole) (X : S.Idx → Elt F e)
    {off : Fin S.rank → Nat} (hz : off = fun _ => 0) (inb : ∀ a, off a + S.size a ≤ S.size a) :
    m.view.readAt (Elt F) (Rect.unit off S.size inb).toLoadRect (h.unread X) = X := by
  rw [View.readAt_eq_ld, h.read_unread, View.ld_unit_zero hz]

/-! ## The body at a sequence's first tile -/

set_option maxHeartbeats 1000000 in
/-- At tile 0 the accumulators, whatever they held, are zeroed and then updated: they end at the tile's contribution
    added to zero. -/
theorem bodyA (c : Dev nD) (E : Set ℕ) (i : grid0.Coords) (arg3 : Memref sig .tc .vmem S1x64x32000 .f32) (harg3 : arg3.IsWhole) (arg4 : Memref sig .tc .vmem S1x64x1 .i32) (harg4 : arg4.IsWhole)
    (arg5 : Memref sig .tc .vmem S1x1x1 .f32) (harg5 : arg5.IsWhole) (arg6 : Memref sig .tc .vmem S1x1x1 .f32) (harg6 : arg6.IsWhole) (hc : cond0 i)
    (x0 : Vec F S1x64x32000 .f32) (x1 : Vec F S1x64x1 .i32) (xt : TbBuf (F := F) c) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ tbPt c xt
        ∗ (iprop(owns (c : Thread nD τ) arg3 fullShare x0 ∗ owns (c : Thread nD τ) arg4 fullShare x1
              ∗ owns (c : Thread nD τ) arg5 fullShare (k0_pay2 (k0_pay6 x1) (k0_pay7 x0 x1) (k0_pay8 i (lenWord c xt i)) k0_pay9 k0_pay4)
              ∗ owns (c : Thread nD τ) arg6 fullShare (k0_pay3 (k0_pay6 x1) (k0_pay8 i (lenWord c xt i)) k0_pay9 k0_pay5) ∗ tbPt c xt) -∗ K ⟨⟩))
      ⊢ wp frame (wpE (defs₀ (F := F)) Variants.none c none) E (cc0__xent_kernel i tbM htbM arg3 harg3 arg4 harg4 arg5 harg5 arg6 harg6) K := by
  simp only [cc0__xent_kernel_eq_skeleton]; unfold cc0__xent_kernel_skel
  simp only [k0_part1_eq_skeleton]
  unfold owns
  iintro ⟨⟨%f0, %hf0, H0⟩, ⟨%f1, %hf1, H1⟩, ⟨%d2, %f2, -, H2⟩, ⟨%d3, %f3, -, H3⟩, HT, Hk⟩
  obtain rfl := harg3.eq_unread hf0; obtain rfl := harg4.eq_unread hf1
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [View.read_writes_eq_canon _ _ _ (fun y => ⟨_, List.mem_cons_self, View.mem_set_unit_zero (S := S1x1x1) hz3 inb_S1x1x1_S1x1x1_0_0_0 y⟩)]
    rw [View.canon_cons_unit_zero (S := S1x1x1) hz3, View.readCov_unit_zero (S := S1x1x1) _ hz3]
    rw [readAt_unread arg4 harg4 x1 hz3, readAt_unread arg3 harg3 x0 hz3]
    rfl
  isplitl [H3]
  · iexists _; isplitr
    swap; · iexact H3
    ipureintro
    sl_unfold_run_names
    rw [View.read_writes_eq_canon _ _ _ (fun y => ⟨_, List.mem_cons_self, View.mem_set_unit_zero (S := S1x1x1) hz3 inb_S1x1x1_S1x1x1_0_0_0 y⟩)]
    rw [View.canon_cons_unit_zero (S := S1x1x1) hz3, View.readCov_unit_zero (S := S1x1x1) _ hz3]
    rw [readAt_unread arg4 harg4 x1 hz3]
    rfl
  iexact HT

/-! ## The body at a later tile -/

set_option maxHeartbeats 1000000 in
/-- At a later tile the accumulators are updated in place: they end at the tile's contribution added to what they held. -/
theorem bodyB (c : Dev nD) (E : Set ℕ) (i : grid0.Coords) (arg3 : Memref sig .tc .vmem S1x64x32000 .f32) (harg3 : arg3.IsWhole) (arg4 : Memref sig .tc .vmem S1x64x1 .i32) (harg4 : arg4.IsWhole)
    (arg5 : Memref sig .tc .vmem S1x1x1 .f32) (harg5 : arg5.IsWhole) (arg6 : Memref sig .tc .vmem S1x1x1 .f32) (harg6 : arg6.IsWhole) (hc : ¬ cond0 i)
    (x0 : Vec F S1x64x32000 .f32) (x1 : Vec F S1x64x1 .i32) (y5 y6 : Vec F S1x1x1 .f32) (xt : TbBuf (F := F) c) (K : PUnit → sProp 𝕄) :
    iprop(owns (c : Thread nD τ) arg3 fullShare x0 ∗ owns (c : Thread nD τ) arg4 fullShare x1 ∗ owns (c : Thread nD τ) arg5 fullShare y5 ∗ owns (c : Thread nD τ) arg6 fullShare y6 ∗ tbPt c xt
        ∗ (iprop(owns (c : Thread nD τ) arg3 fullShare x0 ∗ owns (c : Thread nD τ) arg4 fullShare x1
              ∗ owns (c : Thread nD τ) arg5 fullShare (k0_pay2 (k0_pay6 x1) (k0_pay7 x0 x1) (k0_pay8 i (lenWord c xt i)) k0_pay9 y5)
              ∗ owns (c : Thread nD τ) arg6 fullShare (k0_pay3 (k0_pay6 x1) (k0_pay8 i (lenWord c xt i)) k0_pay9 y6) ∗ tbPt c xt) -∗ K ⟨⟩))
      ⊢ wp frame (wpE (defs₀ (F := F)) Variants.none c none) E (cc0__xent_kernel i tbM htbM arg3 harg3 arg4 harg4 arg5 harg5 arg6 harg6) K := by
  simp only [cc0__xent_kernel_eq_skeleton]; unfold cc0__xent_kernel_skel
  simp only [k0_part1_eq_skeleton]
  unfold owns
  iintro ⟨⟨%f0, %hf0, H0⟩, ⟨%f1, %hf1, H1⟩, ⟨%f2, %hf2, H2⟩, ⟨%f3, %hf3, H3⟩, HT, Hk⟩
  obtain rfl := harg3.eq_unread hf0; obtain rfl := harg4.eq_unread hf1
  obtain rfl := harg5.eq_unread hf2; obtain rfl := harg6.eq_unread hf3
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [View.read_writes_eq_canon _ _ _ (fun y => ⟨_, List.mem_cons_self, View.mem_set_unit_zero (S := S1x1x1) hz3 inb_S1x1x1_S1x1x1_0_0_0 y⟩)]
    rw [View.canon_unit_zero (S := S1x1x1) hz3]
    rw [readAt_unread arg4 harg4 x1 hz3, readAt_unread arg3 harg3 x0 hz3, readAt_unread arg5 harg5 y5 hz3]
    rfl
  isplitl [H3]
  · iexists _; isplitr
    swap; · iexact H3
    ipureintro
    sl_unfold_run_names
    rw [View.read_writes_eq_canon _ _ _ (fun y => ⟨_, List.mem_cons_self, View.mem_set_unit_zero (S := S1x1x1) hz3 inb_S1x1x1_S1x1x1_0_0_0 y⟩)]
    rw [View.canon_unit_zero (S := S1x1x1) hz3]
    rw [readAt_unread arg4 harg4 x1 hz3, readAt_unread arg6 harg6 y6 hz3]
    rfl
  iexact HT

end Cert.Kernel.Hand

end
-- ==== Proof.FrameRW.lean ====
/-
  The frame of the kernel program, for any float family: every weakly fair execution of @main terminates without a
  fault, and the three argument arrays (logits, targets, lengths) end as they began. No precondition is needed: the
  body reads its two input blocks and the lengths table, and writes only the two 1x1x1 accumulators, whatever words it
  finds; the host lines around the launch write neither an argument nor the table.

  Nothing about the contents of a staging buffer is named: the proof data relate what the body finds in a buffer to
  what it leaves there by the relation that always holds. The body is then only asked to RUN from any contents to
  some contents, which it does at a sequence's first tile (where it first resets the accumulators) and at every other
  tile (where it adds to what it finds).
-/
import proofs.«429088_j18107582120438_1_alg».proof.Proof.KitW
import proofs.«429088_j18107582120438_1_alg».proof.Proof.SchedW
import proofs.«429088_j18107582120438_1_alg».proof.Proof.BodyRunW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace FrameR

/-! ## The proof data -/

/-- The relational proof data of the launch on core `c`: the four arrays as the launch finds them; of what the body
    leaves in a staging buffer, nothing; the invariant is the class's with the lengths table held at half; nothing
    owed; full shares. -/
def rdat (c : Dev nD) : RDat τ (Elt F) Unit ℕ (UR sig nD τ) ℕ (cfgM m) c where
  A w := V m c (Pipeline.arrRef spec0 w)
  after _ _ _ _ := True
  Φ _ := iprop(Pipeline.ΦA spec0 c ∗ Pipeline.ΦT pre0 (tbl m) c)
  q _ := fullShare
  owed _ := 0

theorem rdat_A (c : Dev nD) (w : Fin (cfgM m).W) : (rdat m c).A w = V m c (Pipeline.arrRef spec0 w) := by
  dsimp only [rdat]

theorem rdat_share (c : Dev nD) (w : Fin (cfgM m).W) : (rdat m c).share w = fullShare := by
  unfold RDat.share; split <;> rfl

/-! ## The buffers the host lines after the launch write -/

/-- The seven scalars the lines after the launch write: two zeros, the two sums, the one, the maximum, the quotient. -/
def T : Finset (Ref sig .tc) := {main_cst, main_v2, main_cst_0, main_v3, main_cst_1, main_v4, main_v5}

theorem sfx_T : ∀ ops ∈ ([hostOps1] : List (List (HloOp τ sig (Elt F)))), ∀ op ∈ ops,
    ∀ b : Ref sig .tc, Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl <;>
    simp only [StableHlo.nullary_writes, StableHlo.unary_writes, StableHlo.binary_writes, Finset.mem_singleton] at hb <;>
    (obtain rfl := Proc.devRef_injective (τ := τ) _ hb; decide)

/-! ## The body obligation -/

/-- The body at point `t`, on what the pipeline calls it with: the table whole, each window's current staging buffer. -/
abbrev bodyAt (t : Fin (cfgM m).N) : Prog (TpuEff nD τ sig (Elt F) Λ₀ .tc) PUnit :=
  cc0__xent_kernel (grid0.coords t) tbM htbM
    (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2))
    (spec0_3.stage ((cfgM m).slots t 3)) (hstage0_3 (((cfgM m).slots t 3).cast nbuf0_3))

/-- At every point, from any contents of the four current staging buffers, the body runs and hands the buffers back
    at some contents; the invariant (the table's half among it) passes through, the core owes nothing throughout. -/
theorem body_obligation (c : Dev nD) : (rdat m c).BodyObligation (defs₀ (F := F)) Variants.none () Set.univ := fun t Y _ => by
  rw [bigSep_W0, bigSep_W0]
  show iprop(iprop(Pipeline.ΦA spec0 c ∗ Pipeline.ΦT pre0 (tbl m) c) ∗ (rdat m c).owesAt () t.castSucc
      ∗ owns (c : Thread nD τ) (spec0_0.stage ((cfgM m).slots t 0)) fullShare (Y 0)
      ∗ owns (c : Thread nD τ) (spec0_1.stage ((cfgM m).slots t 1)) fullShare (Y 1)
      ∗ owns (c : Thread nD τ) (spec0_2.stage ((cfgM m).slots t 2)) fullShare (Y 2)
      ∗ owns (c : Thread nD τ) (spec0_3.stage ((cfgM m).slots t 3)) fullShare (Y 3))
    ⊢ wp frame (wpE (defs₀ (F := F)) Variants.none c none) Set.univ (bodyAt m t) (fun _ =>
      iprop(iprop(Pipeline.ΦA spec0 c ∗ Pipeline.ΦT pre0 (tbl m) c) ∗ (rdat m c).owesAt () t.castSucc
        ∗ (∃ X, ⌜True⌝ ∗ owns (c : Thread nD τ) (spec0_0.stage ((cfgM m).slots t 0)) fullShare X)
        ∗ (∃ X, ⌜True⌝ ∗ owns (c : Thread nD τ) (spec0_1.stage ((cfgM m).slots t 1)) fullShare X)
        ∗ (∃ X, ⌜True⌝ ∗ owns (c : Thread nD τ) (spec0_2.stage ((cfgM m).slots t 2)) fullShare X)
        ∗ (∃ X, ⌜True⌝ ∗ owns (c : Thread nD τ) (spec0_3.stage ((cfgM m).slots t 3)) fullShare X)))
  rw [PhiT_eq]
  iintro ⟨⟨HΦ, HT⟩, Ho, H0, H1, H2, H3⟩
  by_cases hc : cond0 (grid0.coords t)
  · iapply (bodyA c Set.univ (grid0.coords t) _ _ _ _ _ _ _ _ hc (Y 0) (Y 1) (tbl m 0) _)
    isplitl [H0]; · iexact H0
    isplitl [H1]; · iexact H1
    isplitl [H2]; · iexists _; iexact H2
    isplitl [H3]; · iexists _; iexact H3
    isplitl [HT]; · iexact HT
    iintro ⟨H0, H1, H2, H3, HT⟩
    isplitl [HΦ HT]
    · isplitl [HΦ]; · iexact HΦ
      iexact HT
    isplitl [Ho]; · iexact Ho
    isplitl [H0]; · iexists _; isplitr; · ipureintro; trivial
                    iexact H0
    isplitl [H1]; · iexists _; isplitr; · ipureintro; trivial
                    iexact H1
    isplitl [H2]; · iexists _; isplitr; · ipureintro; trivial
                    iexact H2
    iexists _; isplitr; · ipureintro; trivial
    iexact H3
  · iapply (bodyB c Set.univ (grid0.coords t) _ _ _ _ _ _ _ _ hc (Y 0) (Y 1) (Y 2) (Y 3) (tbl m 0) _)
    isplitl [H0]; · iexact H0
    isplitl [H1]; · iexact H1
    isplitl [H2]; · iexact H2
    isplitl [H3]; · iexact H3
    isplitl [HT]; · iexact HT
    iintro ⟨H0, H1, H2, H3, HT⟩
    isplitl [HΦ HT]
    · isplitl [HΦ]; · iexact HΦ
      iexact HT
    isplitl [Ho]; · iexact Ho
    isplitl [H0]; · iexists _; isplitr; · ipureintro; trivial
                    iexact H0
    isplitl [H1]; · iexists _; isplitr; · ipureintro; trivial
                    iexact H1
    isplitl [H2]; · iexists _; isplitr; · ipureintro; trivial
                    iexact H2
    iexists _; isplitr; · ipureintro; trivial
    iexact H3

/-! ## The run of @main -/

set_option backward.isDefEq.respectTransparency.types false in
/-- From any memory with zero counters, every weakly fair execution of @main terminates; at the end each input
    window's array is as the launch found it, and every buffer the launch bypasses and the later lines do not write
    (the targets and the lengths table among them) is as the launch found it. -/
theorem run_main :
    θ_run defs (onTc (τ := τ) (main (F := F))) (s₀ m ρ) (RDat.FramePostR (cfgM m) (rdat m) T (V m)) :=
  RDat.θ_run_frameP_around_T pcfgs (fun _ => adm m) (0 : Fin 1) launch0 defs₀ Variants.none (rdat m) T m ρ main
    (hbody := body_obligation m) (hshare := rdat_share m) (howed := fun _ _ => rfl) (V₀ := V0 m) (opss := [hostOps1])
    (hsub := sfx_sub) (hfresh := sfx_fresh) (hkeep := sfx_keeps) (hT := sfx_T)
    (hmain := hmain m Variants.none) (hA := rdat_A m) (hpf := V_pre m) (hΦ := fun _ _ => rfl)

/-! ## The frame from the run -/

/-- The three argument arrays at the end of such a run: the logits are an input window's array; the targets are
    bypassed by the launch (it reads their column) and written by no later line; the lengths table likewise. -/
theorem frame_of (h : θ_run defs (onTc (τ := τ) (main (F := F))) (s₀ m ρ) (RDat.FramePostR (cfgM m) (rdat m) T (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(RDat.FramePostR.arr_in h c 0 rfl).trans ((rdat_A m c 0).trans (V_main_arg0 m c)),
      ((h c).2 main_arg1 (by decide : main_arg1 ∈ Pipeline.restRefs sig spec0 \ T)).trans (V_main_arg1 m c),
      ((h c).2 main_arg2 (by decide : main_arg2 ∈ Pipeline.restRefs sig spec0 \ T)).trans (V_main_arg2 m c)⟩) h

end FrameR

/-- THE FRAME, at any float family and with no precondition: from any memory with zero counters, every weakly fair
    execution of @main terminates without a fault, and the logits, the targets and the lengths end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  FrameR.frame_of m ρ (FrameR.run_main m ρ)

/-- info: 'Cert.Kernel.Hand.frame' depends on axioms: [propext, Classical.choice, Quot.sound] -/
#guard_msgs in #print axioms frame

end Cert.Kernel.Hand

end
-- ==== Proof.Spec.lean ====
/-
  Masked token-level cross entropy over logits f32[16, 513, 32000], targets i32[16, 513] and lengths i32[16], as ONE
  function of the three arrays on the extended reals.

  Position 0 of every sequence is dropped. At a kept position p = s + 1 (s < 512) of sequence b the token counts when
  s < lengths[b] and its target is not the class 0; its loss is the negative log-probability the softmax of the logits'
  row gives the target class, the row's maximum subtracted before exponentiating. The result is the sum of the counted
  tokens' losses divided by the larger of their number and 1.

  The same sum is also laid out in tiles of 64 consecutive positions (nine tiles cover the 513 positions and 63 more):
  a tile's row r at tile number si stands for position 64 * si + r, which counts only when it is one of 1 .. 512 and
  its token counts; a row standing for any other position adds zero.
-/
import Idealize.ShloMosaic.PureOps.Ideal
import Idealize.ShloMosaic.Lib.ValueIdx

noncomputable section

open scoped BigOperators

namespace Cert.Xent

open Idealize.ShloMosaic Idealize.ShloMosaic.ValueIdx

/-- The largest logit of a row (the maximum of no number is -∞). -/
def rowMax (x : Fin 32000 → EReal) : EReal := (Finset.univ : Finset (Fin 32000)).fold max ⊥ x

/-- The logarithm of the sum over the classes of the exponential of a logit less the row's maximum. -/
def rowLse (x : Fin 32000 → EReal) : EReal := Ideal.log (∑ v : Fin 32000, Ideal.exp (x v - rowMax x))

/-- The negative log-probability the row's softmax gives class k: -((x k - max) - log Σ exp (x v - max)). -/
def rowNll (x : Fin 32000 → EReal) (k : Fin 32000) : EReal := -((x k - rowMax x) - rowLse x)

/-- Kept position s of a sequence sits at index s + 1 of the arrays. -/
def pos (s : Fin 512) : Fin 513 := ⟨s.val + 1, by omega⟩

/-- A target word read as a class (a word below 32000 is its own class). -/
def cls (t : BitVec 32) : Fin 32000 := ⟨t.toNat % 32000, Nat.mod_lt _ (by decide)⟩

/-- Whether the token at kept position s, with target word t, of a sequence of length word len counts. -/
def Counted (len t : BitVec 32) (s : Nat) : Prop := (s : Int) < len.toInt ∧ t ≠ 0#32

instance (len t : BitVec 32) (s : Nat) : Decidable (Counted len t s) := by unfold Counted; infer_instance

/-- 1 for a token that counts, 0 for one that does not. -/
def tokMask (trg : (⟨2, ![16, 513]⟩ : Shape).Idx → BitVec 32) (len : (⟨1, ![16]⟩ : Shape).Idx → BitVec 32)
    (b : Fin 16) (s : Fin 512) : EReal :=
  if Counted (len (ix1 b)) (trg (ix2 b (pos s))) s.val then 1 else 0

/-- The loss of the token at kept position s of sequence b. -/
def tokNll (x : (⟨3, ![16, 513, 32000]⟩ : Shape).Idx → EReal) (trg : (⟨2, ![16, 513]⟩ : Shape).Idx → BitVec 32)
    (b : Fin 16) (s : Fin 512) : EReal :=
  rowNll (fun v => x (ix3 b (pos s) v)) (cls (trg (ix2 b (pos s))))

/-- Sequence b's sum of counted losses. -/
def seqNll (x : (⟨3, ![16, 513, 32000]⟩ : Shape).Idx → EReal) (trg : (⟨2, ![16, 513]⟩ : Shape).Idx → BitVec 32)
    (len : (⟨1, ![16]⟩ : Shape).Idx → BitVec 32) (b : Fin 16) : EReal :=
  ∑ s : Fin 512, tokNll x trg b s * tokMask trg len b s

/-- Sequence b's number of counted tokens. -/
def seqMask (trg : (⟨2, ![16, 513]⟩ : Shape).Idx → BitVec 32) (len : (⟨1, ![16]⟩ : Shape).Idx → BitVec 32)
    (b : Fin 16) : EReal :=
  ∑ s : Fin 512, tokMask trg len b s

/-- The mean loss of the counted tokens (the sum itself when none counts). -/
def loss (x : (⟨3, ![16, 513, 32000]⟩ : Shape).Idx → EReal) (trg : (⟨2, ![16, 513]⟩ : Shape).Idx → BitVec 32)
    (len : (⟨1, ![16]⟩ : Shape).Idx → BitVec 32) : EReal :=
  Ideal.div (∑ b : Fin 16, seqNll x trg len b) (max (∑ b : Fin 16, seqMask trg len b) 1)

/-! ## The same terms by tiles of 64 positions -/

/-- Whether row r of tile si, holding target word t, counts: its position 64 * si + r is at least 1, the position
    before it is below the length, and the target is not 0. -/
def TileCounted (si : Nat) (r : Fin 64) (len t : BitVec 32) : Prop :=
  1 ≤ 64 * si + r.val ∧ ((64 * si + r.val : Nat) : Int) - 1 < len.toInt ∧ t ≠ 0#32

instance (si : Nat) (r : Fin 64) (len t : BitVec 32) : Decidable (TileCounted si r len t) := by
  unfold TileCounted; infer_instance

/-- A tile's sum of counted losses: xb its 64 rows of logits, tb its 64 target words. -/
def tileNll (si : Nat) (len : BitVec 32) (xb : Fin 64 → Fin 32000 → EReal) (tb : Fin 64 → BitVec 32) : EReal :=
  ∑ r : Fin 64, if TileCounted si r len (tb r) then rowNll (xb r) (cls (tb r)) else 0

/-- A tile's number of counted rows. -/
def tileMask (si : Nat) (len : BitVec 32) (tb : Fin 64 → BitVec 32) : EReal :=
  ∑ r : Fin 64, if TileCounted si r len (tb r) then 1 else 0

end Cert.Xent

end
-- ==== Proof.Tiles.lean ====
/-
  The launch walks each of the 16 sequences in nine tiles of 64 consecutive positions (9 * 64 = 576 positions for the
  513 the arrays hold: the ninth tile keeps one row inside the arrays). A tile's row past the arrays' end is read here as
  zeros; such a row stands for a position above 512 and never counts, so what it holds changes no sum. The two
  accumulators of a sequence hold, after its tile number k, the sum of the tiles 0 .. k of that sequence: the first tile
  starts the sum from zero and every later tile adds itself to what the tile before left.
-/
import proofs.«429088_j18107582120438_1_alg».proof.Proof.Kit
import proofs.«429088_j18107582120438_1_alg».proof.Proof.Spec
import Idealize.ShloMosaic.Lib.ValueIdx

noncomputable section

namespace Cert.KernelIdeal.Hand

open Cert.KernelIdeal Cert.KernelIdeal.Gen Cert.Xent
open Idealize.ShloMosaic Idealize.ShloMosaic.TcCoe Idealize.ShloMosaic.ValueIdx
open Idealize.SL.Sem
open scoped BigOperators

variable (m : (ℓ : Loc nD τ sig) → Buf (Elt Ideal) ℓ)

/-! ## The arrays and the tiles -/

/-- The logits, the targets and the lengths as launched. -/
abbrev xArr (c : Dev nD) : S16x513x32000.Idx → EReal := m ((c : Thread nD τ).loc main_arg0)
abbrev tArr (c : Dev nD) : S16x513.Idx → BitVec 32 := m ((c : Thread nD τ).loc main_arg1)
abbrev lArr (c : Dev nD) : S16.Idx → BitVec 32 := m ((c : Thread nD τ).loc main_arg2)

/-- Tile si of sequence b: its 64 rows of logits, a row past the array's end read as zeros. -/
def xtile (c : Dev nD) (b : Fin 16) (si : Fin 9) (r : Fin 64) (v : Fin 32000) : EReal :=
  if h : 64 * si.val + r.val < 513 then xArr m c (ix3 b ⟨64 * si.val + r.val, h⟩ v) else 0
/-- Its 64 target words, a row past the array's end read as the word 0. -/
def ttile (c : Dev nD) (b : Fin 16) (si : Fin 9) (r : Fin 64) : BitVec 32 :=
  if h : 64 * si.val + r.val < 513 then tArr m c (ix2 b ⟨64 * si.val + r.val, h⟩) else 0#32

/-- The tile's sum of counted losses, and its number of counted rows (zero past the ninth tile). -/
def tileT (c : Dev nD) (b : Fin 16) (si : ℕ) : EReal :=
  if h : si < 9 then tileNll si (lArr m c (ix1 b)) (xtile m c b ⟨si, h⟩) (ttile m c b ⟨si, h⟩) else 0
def tileC (c : Dev nD) (b : Fin 16) (si : ℕ) : EReal :=
  if h : si < 9 then tileMask si (lArr m c (ix1 b)) (ttile m c b ⟨si, h⟩) else 0

/-- The sequence of grid point t. -/
def bOf (t : ℕ) : Fin 16 := ⟨t / 9 % 16, Nat.mod_lt _ (by decide)⟩

/-- What the two accumulators hold after point t: the sums of the sequence's tiles 0 .. t % 9. -/
def accNll (c : Dev nD) (t : ℕ) : EReal := ∑ i ∈ Finset.range (t % 9 + 1), tileT m c (bOf t) i
def accCnt (c : Dev nD) (t : ℕ) : EReal := ∑ i ∈ Finset.range (t % 9 + 1), tileC m c (bOf t) i

/-! ## The running sums, one tile at a time -/

theorem bOf_pred (t : ℕ) (h9 : t % 9 ≠ 0) : bOf (t - 1) = bOf t := by
  unfold bOf; exact Fin.ext (by show (t - 1) / 9 % 16 = t / 9 % 16; congr 1; omega)

/-- A sequence's first tile starts the sum: zero plus the tile. -/
theorem accNll_first (c : Dev nD) (t : ℕ) (h9 : t % 9 = 0) : 0 + tileT m c (bOf t) (t % 9) = accNll m c t := by
  unfold accNll; rw [h9, Finset.sum_range_one, zero_add]
theorem accCnt_first (c : Dev nD) (t : ℕ) (h9 : t % 9 = 0) : 0 + tileC m c (bOf t) (t % 9) = accCnt m c t := by
  unfold accCnt; rw [h9, Finset.sum_range_one, zero_add]

/-- A later tile adds itself to what the point before left. -/
theorem accNll_succ (c : Dev nD) (t : ℕ) (h9 : t % 9 ≠ 0) : accNll m c (t - 1) + tileT m c (bOf t) (t % 9) = accNll m c t := by
  unfold accNll
  rw [bOf_pred t h9, show (t - 1) % 9 + 1 = t % 9 from by omega, Finset.sum_range_succ]
theorem accCnt_succ (c : Dev nD) (t : ℕ) (h9 : t % 9 ≠ 0) : accCnt m c (t - 1) + tileC m c (bOf t) (t % 9) = accCnt m c t := by
  unfold accCnt
  rw [bOf_pred t h9, show (t - 1) % 9 + 1 = t % 9 from by omega, Finset.sum_range_succ]

end Cert.KernelIdeal.Hand

end
-- ==== Proof.TileValue.lean ====
import proofs.«429088_j18107582120438_1_alg».proof.Proof.Gen.KernelIdeal.Skeleton
import proofs.«429088_j18107582120438_1_alg».proof.Proof.Spec
import Idealize.ShloMosaic.PureOps.Ideal.Laws
import Idealize.ShloMosaic.Lib.ValueIdx
import Idealize.ShloMosaic.Lib.Pipeline.Value
import Idealize.ShloMosaic.Lib.ValueLayout

/-!
  The kernel body's stored values at the extended reals, tile by tile.

  A block holds 64 rows of 32000 logits and 64 target words; at tile number si its row r stands for position
  64 si + r of the sequence. The body takes each row's maximum, subtracts it, sums the exponentials and takes the
  logarithm; picks the shifted logit of the target's class as a sum over the lanes that keeps the one lane whose
  number is the target word; and forms the row's loss 0 - (picked - log-sum). A row counts when its position is at
  least 1, the position before it is below the length, and its target word is not 0; the row's weight is 1 or 0
  accordingly. The two stored values are what was stored before plus the sum over the rows of loss × weight, and
  plus the sum over the rows of the weights: the specification's tile sums. A row that does not count contributes
  its (arbitrary) loss times 0, which is 0 for every extended real; a row that counts has, by hypothesis, a target
  word below 32000, so the lane sum picks exactly the class of that word.
-/

noncomputable section

open scoped BigOperators

namespace Cert.KernelIdeal.TileValue

open Idealize.ShloMosaic Idealize.ShloMosaic.ValueIdx Cert.KernelIdeal.Gen Cert.Xent

/-! ## Layout operations of the body read at an index -/

section Layout
variable {α : Type}

/-- A column of 64 values cast to a 64 × 1 array reads, at (r, c), the column at r. -/
theorem cast_col (x : S64.Idx → α) (h : S64.ShapeCasts S64x1) (r : Fin 64) (c : Fin 1) :
    shapeCast S64x1 x h (ix2 r c) = x (ix1 r) :=
  shapeCast_apply x h _ _ (by
    have hc : c.val = 0 := by omega
    rw [Shape.rowMajor_val_two, Shape.rowMajor_val_one]
    show r.val = r.val * 1 + c.val
    rw [hc, Nat.mul_one, Nat.add_zero])

/-- A 64 × 1 array broadcast along its unit axis to 64 × 32000 reads, at (r, v), the column at r. -/
theorem bcast_col (x : S64x1.Idx → α) (h : S64x1.Broadcasts S64x32000) (r : Fin 64) (v : Fin 32000) :
    broadcastTo S64x32000 x h (ix2 r v) = x (ix2 r (0 : Fin 1)) := by
  refine broadcastTo_apply x h (ix2 r v) (ix2 r (0 : Fin 1)) fun ax => ?_
  match ax with
  | ⟨0, _⟩ => rfl
  | ⟨1, _⟩ => rfl

end Layout

/-! ## The reductions and iotas of the body read at an index -/

/-- The zero word is the extended real 0. -/
theorem zero_word : (FloatOps.ofBits (F := Ideal) .f32 0x00000000#32 : EReal) = 0 := Ideal.ofBits_zero_f32

/-- The word of -∞ is the extended real ⊥. -/
theorem neg_inf_word : (FloatOps.ofBits (F := Ideal) .f32 0xFF800000#32 : EReal) = ⊥ := by
  show Ideal.ofBits .f32 0xFF800000#32 = ⊥
  simp [Ideal.ofBits, Ideal.ieee]

/-- The sum over the lanes of a 64 × 32000 array, at row r. -/
theorem lane_sum (src : FVec Ideal S64x32000 .f32) (h : S64x32000.Reduces [1] S64) (hφ : FKind.Formats .f32)
    (hacc : (0x00000000#32 : BitVec 32) = 0x00000000#32) (r : Fin 64) :
    multiReduction .add [1] S64 src 0x00000000#32 h hφ hacc (ix1 r) = ∑ v : Fin 32000, src (ix2 r v) := by
  refine (Ideal.multiReduction_add_single src 0x00000000#32 h hφ hacc (ix1 r)).trans ?_
  refine Finset.sum_congr rfl fun v _ => congrArg src ?_
  funext a
  match a with
  | ⟨0, _⟩ => exact Fin.ext rfl
  | ⟨1, _⟩ => exact Fin.ext rfl

/-- The maximum over the lanes of a 64 × 32000 array, at row r: the row's maximum. -/
theorem lane_max (src : FVec Ideal S64x32000 .f32) (h : S64x32000.Reduces [1] S64) (hφ : FKind.Formats .f32)
    (hacc : (0xFF800000#32 : BitVec 32) = 0xFF800000#32) (r : Fin 64) :
    multiReduction .maximumf [1] S64 src 0xFF800000#32 h hφ hacc (ix1 r) = rowMax (fun v => src (ix2 r v)) := by
  refine (Ideal.multiReduction_maximumf_single src 0xFF800000#32 h hφ hacc (ix1 r)).trans ?_
  rw [neg_inf_word]
  unfold rowMax
  refine congrArg (fun f => (Finset.univ : Finset (Fin 32000)).fold max ⊥ f) ?_
  funext v
  refine congrArg src ?_
  funext a
  match a with
  | ⟨0, _⟩ => exact Fin.ext rfl
  | ⟨1, _⟩ => exact Fin.ext rfl

/-- The sum over the 64 rows of a 64 × 1 array. -/
theorem row_sum (src : FVec Ideal S64x1 .f32) (h : S64x1.Reduces [0] S1) (hφ : FKind.Formats .f32)
    (hacc : (0x00000000#32 : BitVec 32) = 0x00000000#32) (c : Fin 1) :
    multiReduction .add [0] S1 src 0x00000000#32 h hφ hacc (ix1 c) = ∑ r : Fin 64, src (ix2 r (0 : Fin 1)) := by
  refine (Ideal.multiReduction_add_single src 0x00000000#32 h hφ hacc (ix1 c)).trans ?_
  refine Finset.sum_congr rfl fun r _ => congrArg src ?_
  funext a
  match a with
  | ⟨0, _⟩ => exact Fin.ext rfl
  | ⟨1, _⟩ => exact Fin.ext (by show c.val = 0; omega)

/-- The lane number of a 64 × 32000 array at (r, v) is the word of v. -/
theorem lane_iota (h : S64x32000.Iotas .tc 32 [1]) (r : Fin 64) (v : Fin 32000) :
    iota .tc S64x32000 32 [1] h (ix2 r v) = BitVec.ofNat 32 v.val :=
  iota_single_apply .tc S64x32000 32 1 h (ix2 r v)

/-- The row number of a 64 × 1 array at (r, c) is the word of r. -/
theorem row_iota (h : S64x1.Iotas .tc 32 [0]) (r : Fin 64) (c : Fin 1) :
    iota .tc S64x1 32 [0] h (ix2 r c) = BitVec.ofNat 32 r.val :=
  iota_single_apply .tc S64x1 32 0 h (ix2 r c)

/-! ## Words -/

/-- A one-bit word widened to 32 bits and read as a signed integer is 1 or 0. -/
theorem bit_value (b : BitVec 1) : ((((b.setWidth 32).toInt : ℤ) : ℝ) : EReal) = if b = 1#1 then 1 else 0 := by
  rcases BitVec.eq_zero_or_eq_one b with h | h <;> subst h <;> simp

/-- The conjunction of two one-bit truth values is 1 exactly when both hold. -/
theorem and_ofBool (p q : Bool) : BitVec.ofBool p &&& BitVec.ofBool q = 1#1 ↔ (p = true ∧ q = true) := by
  cases p <;> cases q <;> decide

/-- The conjunction of a bit with a comparison "not equal". -/
theorem and_ne_bit (b : BitVec 1) (x y : BitVec 32) :
    IntOp.andi b (IntOp.cmpi .ne x y) = 1#1 ↔ (b = 1#1 ∧ x ≠ y) := by
  unfold IntOp.andi IntOp.cmpi
  rcases BitVec.eq_zero_or_eq_one b with h | h <;> subst h
  · simp
  · show BitVec.ofBool true &&& BitVec.ofBool (x != y) = 1#1 ↔ _
    rw [and_ofBool]
    simp

/-- The word of a small position, read signed, is the position. -/
theorem toInt_small (n : ℕ) (hn : n < 640) : (BitVec.ofNat 32 n).toInt = (n : ℤ) := by
  rw [BitVec.toInt_ofNat']
  simp only [Int.bmod_def]
  omega

/-- The word of a small position less one, read signed, is the position less one (-1 at position 0). -/
theorem toInt_pred (n : ℕ) (hn : n < 640) : (BitVec.ofNat 32 n - 1#32).toInt = (n : ℤ) - 1 := by
  have h1 : (1#32 : BitVec 32).toInt = 1 := by decide
  rw [BitVec.toInt_sub, BitVec.toInt_ofNat', h1]
  simp only [Int.bmod_def]
  omega

/-- Row r of tile si stands for position 64 si + r; the two comparisons of the body on that word. -/
theorem counted_bits (si r : ℕ) (hsi : si < 9) (hr : r < 64) (len : BitVec 32) :
    IntOp.andi (IntOp.cmpi .sge (IntOp.addi (BitVec.ofNat 32 r) (Scalar.muli (BitVec.ofNat 32 si) 64#32)) 1#32)
      (IntOp.cmpi .slt (IntOp.subi (IntOp.addi (BitVec.ofNat 32 r) (Scalar.muli (BitVec.ofNat 32 si) 64#32)) 1#32) len) = 1#1
    ↔ (1 ≤ 64 * si + r ∧ ((64 * si + r : ℕ) : ℤ) - 1 < len.toInt) := by
  have e : IntOp.addi (BitVec.ofNat 32 r) (Scalar.muli (BitVec.ofNat 32 si) 64#32) = BitVec.ofNat 32 (64 * si + r) := by
    unfold IntOp.addi Scalar.muli IntOp.muli
    apply BitVec.eq_of_toNat_eq
    simp only [BitVec.toNat_add, BitVec.toNat_mul, BitVec.toNat_ofNat]
    omega
  have hn : 64 * si + r < 640 := by omega
  have h1 : (1#32 : BitVec 32).toInt = 1 := by decide
  rw [e]
  unfold IntOp.andi IntOp.cmpi IntOp.subi
  show BitVec.ofBool ((1#32).sle (BitVec.ofNat 32 (64 * si + r))) &&& BitVec.ofBool ((BitVec.ofNat 32 (64 * si + r) - 1#32).slt len) = 1#1 ↔ _
  rw [and_ofBool, BitVec.sle_iff_toInt_le, BitVec.slt_iff_toInt_lt, toInt_pred _ hn, toInt_small _ hn, h1]
  constructor
  · rintro ⟨a, b⟩; exact ⟨by omega, b⟩
  · rintro ⟨a, b⟩; exact ⟨by omega, b⟩

/-- The comparison "equal" of two words is the bit 1 exactly when they are equal. -/
theorem eq_bit (x y : BitVec 32) : IntOp.cmpi .eq x y = 1#1 ↔ x = y := by
  show BitVec.ofBool (x == y) = 1#1 ↔ x = y
  by_cases h : x = y
  · simp [h]
  · have hb : (x == y) = false := beq_eq_false_iff_ne.mpr h
    rw [hb]
    simp [h]

/-! ## The payloads at an index -/

/-- The target words as a 64 × 1 array: row r holds the block's word at (0, r, 0). -/
theorem pay6_apply (X1 : Vec Ideal S1x64x1 .i32) (r : Fin 64) (c : Fin 1) :
    k0_pay6 (F := Ideal) X1 (ix2 r c) = X1 (ix3 (0 : Fin 1) r c) := by
  unfold k0_pay6
  refine (shapeCast_1ab_ab_apply _ shapeCasts_S1x64x1_S64x1 r c).trans ?_
  rw [shapeCast_self]

/-- Row r's bit "its position is one of 1 … and the position before it is below the length". -/
theorem pay8_apply (i : grid0.Coords) (len : BitVec 32) (r : Fin 64) (c : Fin 1) :
    k0_pay8 (F := Ideal) i len (ix2 r c) = 1#1
      ↔ (1 ≤ 64 * (i 1).val + r.val ∧ ((64 * (i 1).val + r.val : ℕ) : ℤ) - 1 < len.toInt) := by
  have h9 : (i 1).val < 9 := (i 1).isLt
  refine Iff.trans (Eq.to_iff ?_) (counted_bits (i 1).val r.val h9 r.isLt len)
  unfold k0_pay8
  show (IntOp.andi (IntOp.cmpi .sge (IntOp.addi (iota .tc S64x1 32 [0] iota_S64x1_d0_w32 (ix2 r c)) (Scalar.muli (BitVec.ofNat 32 (i 1).val) 64#32)) 1#32)
      (IntOp.cmpi .slt (IntOp.subi (IntOp.addi (iota .tc S64x1 32 [0] iota_S64x1_d0_w32 (ix2 r c)) (Scalar.muli (BitVec.ofNat 32 (i 1).val) 64#32)) 1#32) len) = 1#1) = _
  rw [row_iota]

/-- The row's weight: 1 if its bit is set and its target word differs from the other word, else 0. -/
theorem pay1_apply (v7 : IVec S64x1 32) (v38 : IVec S64x1 1) (v39 : IVec S64x1 32) (j : S64x1.Idx) :
    k0_pay1 (F := Ideal) v7 v38 v39 j = if (v38 j = 1#1 ∧ v7 j ≠ v39 j) then 1 else 0 := by
  unfold k0_pay1
  show (((((IntOp.andi (v38 j) (IntOp.cmpi .ne (v7 j) (v39 j))).setWidth 32).toInt : ℤ) : ℝ) : EReal) = _
  rw [bit_value]
  exact if_congr (and_ne_bit _ _ _) rfl rfl

/-! ## A row's loss -/

/-- A comparison of words at an index compares the elements. -/
theorem cmpi_apply {s : Shape} {w : ℕ} (p : CmpIPredicate) (a b : IVec s w) (i : s.Idx) :
    cmpi p a b i = IntOp.cmpi p (a i) (b i) := rfl

/-- The block's logits as a 64 × 32000 array. -/
def logits (X0 : Vec Ideal S1x64x32000 .f32) : FVec Ideal S64x32000 .f32 :=
  shapeCast S64x32000 X0 shapeCasts_S1x64x32000_S64x32000

/-- The logits less their row's maximum. -/
def shifted (X0 : Vec Ideal S1x64x32000 .f32) : FVec Ideal S64x32000 .f32 :=
  subf (logits X0) (broadcastTo S64x32000 (shapeCast S64x1
    (multiReduction (F := Ideal) .maximumf [1] S64 (logits X0) 0xFF800000#32 reduces_S64x32000_S64 (.inl rfl) rfl)
    shapeCasts_S64_S64x1) broadcasts_S64x1_S64x32000)

/-- The logits array at (r, v) is the block at (0, r, v). -/
theorem logits_apply (X0 : Vec Ideal S1x64x32000 .f32) (r : Fin 64) (v : Fin 32000) :
    logits X0 (ix2 r v) = X0 (ix3 (0 : Fin 1) r v) :=
  shapeCast_1ab_ab_apply X0 _ r v

/-- The shifted logits at (r, v): the logit less its row's maximum. -/
theorem shifted_apply (X0 : Vec Ideal S1x64x32000 .f32) (r : Fin 64) (v : Fin 32000) :
    shifted X0 (ix2 r v) = X0 (ix3 (0 : Fin 1) r v) - rowMax (fun w => X0 (ix3 (0 : Fin 1) r w)) := by
  unfold shifted
  rw [subf_apply, logits_apply, bcast_col, cast_col, lane_max]
  simp only [logits_apply]

/-- A logarithm at an index is the logarithm of the element. -/
theorem log_apply {s : Shape} (a : FVec Ideal s .f32) (i : s.Idx) : log a i = Ideal.log (a i) := rfl

/-- An exponential at an index is the exponential of the element. -/
theorem exp_apply {s : Shape} (a : FVec Ideal s .f32) (i : s.Idx) : exp a i = Ideal.exp (a i) := rfl

/-- The scalar zero word is the extended real 0. -/
theorem zero_scalar : (Scalar.ofBits (F := Ideal) .f32 0x00000000#32 : EReal) = 0 := Ideal.ofBits_zero_f32

/-- The body's row loss, with the two intermediate arrays named. -/
theorem pay7_term (X0 : Vec Ideal S1x64x32000 .f32) (X1 : Vec Ideal S1x64x1 .i32) :
    k0_pay7 (F := Ideal) X0 X1 =
      subf (broadcast S64x1 (Scalar.ofBits (F := Ideal) .f32 0x00000000#32))
        (subf
          (shapeCast S64x1 (multiReduction (F := Ideal) .add [1] S64
            (select (cmpi .eq (iota .tc S64x32000 32 [1] iota_S64x32000_d1_w32)
                (broadcastTo S64x32000 (k0_pay6 (F := Ideal) X1) broadcasts_S64x1_S64x32000))
              (shifted X0) (broadcast S64x32000 (Scalar.ofBits (F := Ideal) .f32 0x00000000#32)))
            0x00000000#32 reduces_S64x32000_S64 (.inl rfl) rfl) shapeCasts_S64_S64x1)
          (log (shapeCast S64x1 (multiReduction (F := Ideal) .add [1] S64 (exp (shifted X0))
            0x00000000#32 reduces_S64x32000_S64 (.inl rfl) rfl) shapeCasts_S64_S64x1))) := rfl

/-- A row's loss as the body computes it: 0 less (the shifted logit picked by the target word, as a sum over the
    lanes, less the logarithm of the sum of the exponentials of the shifted logits). -/
theorem pay7_apply (X0 : Vec Ideal S1x64x32000 .f32) (X1 : Vec Ideal S1x64x1 .i32) (r : Fin 64) (c : Fin 1) :
    k0_pay7 (F := Ideal) X0 X1 (ix2 r c) =
      0 - ((∑ v : Fin 32000, if BitVec.ofNat 32 v.val = X1 (ix3 (0 : Fin 1) r (0 : Fin 1)) then
              X0 (ix3 (0 : Fin 1) r v) - rowMax (fun w => X0 (ix3 (0 : Fin 1) r w)) else 0)
            - Ideal.log (∑ v : Fin 32000, Ideal.exp (X0 (ix3 (0 : Fin 1) r v) - rowMax (fun w => X0 (ix3 (0 : Fin 1) r w))))) := by
  rw [pay7_term, subf_apply, subf_apply, broadcast_apply, log_apply, cast_col, cast_col, lane_sum, lane_sum, zero_scalar]
  refine congrArg (fun t : EReal => (0 : EReal) - t) (congrArg₂ (fun a b : EReal => a - Ideal.log b) ?_ ?_)
  · refine Finset.sum_congr rfl fun v _ => ?_
    rw [select_apply, broadcast_apply, cmpi_apply, lane_iota, bcast_col, pay6_apply, shifted_apply]
    unfold Scalar.select
    exact if_congr (eq_bit _ _) rfl rfl
  · refine Finset.sum_congr rfl fun v _ => ?_
    rw [exp_apply, shifted_apply]

/-! ## A row's loss is the specification's -/

/-- A lane's word is the target word exactly when the lane is the target's class, for a target word below 32000. -/
theorem word_eq_iff (t : BitVec 32) (ht : t.toNat < 32000) (v : Fin 32000) : BitVec.ofNat 32 v.val = t ↔ v = cls t := by
  have hv := v.isLt
  constructor
  · intro h
    apply Fin.ext
    show v.val = t.toNat % 32000
    have e : t.toNat = v.val % 2 ^ 32 := by rw [← h, BitVec.toNat_ofNat]
    omega
  · intro h
    have e : v.val = t.toNat % 32000 := congrArg Fin.val h
    apply BitVec.eq_of_toNat_eq
    rw [BitVec.toNat_ofNat]
    omega

/-- The sum over the lanes that keeps the one lane whose word is the target word is that lane's term. -/
theorem pick_sum (t : BitVec 32) (ht : t.toNat < 32000) (f : Fin 32000 → EReal) :
    (∑ v : Fin 32000, if BitVec.ofNat 32 v.val = t then f v else 0) = f (cls t) := by
  rw [Finset.sum_congr rfl fun v _ => if_congr (word_eq_iff t ht v) rfl rfl, Finset.sum_ite_eq',
    if_pos (Finset.mem_univ _)]

/-- A row's loss as the body computes it is the specification's row loss at the target's class. -/
theorem pay7_eq_rowNll (X0 : Vec Ideal S1x64x32000 .f32) (X1 : Vec Ideal S1x64x1 .i32) (r : Fin 64) (c : Fin 1)
    (ht : (X1 (ix3 (0 : Fin 1) r (0 : Fin 1))).toNat < 32000) :
    k0_pay7 (F := Ideal) X0 X1 (ix2 r c)
      = rowNll (fun v => X0 (ix3 (0 : Fin 1) r v)) (cls (X1 (ix3 (0 : Fin 1) r (0 : Fin 1)))) := by
  rw [pay7_apply, pick_sum _ ht (fun v => X0 (ix3 (0 : Fin 1) r v) - rowMax (fun w => X0 (ix3 (0 : Fin 1) r w))), zero_sub]
  rfl

/-! ## The two stored sums -/

/-- The other word of the comparison is the zero word. -/
theorem pay9_apply (j : S64x1.Idx) : k0_pay9 j = 0#32 := rfl

/-- Row r's weight is 1 exactly when the row counts. -/
theorem weight_apply (i : grid0.Coords) (len : BitVec 32) (X1 : Vec Ideal S1x64x1 .i32) (r : Fin 64) :
    k0_pay1 (F := Ideal) (k0_pay6 (F := Ideal) X1) (k0_pay8 (F := Ideal) i len) k0_pay9 (ix2 r (0 : Fin 1))
      = if TileCounted (i 1).val r len (X1 (ix3 (0 : Fin 1) r (0 : Fin 1))) then 1 else 0 := by
  rw [pay1_apply]
  refine if_congr ?_ rfl rfl
  rw [pay8_apply, pay6_apply, pay9_apply]
  unfold TileCounted
  exact and_assoc

/-- The stored sum of losses as a term over the rows' losses and weights. -/
theorem pay2_term (v7 : IVec S64x1 32) (v27 : FVec Ideal S64x1 .f32) (v38 : IVec S64x1 1) (v39 : IVec S64x1 32)
    (v45 : Vec Ideal S1x1x1 .f32) :
    k0_pay2 (F := Ideal) v7 v27 v38 v39 v45 =
      addf (shapeCast S1x1x1 v45 shapeCasts_S1x1x1_S1x1x1)
        (shapeCast S1x1x1 (shapeCast S1x1 (multiReduction (F := Ideal) .add [0] S1
          (mulf v27 (k0_pay1 (F := Ideal) v7 v38 v39)) 0x00000000#32 reduces_S64x1_S1 (.inl rfl) rfl)
          shapeCasts_S1_S1x1) shapeCasts_S1x1_S1x1x1) := rfl

/-- The stored count as a term over the rows' weights. -/
theorem pay3_term (v7 : IVec S64x1 32) (v38 : IVec S64x1 1) (v39 : IVec S64x1 32) (v52 : Vec Ideal S1x1x1 .f32) :
    k0_pay3 (F := Ideal) v7 v38 v39 v52 =
      addf (shapeCast S1x1x1 v52 shapeCasts_S1x1x1_S1x1x1)
        (shapeCast S1x1x1 (shapeCast S1x1 (multiReduction (F := Ideal) .add [0] S1
          (k0_pay1 (F := Ideal) v7 v38 v39) 0x00000000#32 reduces_S64x1_S1 (.inl rfl) rfl)
          shapeCasts_S1_S1x1) shapeCasts_S1x1_S1x1x1) := rfl

/-- The stored sum of losses: what was there plus the tile's sum of counted losses. -/
theorem pay2_eq (i : grid0.Coords) (len : BitVec 32) (X0 : Vec Ideal S1x64x32000 .f32) (X1 : Vec Ideal S1x64x1 .i32)
    (Y : Vec Ideal S1x1x1 .f32)
    (hin : ∀ r : Fin 64, TileCounted (i 1).val r len (X1 (ix3 (0 : Fin 1) r (0 : Fin 1))) →
      (X1 (ix3 (0 : Fin 1) r (0 : Fin 1))).toNat < 32000) :
    k0_pay2 (F := Ideal) (k0_pay6 (F := Ideal) X1) (k0_pay7 (F := Ideal) X0 X1) (k0_pay8 (F := Ideal) i len) k0_pay9 Y
      = fun _ => Y (ix3 (0 : Fin 1) (0 : Fin 1) (0 : Fin 1))
          + tileNll (i 1).val len (fun r v => X0 (ix3 (0 : Fin 1) r v)) (fun r => X1 (ix3 (0 : Fin 1) r (0 : Fin 1))) := by
  funext j
  obtain ⟨a, b, c, rfl⟩ : ∃ (a b c : Fin 1), j = ix3 a b c := ⟨j 0, j 1, j 2, eq_ix3 j⟩
  obtain rfl : a = 0 := Subsingleton.elim _ _
  obtain rfl : b = 0 := Subsingleton.elim _ _
  obtain rfl : c = 0 := Subsingleton.elim _ _
  rw [pay2_term, addf_apply, shapeCast_self, shapeCast_ab_1ab_apply, shapeCast_a_1a_apply, row_sum]
  unfold tileNll
  refine congrArg (fun t : EReal => Y (ix3 (0 : Fin 1) (0 : Fin 1) (0 : Fin 1)) + t) (Finset.sum_congr rfl fun r _ => ?_)
  rw [mulf_apply, weight_apply]
  by_cases hc : TileCounted (i 1).val r len (X1 (ix3 (0 : Fin 1) r (0 : Fin 1)))
  · rw [if_pos hc, if_pos hc, mul_one, pay7_eq_rowNll X0 X1 r 0 (hin r hc)]
  · rw [if_neg hc, if_neg hc, mul_zero]

/-- The stored count: what was there plus the tile's number of counted rows. -/
theorem pay3_eq (i : grid0.Coords) (len : BitVec 32) (X1 : Vec Ideal S1x64x1 .i32) (Y : Vec Ideal S1x1x1 .f32) :
    k0_pay3 (F := Ideal) (k0_pay6 (F := Ideal) X1) (k0_pay8 (F := Ideal) i len) k0_pay9 Y
      = fun _ => Y (ix3 (0 : Fin 1) (0 : Fin 1) (0 : Fin 1))
          + tileMask (i 1).val len (fun r => X1 (ix3 (0 : Fin 1) r (0 : Fin 1))) := by
  funext j
  obtain ⟨a, b, c, rfl⟩ : ∃ (a b c : Fin 1), j = ix3 a b c := ⟨j 0, j 1, j 2, eq_ix3 j⟩
  obtain rfl : a = 0 := Subsingleton.elim _ _
  obtain rfl : b = 0 := Subsingleton.elim _ _
  obtain rfl : c = 0 := Subsingleton.elim _ _
  rw [pay3_term, addf_apply, shapeCast_self, shapeCast_ab_1ab_apply, shapeCast_a_1a_apply, row_sum]
  unfold tileMask
  refine congrArg (fun t : EReal => Y (ix3 (0 : Fin 1) (0 : Fin 1) (0 : Fin 1)) + t) (Finset.sum_congr rfl fun r _ => ?_)
  rw [weight_apply]

/-! ## The two values stored at the first tile -/

/-- The sum of losses starts at 0. -/
theorem pay4_eq : k0_pay4 (F := Ideal) = fun _ => 0 := by
  funext j
  exact Ideal.ofBits_zero_f32

/-- The count starts at 0. -/
theorem pay5_eq : k0_pay5 (F := Ideal) = fun _ => 0 := by
  funext j
  exact Ideal.ofBits_zero_f32

end Cert.KernelIdeal.TileValue

end
-- ==== Proof.BlockRows.lean ====
/-
  What the staging buffers of the two input windows hold when the body runs, row by row, for any float family.

  The logits f32[16, 513, 32000] are read in blocks (1, 64, 32000), the targets' column i32[16, 513, 1] in blocks
  (1, 64, 1), both at block index (b, si, 0) at the grid's point t = 9 b + si, so b = t / 9 and si = t % 9. Nine
  blocks of 64 rows stand for 576 positions, and a sequence has 513: the ninth block (si = 8) begins at position
  512 and overhangs the array by 63 rows. Its transfer is cut to the 1 row inside the array; the buffer's other 63
  rows keep contents nothing names (the d of Window.fill). Every other block lies inside the array and is moved
  whole.

  Row r of the buffer at point t stands for position 64 (t % 9) + r of sequence t / 9. Where that position is
  below 513 the transfer moves the row, and the buffer holds the array's entry there: the logits' row itself, and
  for the targets the column's entry (b, p, 0), which is target (b, p), the column being the targets broadcast
  along a new last axis of size 1. A block's coordinate on an axis is always the block index times the block's size
  plus the coordinate inside the block: (t / 9) * 1 + 0, (t % 9) * 64 + r, and 0 * 32000 + v (or 0 * 1 + 0).
-/
import proofs.«429088_j18107582120438_1_alg».proof.Proof.Kit
import proofs.«429088_j18107582120438_1_alg».proof.Proof.Sched
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-! ## A window's block, read off its array -/

/-- Window w's block at point t, read off the window's array as the launch finds it: the block's part inside the
    array (for the ninth tile of an input, its first row only). -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- A point's sequence number t / 9 is below 16, the grid having 16 * 9 points. -/
theorem point_seq_lt (t : Fin (cfgM m).N) : t.val / 9 < 16 := by
  have h : t.val < 144 := lt_of_lt_of_eq t.isLt (N_eq m); omega

/-! ## The logits' window -/

/-- The logits' block index at point t is (t / 9, t % 9, 0): decided over the 144 points. -/
theorem logits_index : ∀ t : Fin grid0.N, cc0_transform_0 (grid0.coords t) 0 = t.val / 9
    ∧ cc0_transform_0 (grid0.coords t) 1 = t.val % 9 ∧ cc0_transform_0 (grid0.coords t) 2 = 0 := by
  decide +kernel

/-- How much of the logits' block the transfer at point t moves: all of it, except at a sequence's ninth tile,
    where (8 + 1) * 64 = 576 > 513 and 513 - 8 * 64 = 1 row is left. Decided over the 144 points. -/
theorem logits_xsize : ∀ t : Fin grid0.N, (clip0_0 (grid0.coords t) 0).extent 1 = 1
    ∧ (clip0_0 (grid0.coords t) 1).extent 64 = (if t.val % 9 = 8 then 1 else 64)
    ∧ (clip0_0 (grid0.coords t) 2).extent 32000 = 32000 := by
  decide +kernel

/-- A row of the logits' buffer that stands for a position below 513 is moved by the transfer: at the ninth tile
    64 * 8 + r < 513 says r = 0, the one row moved; elsewhere all 64 rows are. -/
theorem logits_moved (t : Fin (cfgM m).N) (r : Fin 64) (v : Fin 32000) (h : 64 * (t.val % 9) + r.val < 513) :
    ((cfgM m).win 0).moved (grid0.coords t) (ValueIdx.ix3 (0 : Fin 1) r v) = true := by
  refine (Window.moved_iff _ _ _).mpr ?_
  obtain ⟨x0, x1, x2⟩ := logits_xsize t
  show ∀ a : Fin 3, ((ValueIdx.ix3 (0 : Fin 1) r v) a).val < (clip0_0 (grid0.coords t) a).extent (S1x64x32000.size a)
  intro a
  match a with
  | ⟨0, _⟩ => show (0 : Nat) < (clip0_0 (grid0.coords t) 0).extent 1; rw [x0]; omega
  | ⟨1, _⟩ => show r.val < (clip0_0 (grid0.coords t) 1).extent 64; rw [x1]; split <;> omega
  | ⟨2, _⟩ => show v.val < (clip0_0 (grid0.coords t) 2).extent 32000; rw [x2]; exact v.isLt

/-- THE LOGITS' ROWS. A just-fetched buffer of the logits' window, whatever it held before (d), holds at row r,
    class v the logit of sequence t / 9 at position 64 (t % 9) + r, class v, wherever that position is below 513. -/
theorem row_logits (c : Dev nD) (t : Fin (cfgM m).N) (d) (r : Fin 64) (v : Fin 32000) (h : 64 * (t.val % 9) + r.val < 513) :
    ((cfgM m).win 0).fill (grid0.coords t) d (iblk m c 0 t) (ValueIdx.ix3 (0 : Fin 1) r v)
      = (m ((c : Thread nD τ).loc main_arg0) : S16x513x32000.Idx → Elt F .f32)
          (ValueIdx.ix3 ⟨t.val / 9, point_seq_lt m t⟩ ⟨64 * (t.val % 9) + r.val, h⟩ v) := by
  -- the row is moved, so the buffer holds the block's entry there: the array read at the block's embedding
  unfold Window.fill
  rw [dif_pos (logits_moved m t r v h)]
  show V m c main_arg0 _ = _
  rw [V_main_arg0]
  obtain ⟨e0, e1, e2⟩ := logits_index t
  -- axis by axis: block index * block size + 1 * the coordinate inside the block
  refine congrArg _ ?_
  funext a; apply Fin.ext
  match a with
  | ⟨0, _⟩ => show cc0_transform_0 (grid0.coords t) 0 * 1 + 1 * (0 : Nat) = t.val / 9; rw [e0]; omega
  | ⟨1, _⟩ => show cc0_transform_0 (grid0.coords t) 1 * 64 + 1 * r.val = 64 * (t.val % 9) + r.val; rw [e1]; omega
  | ⟨2, _⟩ => show cc0_transform_0 (grid0.coords t) 2 * 32000 + 1 * v.val = v.val; rw [e2]; omega

/-! ## The targets' window -/

/-- The targets' block index at point t is (t / 9, t % 9, 0): decided over the 144 points. -/
theorem target_index : ∀ t : Fin grid0.N, cc0_transform_1 (grid0.coords t) 0 = t.val / 9
    ∧ cc0_transform_1 (grid0.coords t) 1 = t.val % 9 ∧ cc0_transform_1 (grid0.coords t) 2 = 0 := by
  decide +kernel

/-- How much of the targets' block the transfer at point t moves: all of it, except at a sequence's ninth tile,
    where 1 row of 64 is left. Decided over the 144 points. -/
theorem target_xsize : ∀ t : Fin grid0.N, (clip0_1 (grid0.coords t) 0).extent 1 = 1
    ∧ (clip0_1 (grid0.coords t) 1).extent 64 = (if t.val % 9 = 8 then 1 else 64)
    ∧ (clip0_1 (grid0.coords t) 2).extent 1 = 1 := by
  decide +kernel

/-- A row of the targets' buffer that stands for a position below 513 is moved by the transfer. -/
theorem target_moved (t : Fin (cfgM m).N) (r : Fin 64) (h : 64 * (t.val % 9) + r.val < 513) :
    ((cfgM m).win 1).moved (grid0.coords t) (ValueIdx.ix3 (0 : Fin 1) r (0 : Fin 1)) = true := by
  refine (Window.moved_iff _ _ _).mpr ?_
  obtain ⟨x0, x1, x2⟩ := target_xsize t
  show ∀ a : Fin 3, ((ValueIdx.ix3 (0 : Fin 1) r (0 : Fin 1)) a).val < (clip0_1 (grid0.coords t) a).extent (S1x64x1.size a)
  intro a
  match a with
  | ⟨0, _⟩ => show (0 : Nat) < (clip0_1 (grid0.coords t) 0).extent 1; rw [x0]; omega
  | ⟨1, _⟩ => show r.val < (clip0_1 (grid0.coords t) 1).extent 64; rw [x1]; split <;> omega
  | ⟨2, _⟩ => show (0 : Nat) < (clip0_1 (grid0.coords t) 2).extent 1; rw [x2]; omega

/-- THE TARGETS' ROWS. A just-fetched buffer of the targets' window, whatever it held before (d), holds at row r
    the target of sequence t / 9 at position 64 (t % 9) + r, wherever that position is below 513: the window's array
    is the targets laid out as a column, whose entry (b, p, 0) is target (b, p) (neither of the targets' axes has
    size 1, so the broadcast reads coordinate b and coordinate p themselves). -/
theorem row_target (c : Dev nD) (t : Fin (cfgM m).N) (d) (r : Fin 64) (h : 64 * (t.val % 9) + r.val < 513) :
    ((cfgM m).win 1).fill (grid0.coords t) d (iblk m c 1 t) (ValueIdx.ix3 (0 : Fin 1) r (0 : Fin 1))
      = (m ((c : Thread nD τ).loc main_arg1) : S16x513.Idx → Elt F .i32)
          (ValueIdx.ix2 ⟨t.val / 9, point_seq_lt m t⟩ ⟨64 * (t.val % 9) + r.val, h⟩) := by
  unfold Window.fill
  rw [dif_pos (target_moved m t r h)]
  show (V m c main_v0 : S16x513x1.Idx → Elt F .i32) _ = _
  rw [V_main_v0]
  obtain ⟨e0, e1, e2⟩ := target_index t
  refine broadcastInDim_apply _ _ _ _ (ValueIdx.ix2 ⟨t.val / 9, point_seq_lt m t⟩ ⟨64 * (t.val % 9) + r.val, h⟩) ?_
  intro a
  match a with
  | ⟨0, _⟩ =>
    show t.val / 9 = if (16 : Nat) = 1 then 0 else cc0_transform_1 (grid0.coords t) 0 * 1 + 1 * (0 : Nat)
    rw [if_neg (by decide), e0]; omega
  | ⟨1, _⟩ =>
    show 64 * (t.val % 9) + r.val = if (513 : Nat) = 1 then 0 else cc0_transform_1 (grid0.coords t) 1 * 64 + 1 * r.val
    rw [if_neg (by decide), e1]; omega

/-! ## What the body finds in the two input buffers -/

/-- Both input windows are fetched at every point, so what the body finds in the logits' buffer at point t is the
    block just fetched: the block's part inside the array on the rows moved, some d elsewhere. -/
theorem before_in0 {c : Dev nD} (dat : Dat τ (Elt F) Unit ℕ (UR sig nD τ) ℕ (cfgM m) c)
    (hA : dat.A 0 = V m c (Pipeline.arrRef spec0 0)) (t : Fin (cfgM m).N) (d) :
    dat.before 0 t d = ((cfgM m).win 0).fill (grid0.coords t) d (iblk m c 0 t) := by
  unfold Dat.before; rw [if_pos (fetch_0 m t)]; unfold Dat.fetched Dat.blockOf iblk; rw [hA]; rfl

/-- The same for the targets' buffer. -/
theorem before_in1 {c : Dev nD} (dat : Dat τ (Elt F) Unit ℕ (UR sig nD τ) ℕ (cfgM m) c)
    (hA : dat.A 1 = V m c (Pipeline.arrRef spec0 1)) (t : Fin (cfgM m).N) (d) :
    dat.before 1 t d = ((cfgM m).win 1).fill (grid0.coords t) d (iblk m c 1 t) := by
  unfold Dat.before; rw [if_pos (fetch_1 m t)]; unfold Dat.fetched Dat.blockOf iblk; rw [hA]; rfl

/-- The same over proof data that relates what the body leaves to what it found: the contents the body may find in
    the logits' buffer at point t are exactly the just-fetched ones, for some d. -/
theorem finds_in0 {c : Dev nD} (rd : Pipeline.RDat τ (Elt F) Unit ℕ (UR sig nD τ) ℕ (cfgM m) c)
    (hA : rd.A 0 = V m c (Pipeline.arrRef spec0 0)) (t : Fin (cfgM m).N) (X) :
    rd.Finds 0 t X ↔ ∃ d, X = ((cfgM m).win 0).fill (grid0.coords t) d (iblk m c 0 t) := by
  rw [rd.finds_of_fetch (fetch_0 m t)]; unfold Pipeline.RDat.fetched Pipeline.RDat.blockOf iblk; rw [hA]; exact Iff.rfl

/-- And in the targets' buffer. -/
theorem finds_in1 {c : Dev nD} (rd : Pipeline.RDat τ (Elt F) Unit ℕ (UR sig nD τ) ℕ (cfgM m) c)
    (hA : rd.A 1 = V m c (Pipeline.arrRef spec0 1)) (t : Fin (cfgM m).N) (X) :
    rd.Finds 1 t X ↔ ∃ d, X = ((cfgM m).win 1).fill (grid0.coords t) d (iblk m c 1 t) := by
  rw [rd.finds_of_fetch (fetch_1 m t)]; unfold Pipeline.RDat.fetched Pipeline.RDat.blockOf iblk; rw [hA]; exact Iff.rfl

end Cert.KernelIdeal.Hand

end
-- ==== Proof.OutArray.lean ====
/-
  What the program's one launch leaves, for any float family. Each of the two outputs is a 16 x 1 x 1 array whose
  block index is (b, 0, 0) at every tile of sequence b: the 1 x 1 x 1 block of sequence b is written back once, at the
  sequence's last tile, point 9 * b + 8 of the grid, so after the run entry (b, 0, 0) holds what the body left in the
  block at that point, and no other write-back reaches it. The host lines that follow the launch sum each output over
  its 16 entries from 0, take the larger of the second sum and 1, and divide the first sum by it: that quotient, over the
  two arrays as the launch leaves them, is the program's result. Those lines write neither the targets nor the lengths
  table, and the logits, an input of the launch, are never written back.
-/
import proofs.«429088_j18107582120438_1_alg».proof.Proof.Kit
import proofs.«429088_j18107582120438_1_alg».proof.Proof.Sched
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ)

/-! ## The program's result and its arguments after the host lines that follow the launch -/

/-- The result: the quotient of the first output's sum by the larger of the second output's sum and 1, both outputs
    as the launch leaves them. -/
theorem tail_result {c : Dev nD} (dats : (p : Fin 1) → (c : Dev nD) → Dat τ (Elt F) Unit ℕ (UR sig nD τ) ℕ (Pipeline.pin pcfgs (fun _ => adm m) p) c) :
    Pipeline.afterTail pcfgs (fun _ => adm m) dats 0 (V0 m) [hostOps1] c main_v5
      = Host.divf (Host.reduceAdd ((dats 0 c).arrAt 2 (cfgM m).N) (constant S_ .f32 0x00000000#32) reducesTo_S16x1x1_S_d0_1_2 h_S_)
          (maximumf (Host.reduceAdd ((dats 0 c).arrAt 3 (cfgM m).N) (constant S_ .f32 0x00000000#32) reducesTo_S16x1x1_S_d0_1_2 h_S_) (constant S_ .f32 0x3F800000#32)) := by
  unfold Pipeline.afterTail
  show StableHlo.after hostOps1 _ (Proc.devRef .tc main_v5) = _
  after_results
  have e2 := Pipeline.withArrays_arr (τ := τ) spec0 winFacts0.arr_inj c (V0 m c) (fun w => (dats 0 c).arrAt w (cfgM m).N) 2
  have e3 := Pipeline.withArrays_arr (τ := τ) spec0 winFacts0.arr_inj c (V0 m c) (fun w => (dats 0 c).arrAt w (cfgM m).N) 3
  exact congrArg₂ Host.divf (congrArg (fun x => Host.reduceAdd x (constant S_ .f32 0x00000000#32) reducesTo_S16x1x1_S_d0_1_2 h_S_) e2)
    (congrArg (fun x => maximumf (Host.reduceAdd x (constant S_ .f32 0x00000000#32) reducesTo_S16x1x1_S_d0_1_2 h_S_) (constant S_ .f32 0x3F800000#32)) e3)

/-- The lines after the launch write neither the targets … -/
theorem tail_args {c : Dev nD} (dats : (p : Fin 1) → (c : Dev nD) → Dat τ (Elt F) Unit ℕ (UR sig nD τ) ℕ (Pipeline.pin pcfgs (fun _ => adm m) p) c) :
    Pipeline.afterTail pcfgs (fun _ => adm m) dats 0 (V0 m) [hostOps1] c main_arg1 = m ((c : Thread nD τ).loc main_arg1) := by
  unfold Pipeline.afterTail
  show StableHlo.after hostOps1 _ (Proc.devRef .tc main_arg1) = _
  after_results
  exact (Pipeline.withArrays_of_ne (τ := τ) spec0 c (V0 m c) _ main_arg1 (by decide)).trans (V_main_arg1 m c)

/-- … nor the lengths table. -/
theorem tail_arg2 {c : Dev nD} (dats : (p : Fin 1) → (c : Dev nD) → Dat τ (Elt F) Unit ℕ (UR sig nD τ) ℕ (Pipeline.pin pcfgs (fun _ => adm m) p) c) :
    Pipeline.afterTail pcfgs (fun _ => adm m) dats 0 (V0 m) [hostOps1] c main_arg2 = m ((c : Thread nD τ).loc main_arg2) := by
  unfold Pipeline.afterTail
  show StableHlo.after hostOps1 _ (Proc.devRef .tc main_arg2) = _
  after_results
  exact (Pipeline.withArrays_of_ne (τ := τ) spec0 c (V0 m c) _ main_arg2 (by decide)).trans (V_main_arg2 m c)

/-- The logits are the first window's array, an input: no write-back touches it, so after the run it holds what it
    held when the launch was entered, which is what it held at the start. -/
theorem arr_arg0 {c : Dev nD} (dat : Dat τ (Elt F) Unit ℕ (UR sig nD τ) ℕ (cfgM m) c)
    (hA : dat.A 0 = V m c (Pipeline.arrRef spec0 0)) :
    dat.arrAt 0 (cfgM m).N = m ((c : Thread nD τ).loc main_arg0) :=
  (dat.arrAt_in 0 (isOut_0 m) _).trans (hA.trans (V_main_arg0 m c))

/-! ## The two outputs' arrays after the run

The outputs' index map is (b, 0, 0): sequence b's 1x1x1 block is written back once, at its last tile, point 9 * b + 8,
and holds what the body left there; no other write-back touches entry (b, 0, 0). -/

/-- Sequence b's last tile is a point of the grid. -/
theorem pt_lt (b : Fin 16) : 9 * b.val + 8 < (cfgM m).grid.N := by
  have h : (cfgM m).grid.N = 144 := N_eq m
  rw [h]; have := b.isLt; omega

/-- The block index of output window 2 at point t is (t / 9, 0, 0). -/
theorem index2_0 : ∀ t : Fin grid0.N, cc0_transform_2 (grid0.coords t) 0 = t.val / 9 := by decide +kernel
/-- Its other two coordinates are 0. -/
theorem index2_1 : ∀ t : Fin grid0.N, cc0_transform_2 (grid0.coords t) 1 = 0 := by decide +kernel
theorem index2_2 : ∀ t : Fin grid0.N, cc0_transform_2 (grid0.coords t) 2 = 0 := by decide +kernel

/-- Entry (b, 0, 0) of the first output after the run is what the body left in the output's block at sequence b's last
    tile. -/
theorem arrAt_out2 {c : Dev nD} (dat : Dat τ (Elt F) Unit ℕ (UR sig nD τ) ℕ (cfgM m) c) (b : Fin 16) :
    (dat.arrAt 2 (cfgM m).N : S16x1x1.Idx → Elt F .f32) (ValueIdx.ix3 b 0 0)
      = dat.after 2 ⟨9 * b.val + 8, pt_lt m b⟩ (ValueIdx.ix3 0 0 0) := by
  have hb := b.isLt
  -- every entry a write-back writes is, if it is entry (b', 0, 0), what the body left at point 9 * b' + 8
  have hP : ∀ t, ((cfgM m).win 2).flush t = true → ∀ y : (((cfgM m).win 2).xblock ((cfgM m).grid.coords t)).Idx,
      (fun (i : S16x1x1.Idx) (v : Elt F .f32) => ∀ b' : Fin 16, i = ValueIdx.ix3 b' 0 0 →
          v = dat.after 2 ⟨9 * b'.val + 8, pt_lt m b'⟩ (ValueIdx.ix3 0 0 0))
        ((((cfgM m).win 2).blk t).view.emb y)
        (_root_.cast (congrArg (Elt F) (((cfgM m).win 2).blk t).view.elt_eq.symm) (dat.flushed 2 t y)) := by
    intro t hf y b' hb'
    have h8 : t.val % 9 = 8 := (flush_2 m t).mp hf
    have h03 : 0 < 3 := by decide
    have h13 : 1 < 3 := by decide
    have h23 : 2 < 3 := by decide
    have hy0 : (y ⟨0, h03⟩).val < 1 := (y ⟨0, h03⟩).isLt
    have hy1 : (y ⟨1, h13⟩).val < 1 := (y ⟨1, h13⟩).isLt
    have hy2 : (y ⟨2, h23⟩).val < 1 := (y ⟨2, h23⟩).isLt
    have h0 : cc0_transform_2 (grid0.coords t) 0 * 1 + 1 * (y ⟨0, h03⟩).val = b'.val :=
      congrArg (fun i : S16x1x1.Idx => (i 0).val) hb'
    rw [index2_0 t] at h0
    obtain rfl : t = ⟨9 * b'.val + 8, pt_lt m b'⟩ := Fin.ext (by show t.val = 9 * b'.val + 8; omega)
    show dat.after 2 _ (((cfgM m).win 2).xinj _ y) = dat.after 2 _ (ValueIdx.ix3 0 0 0)
    refine congrArg (dat.after 2 _) (funext fun a => Fin.ext ?_)
    match a with
    | ⟨0, _⟩ => show (y ⟨0, _⟩).val = 0; omega
    | ⟨1, _⟩ => show (y ⟨1, _⟩).val = 0; omega
    | ⟨2, _⟩ => show (y ⟨2, _⟩).val = 0; omega
  -- entry (b, 0, 0) lies in the block written back at point 9 * b + 8
  have e : (((cfgM m).win 2).blk ⟨9 * b.val + 8, pt_lt m b⟩).view.emb (ValueIdx.ix3 0 0 0 : S1x1x1.Idx)
      = (ValueIdx.ix3 b 0 0 : S16x1x1.Idx) := by
    funext a
    apply Fin.ext
    match a with
    | ⟨0, _⟩ =>
      show cc0_transform_2 (grid0.coords ⟨9 * b.val + 8, pt_lt m b⟩) 0 * 1 + 1 * 0 = b.val
      rw [index2_0]; show (9 * b.val + 8) / 9 * 1 + 1 * 0 = b.val; omega
    | ⟨1, _⟩ =>
      show cc0_transform_2 (grid0.coords ⟨9 * b.val + 8, pt_lt m b⟩) 1 * 1 + 1 * 0 = 0
      rw [index2_1]
    | ⟨2, _⟩ =>
      show cc0_transform_2 (grid0.coords ⟨9 * b.val + 8, pt_lt m b⟩) 2 * 1 + 1 * 0 = 0
      rw [index2_2]
  have hmem := View.emb_mem_set (((cfgM m).win 2).blk ⟨9 * b.val + 8, pt_lt m b⟩).view (ValueIdx.ix3 0 0 0 : S1x1x1.Idx)
  rw [e] at hmem
  exact dat.arrAt_forall_of_flushed 2
    (fun (i : S16x1x1.Idx) (v : Elt F .f32) => ∀ b' : Fin 16, i = ValueIdx.ix3 b' 0 0 →
          v = dat.after 2 ⟨9 * b'.val + 8, pt_lt m b'⟩ (ValueIdx.ix3 0 0 0))
    hP (cfgM m).N ⟨9 * b.val + 8, pt_lt m b⟩ (ValueIdx.ix3 b 0 0)
    (pt_lt m b) ((flush_2 m _).mpr (by show (9 * b.val + 8) % 9 = 8; omega)) hmem b rfl

/-- The block index of output window 3 at point t is (t / 9, 0, 0). -/
theorem index3_0 : ∀ t : Fin grid0.N, cc0_transform_3 (grid0.coords t) 0 = t.val / 9 := by decide +kernel
/-- Its other two coordinates are 0. -/
theorem index3_1 : ∀ t : Fin grid0.N, cc0_transform_3 (grid0.coords t) 1 = 0 := by decide +kernel
theorem index3_2 : ∀ t : Fin grid0.N, cc0_transform_3 (grid0.coords t) 2 = 0 := by decide +kernel

/-- Entry (b, 0, 0) of the second output after the run is what the body left in the output's block at sequence b's last
    tile. -/
theorem arrAt_out3 {c : Dev nD} (dat : Dat τ (Elt F) Unit ℕ (UR sig nD τ) ℕ (cfgM m) c) (b : Fin 16) :
    (dat.arrAt 3 (cfgM m).N : S16x1x1.Idx → Elt F .f32) (ValueIdx.ix3 b 0 0)
      = dat.after 3 ⟨9 * b.val + 8, pt_lt m b⟩ (ValueIdx.ix3 0 0 0) := by
  have hb := b.isLt
  -- every entry a write-back writes is, if it is entry (b', 0, 0), what the body left at point 9 * b' + 8
  have hP : ∀ t, ((cfgM m).win 3).flush t = true → ∀ y : (((cfgM m).win 3).xblock ((cfgM m).grid.coords t)).Idx,
      (fun (i : S16x1x1.Idx) (v : Elt F .f32) => ∀ b' : Fin 16, i = ValueIdx.ix3 b' 0 0 →
          v = dat.after 3 ⟨9 * b'.val + 8, pt_lt m b'⟩ (ValueIdx.ix3 0 0 0))
        ((((cfgM m).win 3).blk t).view.emb y)
        (_root_.cast (congrArg (Elt F) (((cfgM m).win 3).blk t).view.elt_eq.symm) (dat.flushed 3 t y)) := by
    intro t hf y b' hb'
    have h8 : t.val % 9 = 8 := (flush_3 m t).mp hf
    have h03 : 0 < 3 := by decide
    have h13 : 1 < 3 := by decide
    have h23 : 2 < 3 := by decide
    have hy0 : (y ⟨0, h03⟩).val < 1 := (y ⟨0, h03⟩).isLt
    have hy1 : (y ⟨1, h13⟩).val < 1 := (y ⟨1, h13⟩).isLt
    have hy2 : (y ⟨2, h23⟩).val < 1 := (y ⟨2, h23⟩).isLt
    have h0 : cc0_transform_3 (grid0.coords t) 0 * 1 + 1 * (y ⟨0, h03⟩).val = b'.val :=
      congrArg (fun i : S16x1x1.Idx => (i 0).val) hb'
    rw [index3_0 t] at h0
    obtain rfl : t = ⟨9 * b'.val + 8, pt_lt m b'⟩ := Fin.ext (by show t.val = 9 * b'.val + 8; omega)
    show dat.after 3 _ (((cfgM m).win 3).xinj _ y) = dat.after 3 _ (ValueIdx.ix3 0 0 0)
    refine congrArg (dat.after 3 _) (funext fun a => Fin.ext ?_)
    match a with
    | ⟨0, _⟩ => show (y ⟨0, _⟩).val = 0; omega
    | ⟨1, _⟩ => show (y ⟨1, _⟩).val = 0; omega
    | ⟨2, _⟩ => show (y ⟨2, _⟩).val = 0; omega
  -- entry (b, 0, 0) lies in the block written back at point 9 * b + 8
  have e : (((cfgM m).win 3).blk ⟨9 * b.val + 8, pt_lt m b⟩).view.emb (ValueIdx.ix3 0 0 0 : S1x1x1.Idx)
      = (ValueIdx.ix3 b 0 0 : S16x1x1.Idx) := by
    funext a
    apply Fin.ext
    match a with
    | ⟨0, _⟩ =>
      show cc0_transform_3 (grid0.coords ⟨9 * b.val + 8, pt_lt m b⟩) 0 * 1 + 1 * 0 = b.val
      rw [index3_0]; show (9 * b.val + 8) / 9 * 1 + 1 * 0 = b.val; omega
    | ⟨1, _⟩ =>
      show cc0_transform_3 (grid0.coords ⟨9 * b.val + 8, pt_lt m b⟩) 1 * 1 + 1 * 0 = 0
      rw [index3_1]
    | ⟨2, _⟩ =>
      show cc0_transform_3 (grid0.coords ⟨9 * b.val + 8, pt_lt m b⟩) 2 * 1 + 1 * 0 = 0
      rw [index3_2]
  have hmem := View.emb_mem_set (((cfgM m).win 3).blk ⟨9 * b.val + 8, pt_lt m b⟩).view (ValueIdx.ix3 0 0 0 : S1x1x1.Idx)
  rw [e] at hmem
  exact dat.arrAt_forall_of_flushed 3
    (fun (i : S16x1x1.Idx) (v : Elt F .f32) => ∀ b' : Fin 16, i = ValueIdx.ix3 b' 0 0 →
          v = dat.after 3 ⟨9 * b'.val + 8, pt_lt m b'⟩ (ValueIdx.ix3 0 0 0))
    hP (cfgM m).N ⟨9 * b.val + 8, pt_lt m b⟩ (ValueIdx.ix3 b 0 0)
    (pt_lt m b) ((flush_3 m _).mpr (by show (9 * b.val + 8) % 9 = 8; omega)) hmem b rfl

end Cert.KernelIdeal.Hand

end
-- ==== Proof.TileSum.lean ====
/-
  The per-sequence sums of the masked cross entropy, regrouped by tiles of 64 positions.

  A sequence's sum runs over the kept positions s = 0 .. 511, which sit at array positions p = s + 1 = 1 .. 512. Nine
  tiles of 64 rows stand for the positions 0 .. 575: row r of tile si stands for p = 64 * si + r. Position 0 adds zero
  (it is not a kept position), and so does every position 513 .. 575 (the position before it is at least 512, which no
  length exceeds), whatever words such a row holds. What is left is the sum over p = 1 .. 512, the sequence's own sum.
  Everything is finite-sum bookkeeping in an additive commutative monoid; of the extended reals only x * 1 = x and
  x * 0 = 0 are used.
-/
import proofs.«429088_j18107582120438_1_alg».proof.Proof.Spec
import Mathlib.Data.Fintype.BigOperators
import Mathlib.Algebra.BigOperators.Fin
import Mathlib.Logic.Equiv.Fin.Basic

noncomputable section

open scoped BigOperators

namespace Cert.Xent

open Idealize.ShloMosaic Idealize.ShloMosaic.ValueIdx

/-- Nine tiles of 64 rows enumerate the positions 0 .. 575 once each. -/
theorem sum_tiles_eq_range {M : Type*} [AddCommMonoid M] (g : ℕ → M) :
    ∑ si : Fin 9, ∑ r : Fin 64, g (64 * si.val + r.val) = ∑ p ∈ Finset.range 576, g p := by
  rw [← Fin.sum_univ_eq_sum_range g 576, ← Fintype.sum_prod_type']
  exact Fintype.sum_equiv (finProdFinEquiv (m := 9) (n := 64)) _ _
    (fun x => by simp [finProdFinEquiv, Nat.add_comm])

/-- When position 0 and the positions from 513 on add zero, the nine tiles sum the positions 1 .. 512. -/
theorem sum_tiles_eq_shift {M : Type*} [AddCommMonoid M] (g : ℕ → M) (h0 : g 0 = 0)
    (hhi : ∀ p, 513 ≤ p → g p = 0) :
    ∑ si : Fin 9, ∑ r : Fin 64, g (64 * si.val + r.val) = ∑ s : Fin 512, g (s.val + 1) := by
  rw [sum_tiles_eq_range, Fin.sum_univ_eq_sum_range (fun s => g (s + 1)) 512]
  rw [← Finset.sum_subset (s₁ := Finset.range 513) (s₂ := Finset.range 576) (f := g)
    (by intro p hp; simp only [Finset.mem_range] at hp ⊢; omega)
    (fun p _ hp => hhi p (by simp only [Finset.mem_range] at hp; omega))]
  rw [Finset.sum_range_succ', h0, add_zero]

/-- The same for terms given by tile and row (F) against terms given by kept position (G). -/
theorem sum_tiles_eq_kept {M : Type*} [AddCommMonoid M] (F : Fin 9 → Fin 64 → M) (G : Fin 512 → M)
    (h0 : ∀ (si : Fin 9) (r : Fin 64), 64 * si.val + r.val = 0 → F si r = 0)
    (hhi : ∀ (si : Fin 9) (r : Fin 64), 513 ≤ 64 * si.val + r.val → F si r = 0)
    (hmid : ∀ (si : Fin 9) (r : Fin 64) (_ : 1 ≤ 64 * si.val + r.val) (h2 : 64 * si.val + r.val < 513),
      F si r = G ⟨64 * si.val + r.val - 1, by omega⟩) :
    ∑ si : Fin 9, ∑ r : Fin 64, F si r = ∑ s : Fin 512, G s := by
  let g : ℕ → M := fun p => if h : 1 ≤ p ∧ p < 513 then G ⟨p - 1, by omega⟩ else 0
  have hF : ∀ (si : Fin 9) (r : Fin 64), F si r = g (64 * si.val + r.val) := by
    intro si r
    by_cases h : 1 ≤ 64 * si.val + r.val ∧ 64 * si.val + r.val < 513
    · simp only [g, dif_pos h]; exact hmid si r h.1 h.2
    · simp only [g, dif_neg h]
      by_cases hz : 64 * si.val + r.val = 0
      · exact h0 si r hz
      · exact hhi si r (by omega)
  have hG : ∀ s : Fin 512, G s = g (s.val + 1) := by
    intro s
    have h : 1 ≤ s.val + 1 ∧ s.val + 1 < 513 := by omega
    simp only [g, dif_pos h]
    rfl
  rw [Finset.sum_congr rfl (fun si _ => Finset.sum_congr rfl (fun r _ => hF si r)),
    Finset.sum_congr rfl (fun s _ => hG s)]
  exact sum_tiles_eq_shift g (by simp [g]) (by intro p hp; simp only [g]; rw [dif_neg]; omega)

/-- A row standing for one of the positions 1 .. 512 counts exactly when its token counts. -/
theorem tileCounted_iff (si : Nat) (r : Fin 64) (len t : BitVec 32) (h1 : 1 ≤ 64 * si + r.val) :
    TileCounted si r len t ↔ Counted len t (64 * si + r.val - 1) := by
  unfold TileCounted Counted
  constructor
  · rintro ⟨_, h, ht⟩; exact ⟨by omega, ht⟩
  · rintro ⟨h, ht⟩; exact ⟨h1, by omega, ht⟩

/-- Position 0 is no kept position. -/
theorem not_tileCounted_zero (si : Nat) (r : Fin 64) (len t : BitVec 32) (h : 64 * si + r.val = 0) :
    ¬ TileCounted si r len t := by
  intro hc; have := hc.1; omega

/-- A position from 513 on is past every length up to 512. -/
theorem not_tileCounted_high (si : Nat) (r : Fin 64) (len t : BitVec 32) (hlen : len.toInt ≤ 512)
    (h : 513 ≤ 64 * si + r.val) : ¬ TileCounted si r len t := by
  intro hc; have := hc.2.1; omega

/-- A sequence's sum of counted losses is the sum over its nine tiles. -/
theorem seqNll_eq_tiles (x : (⟨3, ![16, 513, 32000]⟩ : Shape).Idx → EReal)
    (trg : (⟨2, ![16, 513]⟩ : Shape).Idx → BitVec 32) (len : (⟨1, ![16]⟩ : Shape).Idx → BitVec 32)
    (b : Fin 16) (hlen : (len (ix1 b)).toInt ≤ 512)
    (xb : Fin 9 → Fin 64 → Fin 32000 → EReal) (tb : Fin 9 → Fin 64 → BitVec 32)
    (hx : ∀ (si : Fin 9) (r : Fin 64) (h : 64 * si.val + r.val < 513) (v : Fin 32000),
      xb si r v = x (ix3 b ⟨64 * si.val + r.val, h⟩ v))
    (ht : ∀ (si : Fin 9) (r : Fin 64) (h : 64 * si.val + r.val < 513),
      tb si r = trg (ix2 b ⟨64 * si.val + r.val, h⟩)) :
    seqNll x trg len b = ∑ si : Fin 9, tileNll si.val (len (ix1 b)) (xb si) (tb si) := by
  unfold seqNll tileNll
  symm
  apply sum_tiles_eq_kept
  · intro si r h; exact if_neg (not_tileCounted_zero si.val r _ _ h)
  · intro si r h; exact if_neg (not_tileCounted_high si.val r _ _ hlen h)
  · intro si r h1 h2
    have hpos : pos ⟨64 * si.val + r.val - 1, by omega⟩ = ⟨64 * si.val + r.val, h2⟩ :=
      Fin.ext (by simp only [pos]; omega)
    have hxb : xb si r = fun v => x (ix3 b ⟨64 * si.val + r.val, h2⟩ v) := funext (hx si r h2)
    unfold tokNll tokMask
    rw [hpos, hxb, ht si r h2]
    by_cases hc : Counted (len (ix1 b)) (trg (ix2 b ⟨64 * si.val + r.val, h2⟩)) (64 * si.val + r.val - 1)
    · rw [if_pos ((tileCounted_iff si.val r _ _ h1).2 hc), if_pos hc, mul_one]
    · rw [if_neg (fun h => hc ((tileCounted_iff si.val r _ _ h1).1 h)), if_neg hc, mul_zero]

/-- A sequence's number of counted tokens is the sum over its nine tiles. -/
theorem seqMask_eq_tiles (trg : (⟨2, ![16, 513]⟩ : Shape).Idx → BitVec 32)
    (len : (⟨1, ![16]⟩ : Shape).Idx → BitVec 32) (b : Fin 16) (hlen : (len (ix1 b)).toInt ≤ 512)
    (tb : Fin 9 → Fin 64 → BitVec 32)
    (ht : ∀ (si : Fin 9) (r : Fin 64) (h : 64 * si.val + r.val < 513),
      tb si r = trg (ix2 b ⟨64 * si.val + r.val, h⟩)) :
    seqMask trg len b = ∑ si : Fin 9, tileMask si.val (len (ix1 b)) (tb si) := by
  unfold seqMask tileMask
  symm
  apply sum_tiles_eq_kept
  · intro si r h; exact if_neg (not_tileCounted_zero si.val r _ _ h)
  · intro si r h; exact if_neg (not_tileCounted_high si.val r _ _ hlen h)
  · intro si r h1 h2
    have hpos : pos ⟨64 * si.val + r.val - 1, by omega⟩ = ⟨64 * si.val + r.val, h2⟩ :=
      Fin.ext (by simp only [pos]; omega)
    unfold tokMask
    rw [hpos, ht si r h2]
    by_cases hc : Counted (len (ix1 b)) (trg (ix2 b ⟨64 * si.val + r.val, h2⟩)) (64 * si.val + r.val - 1)
    · rw [if_pos ((tileCounted_iff si.val r _ _ h1).2 hc), if_pos hc]
    · rw [if_neg (fun h => hc ((tileCounted_iff si.val r _ _ h1).1 h)), if_neg hc]

/-- An accumulator that starts at 0 + f 0 and adds f (k + 1) at step k + 1 holds f 0 + … + f k after step k. -/
theorem acc_eq_range (f acc : ℕ → EReal) (h0 : acc 0 = 0 + f 0) (hs : ∀ k, acc (k + 1) = acc k + f (k + 1))
    (k : ℕ) : acc k = ∑ i ∈ Finset.range (k + 1), f i := by
  induction k with
  | zero => rw [h0, zero_add, Finset.sum_range_one]
  | succ n ih => rw [hs n, ih, Finset.sum_range_succ (n := n + 1)]

/-- After the ninth step the accumulator holds the sum of the nine terms. -/
theorem acc_eq_sum (f acc : ℕ → EReal) (h0 : acc 0 = 0 + f 0) (hs : ∀ k, acc (k + 1) = acc k + f (k + 1)) :
    acc 8 = ∑ si : Fin 9, f si.val := by
  rw [acc_eq_range f acc h0 hs 8, Fin.sum_univ_eq_sum_range f 9]

/-- A tile's sum of counted losses does not depend on what the rows standing for positions from 513 on hold: such a
    row does not count at a length up to 512. -/
theorem tileNll_congr (si : Nat) (len : BitVec 32) (hlen : len.toInt ≤ 512) (xb xb' : Fin 64 → Fin 32000 → EReal)
    (tb tb' : Fin 64 → BitVec 32)
    (h : ∀ r : Fin 64, 64 * si + r.val < 513 → xb r = xb' r ∧ tb r = tb' r) :
    tileNll si len xb tb = tileNll si len xb' tb' := by
  unfold tileNll
  refine Finset.sum_congr rfl (fun r _ => ?_)
  by_cases hr : 64 * si + r.val < 513
  · obtain ⟨hx, ht⟩ := h r hr
    rw [hx, ht]
  · rw [if_neg (not_tileCounted_high si r len _ hlen (by omega)),
      if_neg (not_tileCounted_high si r len _ hlen (by omega))]

/-- Neither does a tile's number of counted rows. -/
theorem tileMask_congr (si : Nat) (len : BitVec 32) (hlen : len.toInt ≤ 512) (tb tb' : Fin 64 → BitVec 32)
    (h : ∀ r : Fin 64, 64 * si + r.val < 513 → tb r = tb' r) :
    tileMask si len tb = tileMask si len tb' := by
  unfold tileMask
  refine Finset.sum_congr rfl (fun r _ => ?_)
  by_cases hr : 64 * si + r.val < 513
  · rw [h r hr]
  · rw [if_neg (not_tileCounted_high si r len _ hlen (by omega)),
      if_neg (not_tileCounted_high si r len _ hlen (by omega))]

end Cert.Xent

end
-- ==== Proof.KernelLoss.lean ====
import proofs.«429088_j18107582120438_1_alg».proof.Proof.Tiles
import proofs.«429088_j18107582120438_1_alg».proof.Proof.TileSum
import proofs.«429088_j18107582120438_1_alg».proof.Proof.Spec
import Idealize.ShloMosaic.PureOps.Ideal.Laws
import Idealize.ShloMosaic.Lib.IdealHost
import Idealize.ShloMosaic.Lib.ValueIdx

/-!
  The kernel side's closing mathematics.

  A sequence's two accumulators, after its ninth tile (grid point 9 b + 8), hold the sums of its nine tiles; regrouped
  by positions these are the sequence's sum of counted losses and its number of counted tokens (a row standing for
  position 0 or for a position from 513 on adds zero at every length up to 512). The two output arrays, of shape
  16 × 1 × 1, hold these per sequence; the result is the sum of the first array's 16 entries divided by the larger of
  the sum of the second array's 16 entries and 1: the mean loss of the counted tokens.
-/

noncomputable section

open scoped BigOperators

namespace Cert.KernelIdeal.Hand

open Cert.KernelIdeal Cert.KernelIdeal.Gen Cert.Xent
open Idealize.ShloMosaic Idealize.ShloMosaic.TcCoe Idealize.ShloMosaic.ValueIdx
open Idealize.SL.Sem

/-! ## A sequence's two accumulators after its last tile -/

section Last
variable (m : (ℓ : Loc nD τ sig) → Buf (Elt Ideal) ℓ)

/-- Grid point 9 b + 8 is sequence b's ninth tile. -/
theorem bOf_last (b : Fin 16) : bOf (9 * b.val + 8) = b :=
  Fin.ext (by show (9 * b.val + 8) / 9 % 16 = b.val; have := b.isLt; omega)

/-- After a sequence's ninth tile the first accumulator holds the sequence's sum of counted losses. -/
theorem accNll_last (c : Dev nD) (b : Fin 16) (hlen : (lArr m c (ix1 b)).toInt ≤ 512) :
    accNll m c (9 * b.val + 8) = seqNll (xArr m c) (tArr m c) (lArr m c) b := by
  have h9 : (9 * b.val + 8) % 9 + 1 = 9 := by omega
  unfold accNll
  rw [bOf_last, h9, ← Fin.sum_univ_eq_sum_range (fun i => tileT m c b i) 9,
    seqNll_eq_tiles (xArr m c) (tArr m c) (lArr m c) b hlen (xtile m c b) (ttile m c b)
      (fun si r h v => by unfold xtile; rw [dif_pos h]) (fun si r h => by unfold ttile; rw [dif_pos h])]
  refine Finset.sum_congr rfl fun si _ => ?_
  unfold tileT
  rw [dif_pos si.isLt]

/-- … and the second holds the sequence's number of counted tokens. -/
theorem accCnt_last (c : Dev nD) (b : Fin 16) (hlen : (lArr m c (ix1 b)).toInt ≤ 512) :
    accCnt m c (9 * b.val + 8) = seqMask (tArr m c) (lArr m c) b := by
  have h9 : (9 * b.val + 8) % 9 + 1 = 9 := by omega
  unfold accCnt
  rw [bOf_last, h9, ← Fin.sum_univ_eq_sum_range (fun i => tileC m c b i) 9,
    seqMask_eq_tiles (tArr m c) (lArr m c) b hlen (ttile m c b) (fun si r h => by unfold ttile; rw [dif_pos h])]
  refine Finset.sum_congr rfl fun si _ => ?_
  unfold tileC
  rw [dif_pos si.isLt]

end Last

/-! ## The result from the two output arrays -/

/-- An index of a 16 × 1 × 1 array is its first coordinate. -/
def seqIdx : Fin 16 ≃ S16x1x1.Idx where
  toFun b := ix3 b (0 : Fin 1) (0 : Fin 1)
  invFun i := i 0
  left_inv _ := rfl
  right_inv i := by
    refine (congrArg₂ (fun (p q : Fin 1) => ix3 (i 0) p q) (Subsingleton.elim _ _) (Subsingleton.elim _ _)).trans
      (eq_ix3 i).symm

/-- The sum over a 16 × 1 × 1 array is the sum over its 16 first coordinates. -/
theorem sum_seqIdx (a : S16x1x1.Idx → EReal) : ∑ i : S16x1x1.Idx, a i = ∑ b : Fin 16, a (ix3 b (0 : Fin 1) (0 : Fin 1)) :=
  (Fintype.sum_equiv seqIdx (fun b => a (ix3 b (0 : Fin 1) (0 : Fin 1))) a fun _ => rfl).symm

/-- The host's sum of a 16 × 1 × 1 array from the zero word, into rank 0: the sum of the 16 entries. -/
theorem total_apply (a : S16x1x1.Idx → EReal) (j : S_.Idx) :
    Host.reduceAdd (F := Ideal) (φ := .f32) a (constant (F := Ideal) S_ .f32 0x00000000#32) reducesTo_S16x1x1_S_d0_1_2 h_S_ j
      = ∑ b : Fin 16, a (ix3 b (0 : Fin 1) (0 : Fin 1)) := by
  rw [hostReduceAdd_apply, Ideal.hostReduceAdd_total reducesTo_S16x1x1_S_d0_1_2 (fun b => b.elim0), constant_apply,
    Ideal.ofBits_zero_f32, zero_add, sum_seqIdx]

/-- The quotient of the summed losses by the larger of the summed counts and 1 is the specification's loss, when the
    two arrays hold each sequence's sum of counted losses and number of counted tokens. -/
theorem loss_of_arrays (x : S16x513x32000.Idx → EReal) (trg : S16x513.Idx → BitVec 32) (len : S16.Idx → BitVec 32)
    (a2 a3 : S16x1x1.Idx → EReal)
    (h2 : ∀ b : Fin 16, a2 (ix3 b (0 : Fin 1) (0 : Fin 1)) = seqNll x trg len b)
    (h3 : ∀ b : Fin 16, a3 (ix3 b (0 : Fin 1) (0 : Fin 1)) = seqMask trg len b) :
    Host.divf (F := Ideal) (φ := .f32)
        (Host.reduceAdd (F := Ideal) (φ := .f32) a2 (constant (F := Ideal) S_ .f32 0x00000000#32) reducesTo_S16x1x1_S_d0_1_2 h_S_)
        (maximumf (F := Ideal) (φ := .f32)
          (Host.reduceAdd (F := Ideal) (φ := .f32) a3 (constant (F := Ideal) S_ .f32 0x00000000#32) reducesTo_S16x1x1_S_d0_1_2 h_S_)
          (constant (F := Ideal) S_ .f32 0x3F800000#32))
      = fun _ => loss x trg len := by
  funext j
  rw [hostDivf_apply, maximumf_apply, total_apply, total_apply, constant_apply, Ideal.ofBits_one_f32,
    Finset.sum_congr rfl fun b _ => h2 b, Finset.sum_congr rfl fun b _ => h3 b]
  rfl

end Cert.KernelIdeal.Hand

end
-- ==== Proof.ValueRun.lean ====
/-
  The idealized program's result, on the extended reals, for lengths at most 512 and targets below 32000.

  The launch visits 16 x 9 grid points; point t = 9 b + si handles tile si of sequence b. Its body reads the tile's 64 rows of
  logits and 64 target words, the sequence's length, and two one-word buffers that it first sets to zero when si = 0; it adds
  to the first the sum over the tile's rows of (row's loss) x (1 if the row counts, else 0) and to the second the number of
  rows that count. The ninth tile of a sequence overhangs the arrays by 63 rows, and a staging buffer holds there whatever it
  held before the fetch; those rows stand for positions 513 .. 575, which no length up to 512 admits, so their weight is 0
  and a product with 0 is 0 for every extended real: the two sums do not depend on them. Hence after point t the two
  buffers hold the sums of the sequence's tiles 0 .. si (a running sum by induction along the sequence's nine points: the
  buffers are fresh when si = 0 and otherwise hold what the point before left, nothing being written back in between), the
  ninth point's write-back leaves in the two output arrays each sequence's sum of counted losses and number of counted
  tokens, and the host lines after the launch (two sums over the 16 sequences, a maximum with 1, a quotient) make of them
  the mean loss of the counted tokens. The three argument arrays are never written.
-/
import proofs.«429088_j18107582120438_1_alg».proof.Proof.Kit
import proofs.«429088_j18107582120438_1_alg».proof.Proof.Sched
import proofs.«429088_j18107582120438_1_alg».proof.Proof.Spec
import proofs.«429088_j18107582120438_1_alg».proof.Proof.Tiles
import proofs.«429088_j18107582120438_1_alg».proof.Proof.TileValue
import proofs.«429088_j18107582120438_1_alg».proof.Proof.BlockRows
import proofs.«429088_j18107582120438_1_alg».proof.Proof.BodyRun
import proofs.«429088_j18107582120438_1_alg».proof.Proof.OutArray
import proofs.«429088_j18107582120438_1_alg».proof.Proof.KernelLoss
import proofs.«429088_j18107582120438_1_alg».proof.Proof.TileSum
import proofs.«429088_j18107582120438_1_alg».proof.Proof.PreFacts
import Idealize.ShloMosaic.Lib.ValueIdx
import Idealize.ShloMosaic.Lib.Pipeline.Value
import Idealize.ShloMosaic.PureOps.Ideal.Laws
import Idealize.ShloMosaic.Lib.IdealHost

set_option maxRecDepth 16384

noncomputable section

namespace Cert.KernelIdeal.Hand

open Cert.KernelIdeal Cert.KernelIdeal.Gen Cert.Xent
open Idealize.ShloMosaic Idealize.ShloMosaic.TcCoe Idealize.ShloMosaic.Tactic Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- After the body at point t: the two inputs' buffers as fetched (zeros past the array's end, which nothing reads
    back), the two outputs' at the running sums. -/
def datV (c : Dev nD) : Dat τ (Elt Ideal) Unit ℕ (UR sig nD τ) ℕ (cfgM m) c where
  A w := V m c (Pipeline.arrRef spec0 w)
  after w t := match w with
    | ⟨0, _⟩ => ((cfgM m).win 0).fill (grid0.coords t) (fun _ => (0 : EReal)) (iblk m c 0 t)
    | ⟨1, _⟩ => ((cfgM m).win 1).fill (grid0.coords t) (fun _ => (0#32 : BitVec 32)) (iblk m c 1 t)
    | ⟨2, _⟩ => fun _ => accNll m c t.val
    | ⟨3, _⟩ => fun _ => accCnt m c t.val
  Φ _ := iprop(Pipeline.ΦA spec0 c ∗ Pipeline.ΦT pre0 (tbl m) c)
  q _ := fullShare
  owed _ := 0

theorem A_eq (c : Dev nD) (w : Fin (cfgM m).W) : (datV m c).A w = V m c (Pipeline.arrRef spec0 w) := by dsimp only [datV]
theorem after_2 (c : Dev nD) (t : Fin (cfgM m).N) : (datV m c).after 2 t = fun _ => accNll m c t.val := by dsimp only [datV]; try rfl
theorem after_3 (c : Dev nD) (t : Fin (cfgM m).N) : (datV m c).after 3 t = fun _ => accCnt m c t.val := by dsimp only [datV]; try rfl

/-! ## What the output buffers hold when the body runs -/

/-- The point before t. -/
abbrev prevPt (t : Fin (cfgM m).N) : Fin (cfgM m).N := ⟨t.val - 1, Nat.lt_of_le_of_lt (Nat.sub_le _ _) t.isLt⟩

/-- At a sequence's first tile the accumulators' buffers are fresh: the first point of all, or the point after a write-back. -/
theorem before_2_reset (c : Dev nD) (t : Fin (cfgM m).N) (h9 : t.val % 9 = 0) (d) : (datV m c).before 2 t d = d := by
  refine (datV m c).before_out_reset 2 (isOut_2 m) t ?_ d
  by_cases h0 : t.val = 0
  · exact .inl h0
  · exact .inr ⟨h0, (flush_2 m (prevPt m t)).mpr (by show (t.val - 1) % 9 = 8; omega)⟩
theorem before_3_reset (c : Dev nD) (t : Fin (cfgM m).N) (h9 : t.val % 9 = 0) (d) : (datV m c).before 3 t d = d := by
  refine (datV m c).before_out_reset 3 (isOut_3 m) t ?_ d
  by_cases h0 : t.val = 0
  · exact .inl h0
  · exact .inr ⟨h0, (flush_3 m (prevPt m t)).mpr (by show (t.val - 1) % 9 = 8; omega)⟩

/-- At a later tile they hold what the body left at the point before: that point wrote nothing back. -/
theorem before_2_acc (c : Dev nD) (t : Fin (cfgM m).N) (h9 : t.val % 9 ≠ 0) (d) :
    (datV m c).before 2 t d = fun _ => accNll m c (t.val - 1) := by
  have h0 : t.val ≠ 0 := fun h => h9 (by rw [h])
  have hfl : ((cfgM m).win 2).flush (prevPt m t) = false := by
    cases hf : ((cfgM m).win 2).flush (prevPt m t)
    · rfl
    · have := (flush_2 m (prevPt m t)).mp hf; exfalso; have : (t.val - 1) % 9 = 8 := this; omega
  rw [(datV m c).before_out_kept 2 (isOut_2 m) t h0 hfl (idle_false m 2) (clip_none_2 m) d, after_2]
theorem before_3_acc (c : Dev nD) (t : Fin (cfgM m).N) (h9 : t.val % 9 ≠ 0) (d) :
    (datV m c).before 3 t d = fun _ => accCnt m c (t.val - 1) := by
  have h0 : t.val ≠ 0 := fun h => h9 (by rw [h])
  have hfl : ((cfgM m).win 3).flush (prevPt m t) = false := by
    cases hf : ((cfgM m).win 3).flush (prevPt m t)
    · rfl
    · have := (flush_3 m (prevPt m t)).mp hf; exfalso; have : (t.val - 1) % 9 = 8 := this; omega
  rw [(datV m c).before_out_kept 3 (isOut_3 m) t h0 hfl (idle_false m 3) (clip_none_3 m) d, after_3]

/-! ## Which windows' blocks a transfer may cut -/

/-- The two input windows overhang the arrays at the ninth tile; the two outputs' blocks tile theirs. -/
theorem loose_0 : (cfgM m).loose 0 = true := rfl
theorem loose_1 : (cfgM m).loose 1 = true := rfl
theorem loose_2 : (cfgM m).loose 2 = false := rfl
theorem loose_3 : (cfgM m).loose 3 = false := rfl

/-! ## The two stored sums at a point -/

/-- The point's sequence and tile, and the bound on the grid. -/
theorem point_lt (t : Fin (cfgM m).N) : t.val < 144 := lt_of_lt_of_eq t.isLt (N_eq m)
theorem bOf_val (t : Fin (cfgM m).N) : (bOf t.val).val = t.val / 9 := by
  have := point_lt m t; show t.val / 9 % 16 = t.val / 9; omega

/-- The length word the body reads at point t is the length of the point's sequence. -/
theorem len_at (c : Dev nD) (t : Fin (cfgM m).N) :
    lenWord c (tbl m 0) (grid0.coords t) = lArr m c (ix1 (bOf t.val)) := by
  obtain rfl : c = 0 := Subsingleton.elim _ _
  refine (lenWord_eq (F := Ideal) 0 (tbl m 0) (grid0.coords t)).trans ?_
  have e : (V m 0 main_arg2 : S16.Idx → BitVec 32) = lArr m 0 := V_main_arg2 m 0
  have hi : ((grid0.coords t) 0 : Fin 16) = bOf t.val := Fin.ext ((coords_0 m t).trans (bOf_val m t).symm)
  exact (congrFun e _).trans (congrArg (lArr m 0) (congrArg (ix1 (n := 16)) hi))

/-- The fetched logits and targets buffers at point t, whatever words (d0, d1) lie past the arrays' end. -/
abbrev X0 (c : Dev nD) (t : Fin (cfgM m).N) (d0 : ((cfgM m).win 0).block.Idx → Elt Ideal .f32) : Vec Ideal S1x64x32000 .f32 := ((cfgM m).win 0).fill (grid0.coords t) d0 (iblk m c 0 t)
abbrev X1 (c : Dev nD) (t : Fin (cfgM m).N) (d1 : ((cfgM m).win 1).block.Idx → Elt Ideal .i32) : Vec Ideal S1x64x1 .i32 := ((cfgM m).win 1).fill (grid0.coords t) d1 (iblk m c 1 t)

/-- The tile's two sums over the fetched buffers are the tile's sums over the arrays: the rows inside the arrays are the
    arrays' rows, and a row past their end stands for a position above 512, which no length admits. -/
theorem tile_nll_at (hlen : ∀ c j, (lArr m c j).toInt ≤ 512) (c : Dev nD) (t : Fin (cfgM m).N) (d0 : ((cfgM m).win 0).block.Idx → Elt Ideal .f32) (d1 : ((cfgM m).win 1).block.Idx → Elt Ideal .i32) :
    tileNll ((grid0.coords t) 1).val (lArr m c (ix1 (bOf t.val))) (fun r v => X0 m c t d0 (ix3 (0 : Fin 1) r v)) (fun r => X1 m c t d1 (ix3 (0 : Fin 1) r (0 : Fin 1)))
      = tileT m c (bOf t.val) (t.val % 9) := by
  have h9 : t.val % 9 < 9 := Nat.mod_lt _ (by decide)
  have hbe : (⟨t.val / 9, point_seq_lt m t⟩ : Fin 16) = bOf t.val := Fin.ext (bOf_val m t).symm
  unfold tileT; rw [dif_pos h9, coords_1 m t]
  refine tileNll_congr _ _ (hlen c _) _ _ _ _ fun r hr => ⟨?_, ?_⟩
  · funext v
    show X0 m c t d0 (ix3 (0 : Fin 1) r v) = xtile m c (bOf t.val) ⟨t.val % 9, h9⟩ r v
    unfold xtile; rw [dif_pos hr]
    exact (row_logits m c t d0 r v hr).trans (by rw [hbe])
  · show X1 m c t d1 (ix3 (0 : Fin 1) r (0 : Fin 1)) = ttile m c (bOf t.val) ⟨t.val % 9, h9⟩ r
    unfold ttile; rw [dif_pos hr]
    exact (row_target m c t d1 r hr).trans (by rw [hbe])
theorem tile_cnt_at (hlen : ∀ c j, (lArr m c j).toInt ≤ 512) (c : Dev nD) (t : Fin (cfgM m).N) (d1 : ((cfgM m).win 1).block.Idx → Elt Ideal .i32) :
    tileMask ((grid0.coords t) 1).val (lArr m c (ix1 (bOf t.val))) (fun r => X1 m c t d1 (ix3 (0 : Fin 1) r (0 : Fin 1)))
      = tileC m c (bOf t.val) (t.val % 9) := by
  have h9 : t.val % 9 < 9 := Nat.mod_lt _ (by decide)
  have hbe : (⟨t.val / 9, point_seq_lt m t⟩ : Fin 16) = bOf t.val := Fin.ext (bOf_val m t).symm
  unfold tileC; rw [dif_pos h9, coords_1 m t]
  refine tileMask_congr _ _ (hlen c _) _ _ fun r hr => ?_
  show X1 m c t d1 (ix3 (0 : Fin 1) r (0 : Fin 1)) = ttile m c (bOf t.val) ⟨t.val % 9, h9⟩ r
  unfold ttile; rw [dif_pos hr]
  exact (row_target m c t d1 r hr).trans (by rw [hbe])

/-- A row that counts lies inside the arrays, so its target word is one of the array's: below 32000. -/
theorem counted_in_range (hlen : ∀ c j, (lArr m c j).toInt ≤ 512) (htrg : ∀ c j, (tArr m c j).toNat < 32000) (c : Dev nD) (t : Fin (cfgM m).N) (d1 : ((cfgM m).win 1).block.Idx → Elt Ideal .i32) (r : Fin 64)
    (hcnt : TileCounted ((grid0.coords t) 1).val r (lArr m c (ix1 (bOf t.val))) (X1 m c t d1 (ix3 (0 : Fin 1) r (0 : Fin 1)))) :
    (X1 m c t d1 (ix3 (0 : Fin 1) r (0 : Fin 1))).toNat < 32000 := by
  have hl := hlen c (ix1 (bOf t.val))
  have hr : 64 * (t.val % 9) + r.val < 513 := by
    have h2 := hcnt.2.1; rw [coords_1 m t] at h2; omega
  exact lt_of_eq_of_lt (congrArg BitVec.toNat (row_target m c t d1 r hr)) (htrg c _)

/-! ## What the two stores leave -/

/-- The sum the first store adds to, and the count the second adds to, at point t: zero at a sequence's first tile
    (the body has just reset both), else what the point before left. -/
theorem out2_first (hlen : ∀ c j, (lArr m c j).toInt ≤ 512) (htrg : ∀ c j, (tArr m c j).toNat < 32000) (c : Dev nD) (t : Fin (cfgM m).N) (h9 : t.val % 9 = 0)
    (d0 : ((cfgM m).win 0).block.Idx → Elt Ideal .f32) (d1 : ((cfgM m).win 1).block.Idx → Elt Ideal .i32) :
    k0_pay2 (F := Ideal) (k0_pay6 (F := Ideal) (X1 m c t d1)) (k0_pay7 (F := Ideal) (X0 m c t d0) (X1 m c t d1))
        (k0_pay8 (F := Ideal) (grid0.coords t) (lenWord c (tbl m 0) (grid0.coords t))) k0_pay9 (k0_pay4 (F := Ideal))
      = fun _ => accNll m c t.val := by
  refine (congrArg (fun l => k0_pay2 (F := Ideal) (k0_pay6 (F := Ideal) (X1 m c t d1)) (k0_pay7 (F := Ideal) (X0 m c t d0) (X1 m c t d1))
    (k0_pay8 (F := Ideal) (grid0.coords t) l) k0_pay9 (k0_pay4 (F := Ideal))) (len_at m c t)).trans ?_
  refine (Cert.KernelIdeal.TileValue.pay2_eq (grid0.coords t) (lArr m c (ix1 (bOf t.val))) (X0 m c t d0) (X1 m c t d1) (k0_pay4 (F := Ideal))
    (counted_in_range m hlen htrg c t d1)).trans ?_
  funext _
  have h4 : k0_pay4 (F := Ideal) (ix3 (0 : Fin 1) (0 : Fin 1) (0 : Fin 1)) = 0 := congrFun Cert.KernelIdeal.TileValue.pay4_eq _
  rw [h4, tile_nll_at m hlen c t d0 d1]; exact accNll_first m c t.val h9
theorem out3_first (hlen : ∀ c j, (lArr m c j).toInt ≤ 512) (c : Dev nD) (t : Fin (cfgM m).N) (h9 : t.val % 9 = 0)
    (d1 : ((cfgM m).win 1).block.Idx → Elt Ideal .i32) :
    k0_pay3 (F := Ideal) (k0_pay6 (F := Ideal) (X1 m c t d1))
        (k0_pay8 (F := Ideal) (grid0.coords t) (lenWord c (tbl m 0) (grid0.coords t))) k0_pay9 (k0_pay5 (F := Ideal))
      = fun _ => accCnt m c t.val := by
  refine (congrArg (fun l => k0_pay3 (F := Ideal) (k0_pay6 (F := Ideal) (X1 m c t d1))
    (k0_pay8 (F := Ideal) (grid0.coords t) l) k0_pay9 (k0_pay5 (F := Ideal))) (len_at m c t)).trans ?_
  refine (Cert.KernelIdeal.TileValue.pay3_eq (grid0.coords t) (lArr m c (ix1 (bOf t.val))) (X1 m c t d1) (k0_pay5 (F := Ideal))).trans ?_
  funext _
  have h5 : k0_pay5 (F := Ideal) (ix3 (0 : Fin 1) (0 : Fin 1) (0 : Fin 1)) = 0 := congrFun Cert.KernelIdeal.TileValue.pay5_eq _
  rw [h5, tile_cnt_at m hlen c t d1]; exact accCnt_first m c t.val h9
theorem out2_later (hlen : ∀ c j, (lArr m c j).toInt ≤ 512) (htrg : ∀ c j, (tArr m c j).toNat < 32000) (c : Dev nD) (t : Fin (cfgM m).N) (h9 : t.val % 9 ≠ 0)
    (d0 : ((cfgM m).win 0).block.Idx → Elt Ideal .f32) (d1 : ((cfgM m).win 1).block.Idx → Elt Ideal .i32) :
    k0_pay2 (F := Ideal) (k0_pay6 (F := Ideal) (X1 m c t d1)) (k0_pay7 (F := Ideal) (X0 m c t d0) (X1 m c t d1))
        (k0_pay8 (F := Ideal) (grid0.coords t) (lenWord c (tbl m 0) (grid0.coords t))) k0_pay9 (fun _ => accNll m c (t.val - 1))
      = fun _ => accNll m c t.val := by
  refine (congrArg (fun l => k0_pay2 (F := Ideal) (k0_pay6 (F := Ideal) (X1 m c t d1)) (k0_pay7 (F := Ideal) (X0 m c t d0) (X1 m c t d1))
    (k0_pay8 (F := Ideal) (grid0.coords t) l) k0_pay9 (fun _ => accNll m c (t.val - 1))) (len_at m c t)).trans ?_
  refine (Cert.KernelIdeal.TileValue.pay2_eq (grid0.coords t) (lArr m c (ix1 (bOf t.val))) (X0 m c t d0) (X1 m c t d1) (fun _ => accNll m c (t.val - 1))
    (counted_in_range m hlen htrg c t d1)).trans ?_
  funext _
  show accNll m c (t.val - 1) + _ = accNll m c t.val
  rw [tile_nll_at m hlen c t d0 d1]; exact accNll_succ m c t.val h9
theorem out3_later (hlen : ∀ c j, (lArr m c j).toInt ≤ 512) (c : Dev nD) (t : Fin (cfgM m).N) (h9 : t.val % 9 ≠ 0)
    (d1 : ((cfgM m).win 1).block.Idx → Elt Ideal .i32) :
    k0_pay3 (F := Ideal) (k0_pay6 (F := Ideal) (X1 m c t d1))
        (k0_pay8 (F := Ideal) (grid0.coords t) (lenWord c (tbl m 0) (grid0.coords t))) k0_pay9 (fun _ => accCnt m c (t.val - 1))
      = fun _ => accCnt m c t.val := by
  refine (congrArg (fun l => k0_pay3 (F := Ideal) (k0_pay6 (F := Ideal) (X1 m c t d1))
    (k0_pay8 (F := Ideal) (grid0.coords t) l) k0_pay9 (fun _ => accCnt m c (t.val - 1))) (len_at m c t)).trans ?_
  refine (Cert.KernelIdeal.TileValue.pay3_eq (grid0.coords t) (lArr m c (ix1 (bOf t.val))) (X1 m c t d1) (fun _ => accCnt m c (t.val - 1))).trans ?_
  funext _
  show accCnt m c (t.val - 1) + _ = accCnt m c t.val
  rw [tile_cnt_at m hlen c t d1]; exact accCnt_succ m c t.val h9

/-! ## The body obligation -/

/-- The body at point t, on the staging buffers the pipeline calls it with. -/
abbrev bodyAt (t : Fin (cfgM m).N) : Prog (TpuEff nD τ sig (Elt Ideal) Λ₀ .tc) PUnit :=
  cc0__xent_kernel (grid0.coords t) tbM htbM
    (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2))
    (spec0_3.stage ((cfgM m).slots t 3)) (hstage0_3 (((cfgM m).slots t 3).cast nbuf0_3))

/-- At every point the body runs from the proof data's contents to the proof data's contents: the inputs' buffers as
    fetched come back as they were; the two sums' buffers, fresh at a sequence's first tile and else at the running
    sums through the tile before, come back at the running sums through this tile. -/
theorem body_obligation (hlen : ∀ c j, (lArr m c j).toInt ≤ 512) (htrg : ∀ c j, (tArr m c j).toNat < 32000) (c : Dev nD) :
    BodyObligationLoose (datV m c) (defs₀ (F := Ideal)) Variants.none () Set.univ := fun t => by
  rw [bigSep_W0, bigSep_W0]
  simp only [idle_false m, loose_0 m, loose_1 m, loose_2 m, loose_3 m]
  change _ ⊢ wp frame (wpE (defs₀ (F := Ideal)) Variants.none (c : Thread nD τ) none) Set.univ (bodyAt m t) _
  rw [show (datV m c).Φ t.succ = (datV m c).Φ t.castSucc from rfl,
    show (datV m c).owesAt () t.succ = (datV m c).owesAt () t.castSucc from rfl]
  rw [show (datV m c).Φ t.castSucc = iprop(Pipeline.ΦA spec0 c ∗ Pipeline.ΦT pre0 (tbl m) c) from rfl, PhiT_eq]
  iintro ⟨⟨HA, HT⟩, Ho, ⟨%d0, H0⟩, ⟨%d1, H1⟩, ⟨%d2, H2⟩, ⟨%d3, H3⟩⟩
  rw [before_in0 m (datV m c) (A_eq m c 0) t d0, before_in1 m (datV m c) (A_eq m c 1) t d1]
  have e0 : ((cfgM m).win 0).cut (grid0.coords t) ((datV m c).after 0 t) = iblk m c 0 t := ((cfgM m).win 0).cut_fill _ _ _
  have e1 : ((cfgM m).win 1).cut (grid0.coords t) ((datV m c).after 1 t) = iblk m c 1 t := ((cfgM m).win 1).cut_fill _ _ _
  by_cases h9 : t.val % 9 = 0
  · have hc : cond0 (grid0.coords t) := (cond0_iff m t).mpr h9
    rw [before_2_reset m c t h9 d2, before_3_reset m c t h9 d3]
    iapply (bodyA (F := Ideal) c Set.univ (grid0.coords t) _ _ _ _ _ _ _ _ hc (X0 m c t d0) (X1 m c t d1) (tbl m 0) _)
    isplitl [H0]; · iexact H0
    isplitl [H1]; · iexact H1
    isplitl [H2]; · iexists d2; iexact H2
    isplitl [H3]; · iexists d3; iexact H3
    isplitl [HT]; · iexact HT
    iintro ⟨H0, H1, H2, H3, HT⟩
    rw [out2_first m hlen htrg c t h9 d0 d1, out3_first m hlen c t h9 d1]
    isplitl [HA HT]
    · isplitl [HA]; · iexact HA
      iexact HT
    isplitl [Ho]; · iexact Ho
    isplitl [H0]
    · iexists d0
      change _ ⊢ owns (c : Thread nD τ) _ fullShare (((cfgM m).win 0).fill (grid0.coords t) d0 (((cfgM m).win 0).cut (grid0.coords t) ((datV m c).after 0 t)))
      rw [e0]; exact .rfl
    isplitl [H1]
    · iexists d1
      change _ ⊢ owns (c : Thread nD τ) _ fullShare (((cfgM m).win 1).fill (grid0.coords t) d1 (((cfgM m).win 1).cut (grid0.coords t) ((datV m c).after 1 t)))
      rw [e1]; exact .rfl
    isplitl [H2]
    · rw [after_2]; iexact H2
    · rw [after_3]; iexact H3
  · have hc : ¬ cond0 (grid0.coords t) := fun h => h9 ((cond0_iff m t).mp h)
    rw [before_2_acc m c t h9 d2, before_3_acc m c t h9 d3]
    iapply (bodyB (F := Ideal) c Set.univ (grid0.coords t) _ _ _ _ _ _ _ _ hc (X0 m c t d0) (X1 m c t d1) (fun _ => accNll m c (t.val - 1)) (fun _ => accCnt m c (t.val - 1)) (tbl m 0) _)
    isplitl [H0]; · iexact H0
    isplitl [H1]; · iexact H1
    isplitl [H2]; · iexact H2
    isplitl [H3]; · iexact H3
    isplitl [HT]; · iexact HT
    iintro ⟨H0, H1, H2, H3, HT⟩
    rw [out2_later m hlen htrg c t h9 d0 d1, out3_later m hlen c t h9 d1]
    isplitl [HA HT]
    · isplitl [HA]; · iexact HA
      iexact HT
    isplitl [Ho]; · iexact Ho
    isplitl [H0]
    · iexists d0
      change _ ⊢ owns (c : Thread nD τ) _ fullShare (((cfgM m).win 0).fill (grid0.coords t) d0 (((cfgM m).win 0).cut (grid0.coords t) ((datV m c).after 0 t)))
      rw [e0]; exact .rfl
    isplitl [H1]
    · iexists d1
      change _ ⊢ owns (c : Thread nD τ) _ fullShare (((cfgM m).win 1).fill (grid0.coords t) d1 (((cfgM m).win 1).cut (grid0.coords t) ((datV m c).after 1 t)))
      rw [e1]; exact .rfl
    isplitl [H2]
    · rw [after_2]; iexact H2
    · rw [after_3]; iexact H3

/-! ## The run, and the program's result -/

/-- The proof data of the program's one launch. -/
abbrev datsV (_ : Fin 1) (c : Dev nD) : Dat τ (Elt Ideal) Unit ℕ (UR sig nD τ) ℕ (cfgM m) c := datV m c

set_option backward.isDefEq.respectTransparency.types false in
/-- For lengths at most 512 and targets below 32000: every weakly fair execution of the program terminates, and every
    final state has each array of the launch at what the write-backs leave and every other buffer at what the host
    lines after the launch compute from them. -/
theorem run_main (hlen : ∀ c j, (lArr m c j).toInt ≤ 512) (htrg : ∀ c j, (tArr m c j).toNat < 32000) :
    θ_run defs (onTc (τ := τ) (main (F := Ideal))) (s₀ m ρ)
      (Pipeline.FramePost (Pipeline.pin pcfgs fun _ => adm m) (datsV m) 0 (Pipeline.afterTail pcfgs (fun _ => adm m) (datsV m) 0 (V0 m) [hostOps1])) :=
  Pipeline.θ_run_frameP_around pcfgs (fun _ => adm m) (datsV m) (0 : Fin 1) launch0 defs₀ Variants.none m ρ main
    (hbody := fun c => body_obligation m hlen htrg c) (hshare := fun c => (datV m c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hΦ := fun _ _ => rfl)

/-- Each sequence's two sums, as the launch writes them back: the sequence's sum of counted losses and its number of
    counted tokens. -/
theorem out_nll (hlen : ∀ c j, (lArr m c j).toInt ≤ 512) (c : Dev nD) (b : Fin 16) :
    ((datV m c).arrAt 2 (cfgM m).N : S16x1x1.Idx → EReal) (ix3 b (0 : Fin 1) (0 : Fin 1)) = seqNll (xArr m c) (tArr m c) (lArr m c) b :=
  (arrAt_out2 m (datV m c) b).trans ((congrFun (after_2 m c _) _).trans (accNll_last m c b (hlen c _)))
theorem out_cnt (hlen : ∀ c j, (lArr m c j).toInt ≤ 512) (c : Dev nD) (b : Fin 16) :
    ((datV m c).arrAt 3 (cfgM m).N : S16x1x1.Idx → EReal) (ix3 b (0 : Fin 1) (0 : Fin 1)) = seqMask (tArr m c) (lArr m c) b :=
  (arrAt_out3 m (datV m c) b).trans ((congrFun (after_3 m c _) _).trans (accCnt_last m c b (hlen c _)))

/-- THE PROGRAM'S RESULT: the mean loss of the counted tokens of the three arrays as launched; the arrays unchanged. -/
theorem kernel_run (hlen : ∀ c j, (lArr m c j).toInt ≤ 512) (htrg : ∀ c j, (tArr m c j).toNat < 32000) :
    θ_run defs (onTc (τ := τ) (main (F := Ideal))) ⟨m, fun _ => 0, ρ⟩ (fun r => ∀ c : Dev nD,
      r.2.mem ((c.tc : Thread nD τ).loc main_v5) = (fun _ => loss (xArr m c) (tArr m c) (lArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v5 (by decide : main_v5 ∈ Pipeline.restRefs sig spec0)).trans
        ((tail_result m (datsV m)).trans (loss_of_arrays (xArr m c) (tArr m c) (lArr m c) _ _ (out_nll m hlen c) (out_cnt m hlen c))),
      ((h c).1 0).trans (arr_arg0 m (datV m c) (A_eq m c 0)),
      ((h c).2 main_arg1 (by decide : main_arg1 ∈ Pipeline.restRefs sig spec0)).trans (tail_args m (datsV m)),
      ((h c).2 main_arg2 (by decide : main_arg2 ∈ Pipeline.restRefs sig spec0)).trans (tail_arg2 m (datsV m))⟩)
    (run_main m ρ hlen htrg)

end Cert.KernelIdeal.Hand

end
-- ==== Proof.RefValue.lean ====
/-
  The reference's result, read as the specification's loss.

  The reference drops position 0, takes the log-softmax of every row of logits (the row's maximum subtracted before
  exponentiating), gathers the entry at the row's target class, negates it, multiplies it by the 0/1 mask of the tokens
  that count, sums the products and the mask over all (b, s), and divides the first sum by the larger of the second and 1.
  Three of its stages are not elementwise: the reduction by maximum along the class axis (a fold of max from -∞ over the
  row: the row's maximum), the reduction by "and" along a unit axis (its one element), and the gather along the class axis
  (the row's entry at the start index read signed and clamped into [0, 31999]). A target word t with t.toNat < 32000 is not
  negative, so the gather's wrap-around of a negative index is not taken, its bounds test 0 ≤ t ≤ 31999 passes, and the
  clamped start index is t's class. Each token's product is then its loss times its mask, and the two sums over the
  [16, 512] index set are the double sums over b and s.
-/
import proofs.«429088_j18107582120438_1_alg».proof.Proof.RefRead
import proofs.«429088_j18107582120438_1_alg».proof.Proof.Spec
import Idealize.ShloMosaic.PureOps.Ideal.Laws
import Idealize.ShloMosaic.Lib.IdealHost
import Idealize.ShloMosaic.Lib.ValueIdx
import Idealize.ShloMosaic.Lib.Affine
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.ValueIdx Cert.Xent

/-! ## The three stages whose element is not one element of each operand -/

/-- The f32 pattern of minus infinity is the bottom extended real. -/
theorem ofBits_neg_inf : Ideal.ofBits .f32 0xFF800000#32 = ⊥ := by simp [Ideal.ofBits, Ideal.ieee]

/-- The reduction by maximum along the class axis, at (b, s): the fold of max from the initial value over the row. -/
theorem rowmax_read (X : S16x512x32000.Idx → EReal) (init : S_.Idx → EReal) (j : S16x512.Idx) :
    Host.reduce (FloatOps.maximumf (F := Ideal) (φ := .f32)) X init reducesTo_S16x512x32000_S16x512_d2 h_S_ j
      = (Finset.univ : Finset (Fin 32000)).fold max (init ix0) (fun v => X (ix3 (j 0) (j 1) v)) := by
  rw [Host.reduce_eq_fold_single _ X init reducesTo_S16x512x32000_S16x512_d2 (by decide) h_S_ j]
  show (Finset.univ : Finset (Fin 32000)).fold max _ _ = _
  congr 1
  · exact congrArg init (funext fun a => a.elim0)
  · funext v
    exact congrArg X (funext fun a => Fin.ext (by match a with | ⟨0, _⟩ => rfl | ⟨1, _⟩ => rfl | ⟨2, _⟩ => rfl))

theorem andi_one : ∀ p : BitVec 1, IntOp.andi p 1#1 = p := by decide

/-- A fold over the one coordinate of a unit axis is one application of the operation. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]; rfl

/-- The reduction by "and" along a unit axis, from 1, at (b, s, 0): the one element it folds. -/
theorem andreduce_read (P : S16x512x1x1.Idx → BitVec 1) (init : S_.Idx → BitVec 1) (hinit : init ix0 = 1#1)
    (j : S16x512x1.Idx) :
    Host.reduce IntOp.andi P init reducesTo_S16x512x1x1_S16x512x1_d3 h_S_ j = P (ix4 (j 0) (j 1) (j 2) 0) := by
  rw [Host.reduce_eq_fold_single IntOp.andi P init reducesTo_S16x512x1x1_S16x512x1_d3 (by decide) h_S_ j]
  refine (fold_fin_one IntOp.andi _ _).trans ?_
  rw [show init (Shape.Idx.first h_S_) = 1#1 from (congrArg init (funext fun a => a.elim0)).trans hinit, andi_one]
  exact congrArg P (funext fun a => Fin.ext (by match a with | ⟨0, _⟩ => rfl | ⟨1, _⟩ => rfl | ⟨2, _⟩ => rfl | ⟨3, _⟩ => rfl))

/-! ## The gather -/

/-- The gather along the class axis, at (b, s, 0): the operand's row (b, s) at the class its start index names, read
    signed and clamped into [0, 31999]. -/
theorem gather_read {α : Type} {w : Nat} (X : S16x512x32000.Idx → α) (idx : IVec S16x512x1x1 w) (j : S16x512x1.Idx) :
    Host.gather gather_S16x512x32000_S16x512x1x1_S16x512x1_n_2_01_01_2_3_111 X idx j
      = X (ix3 (j 0) (j 1) ⟨min (idx (ix4 (j 0) (j 1) (j 2) 0)).toInt.toNat 31999, by omega⟩) := by
  unfold Host.gather
  refine congrArg X (funext fun a => Fin.ext ?_)
  match a with
  | ⟨0, _⟩ =>
    show gather_S16x512x32000_S16x512x1x1_S16x512x1_n_2_01_01_2_3_111.start j idx 0
        + gather_S16x512x32000_S16x512x1x1_S16x512x1_n_2_01_01_2_3_111.batchCoord j 0
        + gather_S16x512x32000_S16x512x1x1_S16x512x1_n_2_01_01_2_3_111.offCoord j 0 = (j 0).val
    rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  | ⟨1, _⟩ =>
    show gather_S16x512x32000_S16x512x1x1_S16x512x1_n_2_01_01_2_3_111.start j idx 1
        + gather_S16x512x32000_S16x512x1x1_S16x512x1_n_2_01_01_2_3_111.batchCoord j 1
        + gather_S16x512x32000_S16x512x1x1_S16x512x1_n_2_01_01_2_3_111.offCoord j 1 = (j 1).val
    rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  | ⟨2, _⟩ =>
    show gather_S16x512x32000_S16x512x1x1_S16x512x1_n_2_01_01_2_3_111.start j idx 2
        + gather_S16x512x32000_S16x512x1x1_S16x512x1_n_2_01_01_2_3_111.batchCoord j 2
        + gather_S16x512x32000_S16x512x1x1_S16x512x1_n_2_01_01_2_3_111.offCoord j 2 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S16x512x32000_S16x512x1x1_S16x512x1_n_2_01_01_2_3_111.startIndexMap from List.mem_singleton.mpr rfl)]
    have hsi : gather_S16x512x32000_S16x512x1x1_S16x512x1_n_2_01_01_2_3_111.siIdx j
        ⟨List.idxOf (2 : Fin 3) gather_S16x512x32000_S16x512x1x1_S16x512x1_n_2_01_01_2_3_111.startIndexMap,
          List.idxOf_lt_length_iff.2 (List.mem_singleton.mpr rfl)⟩ = ix4 (j 0) (j 1) (j 2) 0 := by
      funext b; refine Fin.ext ?_
      match b with
      | ⟨0, _⟩ => rfl
      | ⟨1, _⟩ => rfl
      | ⟨2, _⟩ => rfl
      | ⟨3, _⟩ => rfl
    rw [hsi]
    rfl

/-! ## Words: an in-range target, and the mask bit -/

theorem toInt_of_lt {t : BitVec 32} (h : t.toNat < 32000) : t.toInt = (t.toNat : Int) :=
  StableHlo.Predicate.toInt_eq_toNat_of_lt (by omega)

theorem toInt_zero : (0#32 : BitVec 32).toInt = 0 := by decide
theorem toInt_31999 : (31999#32 : BitVec 32).toInt = 31999 := by decide

/-- An in-range target word is not negative: the wrap-around of a negative index is not taken. -/
theorem wrap_select {t : BitVec 32} (h : t.toNat < 32000) :
    Scalar.select (IntOp.cmpi .slt t 0#32) (IntOp.addi t 32000#32) t = t := by
  have e : IntOp.cmpi .slt t 0#32 = 0#1 := eq_zero_of_ne_one (fun e => by
    rw [IntOp.cmpi_slt, toInt_of_lt h, toInt_zero] at e; omega)
  rw [e, select_zero]

/-- An in-range target word passes the gather's bounds test 0 ≤ t ≤ 31999. -/
theorem inrange_bits {t : BitVec 32} (h : t.toNat < 32000) :
    IntOp.andi (IntOp.cmpi .sge t 0#32) (IntOp.cmpi .sle t 31999#32) = 1#1 := by
  rw [IntOp.andi_eq_one, IntOp.cmpi_sge, IntOp.cmpi_sle, toInt_of_lt h, toInt_zero, toInt_31999]
  omega

/-- The clamped start index of an in-range target word is the word's class. -/
theorem clamp_cls {t : BitVec 32} (h : t.toNat < 32000) : min t.toInt.toNat 31999 = (cls t).val := by
  rw [toInt_of_lt h, Int.toNat_natCast]
  show min t.toNat 31999 = t.toNat % 32000
  rw [Nat.mod_eq_of_lt h]; omega

/-- The mask bit, widened to a float, is 1 for a token that counts and 0 for one that does not. -/
theorem mask_eq (l t : BitVec 32) (s : Nat) (hs : s < 512) :
    FloatOps.uitofp (F := Ideal) .f32 (IntOp.andi (IntOp.cmpi .slt (BitVec.ofNat 32 s) l) (IntOp.cmpi .ne t 0#32))
      = if Counted l t s then (1 : EReal) else 0 := by
  have hs' : (BitVec.ofNat 32 s).toInt = (s : Int) := StableHlo.Predicate.toInt_ofNat_small s (by omega)
  by_cases h : Counted l t s
  · rw [if_pos h, IntOp.andi_eq_one.2 ⟨IntOp.cmpi_slt.2 (by rw [hs']; exact h.1), IntOp.cmpi_ne.2 h.2⟩]
    show (((1#1 : BitVec 1).toNat : ℝ) : EReal) = 1
    simp
  · have e0 : IntOp.andi (IntOp.cmpi .slt (BitVec.ofNat 32 s) l) (IntOp.cmpi .ne t 0#32) = 0#1 :=
      eq_zero_of_ne_one (fun e => h (by
        obtain ⟨e1, e2⟩ := IntOp.andi_eq_one.1 e
        have e1' := IntOp.cmpi_slt.1 e1
        rw [hs'] at e1'
        exact ⟨e1', IntOp.cmpi_ne.1 e2⟩))
    rw [if_neg h, e0]
    show (((0#1 : BitVec 1).toNat : ℝ) : EReal) = 0
    simp

/-! ## The host's float operations at the extended reals, by name -/

theorem hlog (a : EReal) : FloatOps.hostUnary (F := Ideal) (φ := .f32) .log a = Ideal.log a := rfl
theorem hexp (a : EReal) : FloatOps.hostUnary (F := Ideal) (φ := .f32) .exp a = Ideal.exp a := rfl
theorem hneg (a : EReal) : FloatOps.hostNegf (F := Ideal) (φ := .f32) a = -a := rfl
theorem hdiv (a b : EReal) : FloatOps.hostDivf (F := Ideal) (φ := .f32) a b = Ideal.div a b := rfl
theorem hsub (a b : EReal) : FloatOps.subf (F := Ideal) (φ := .f32) a b = a - b := rfl
theorem hmul (a b : EReal) : FloatOps.mulf (F := Ideal) (φ := .f32) a b = a * b := rfl
theorem hmax (a b : EReal) : FloatOps.maximumf (F := Ideal) (φ := .f32) a b = max a b := rfl
theorem hbits (w : BitVec 32) : FloatOps.ofBits (F := Ideal) .f32 w = Ideal.ofBits .f32 w := rfl

/-! ## The stages at a token (b, s) -/

open Cert.ReferenceIdeal.ReadP

section Token

variable (x : (⟨3, ![16, 513, 32000]⟩ : Shape).Idx → EReal) (trg : (⟨2, ![16, 513]⟩ : Shape).Idx → BitVec 32)
  (len : (⟨1, ![16]⟩ : Shape).Idx → BitVec 32) (b : Fin 16) (s : Fin 512)

/-- The sliced logits at (b, s, v) are the logits at position s + 1. -/
theorem v0_at (v : Fin 32000) : val_main_v0 (F := Ideal) x (ix3 b s v) = x (ix3 b (pos s) v) := by
  rw [val_main_v0_apply]
  exact congrArg x (funext fun a => Fin.ext (by
    match a with
    | ⟨0, _⟩ => rfl
    | ⟨1, _⟩ => show 1 + s.val = s.val + 1; omega
    | ⟨2, _⟩ => rfl))

/-- The sliced targets at (b, s) are the targets at position s + 1. -/
theorem v1_at : val_main_v1 (F := Ideal) trg (ix2 b s) = trg (ix2 b (pos s)) := by
  rw [val_main_v1_apply]
  exact congrArg trg (funext fun a => Fin.ext (by
    match a with
    | ⟨0, _⟩ => rfl
    | ⟨1, _⟩ => show 1 + s.val = s.val + 1; omega))

/-- The mask at (b, s). -/
theorem v16_at : val_main_v16 (F := Ideal) trg len (ix2 b s) = tokMask trg len b s := by
  rw [val_main_v16_apply, val_main_v10_apply, val_main_v7_apply, val_main_v9_apply, val_main_v5_apply, val_main_v3_apply,
    val_main_v2_apply, val_main_v6_apply, val_main_v4_apply, val_main_v8_apply, val_main_c_apply, v1_at]
  have e : idx_main_v4 (idx_main_v6 (ix2 b s)) = ix1 b := funext fun a => Fin.ext (by match a with | ⟨0, _⟩ => rfl)
  rw [e]
  exact mask_eq (len (ix1 b)) (trg (ix2 b (pos s))) s.val s.isLt

/-- The row's maximum at (b, s). -/
theorem rowmax_at : val_main_call0_v2 (F := Ideal) x (ix2 b s) = rowMax (fun v => x (ix3 b (pos s) v)) := by
  rw [val_main_call0_v2_apply, val_main_call0_v1_apply, val_main_call0_cst_0_apply]
  unfold val_main_call0_v0
  rw [rowmax_read]
  show max (Ideal.ofBits .f32 0xFF800000#32) ((Finset.univ : Finset (Fin 32000)).fold max (Ideal.ofBits .f32 0xFF800000#32)
    (fun v => val_main_v0 (F := Ideal) x (ix3 b s v))) = _
  rw [ofBits_neg_inf, max_bot_left]
  unfold rowMax
  congr 1
  funext v
  exact v0_at x b s v

/-- A logit less the row's maximum, at (b, s, v). -/
theorem v5_at (v : Fin 32000) :
    val_main_call0_v5 (F := Ideal) x (ix3 b s v) = x (ix3 b (pos s) v) - rowMax (fun v => x (ix3 b (pos s) v)) := by
  rw [val_main_call0_v5_apply, v0_at, val_main_call0_v4_apply, val_main_call0_v3_apply]
  have e : idx_main_call0_v3 (idx_main_call0_v4 (ix3 b s v)) = ix2 b s :=
    funext fun a => Fin.ext (by match a with | ⟨0, _⟩ => rfl | ⟨1, _⟩ => rfl)
  rw [e, rowmax_at, hsub]

/-- The sum of the exponentials, at (b, s). -/
theorem v7_at : val_main_call0_v7 (F := Ideal) x (ix2 b s)
    = ∑ v : Fin 32000, Ideal.exp (x (ix3 b (pos s) v) - rowMax (fun v => x (ix3 b (pos s) v))) := by
  rw [val_main_call0_v7_apply, val_main_call0_cst_1_apply]
  show Ideal.ofBits .f32 0x00000000#32 + _ = _
  rw [Ideal.ofBits_zero_f32, zero_add]
  refine Finset.sum_congr rfl fun v _ => ?_
  have e : idx_main_call0_v7 (ix2 b s) v = ix3 b s v :=
    funext fun a => Fin.ext (by match a with | ⟨0, _⟩ => rfl | ⟨1, _⟩ => rfl | ⟨2, _⟩ => rfl)
  rw [e, val_main_call0_v6_apply, v5_at, hexp]

/-- The log-softmax at (b, s, k). -/
theorem v11_at (k : Fin 32000) : val_main_v11 (F := Ideal) x (ix3 b s k)
    = (x (ix3 b (pos s) k) - rowMax (fun v => x (ix3 b (pos s) v))) - rowLse (fun v => x (ix3 b (pos s) v)) := by
  rw [val_main_v11_apply, v5_at, val_main_call0_v10_apply, val_main_call0_v9_apply, val_main_call0_v8_apply]
  have e : idx_main_call0_v8 (idx_main_call0_v10 (ix3 b s k)) = ix2 b s :=
    funext fun a => Fin.ext (by match a with | ⟨0, _⟩ => rfl | ⟨1, _⟩ => rfl)
  rw [e, v7_at, hlog, hsub]
  unfold rowLse
  rfl

variable (ht : (trg (ix2 b (pos s))).toNat < 32000)
include ht

/-- The start index the gather reads at (b, s, 0, 0) is the target word: an in-range word is not wrapped. -/
theorem start_at : val_main_call1_v5 (F := Ideal) trg (ix4 b s 0 0) = trg (ix2 b (pos s)) := by
  rw [val_main_call1_v5_apply]
  have e : idx_main_call1_v5 (ix4 b s (0 : Fin 1) (0 : Fin 1)) = ix3 b s 0 := funext fun a => Fin.ext (by
    have hb := b.isLt; have hs := s.isLt
    match a with
    | ⟨0, _⟩ => show (((b.val * 512 + s.val) * 1 + 0) * 1 + 0) / 512 = b.val; omega
    | ⟨1, _⟩ => show (((b.val * 512 + s.val) * 1 + 0) * 1 + 0) / 1 % 512 = s.val; omega
    | ⟨2, _⟩ => rfl)
  rw [e, val_main_call1_v4_apply, val_main_call1_v1_apply, val_main_call1_v3_apply, val_main_v12_apply,
    val_main_call1_v0_apply, val_main_call1_c_apply, val_main_call1_v2_apply, val_main_call1_c_0_apply]
  have e2 : idx_main_v12 (ix3 b s (0 : Fin 1)) = ix2 b s :=
    funext fun a => Fin.ext (by match a with | ⟨0, _⟩ => rfl | ⟨1, _⟩ => rfl)
  rw [e2, v1_at]
  exact wrap_select ht

/-- The gather's bounds test passes at (b, s, 0). -/
theorem v12_at : val_main_call1_v12 (F := Ideal) trg (ix3 b s 0) = 1#1 := by
  unfold val_main_call1_v12
  rw [andreduce_read _ _ rfl]
  show val_main_call1_v11 (F := Ideal) trg (ix4 b s 0 0) = 1#1
  rw [val_main_call1_v11_apply, val_main_call1_v7_apply, val_main_call1_v10_apply, start_at trg b s ht,
    val_main_call1_v6_apply, val_main_call1_c_2_apply, val_main_call1_v9_apply, val_main_call1_v8_apply,
    val_main_call1_c_1_apply]
  exact inrange_bits ht

/-- The gathered value at (b, s, 0) is the log-softmax at the target's class. -/
theorem v13c_at : val_main_call1_v13 (F := Ideal) x trg (ix3 b s 0)
    = val_main_v11 (F := Ideal) x (ix3 b s (cls (trg (ix2 b (pos s))))) := by
  unfold val_main_call1_v13
  rw [gather_read]
  show val_main_v11 (F := Ideal) x (ix3 b s ⟨min (val_main_call1_v5 (F := Ideal) trg (ix4 b s 0 0)).toInt.toNat 31999, _⟩) = _
  refine congrArg (fun k => val_main_v11 (F := Ideal) x (ix3 b s k)) (Fin.ext ?_)
  show min (val_main_call1_v5 (F := Ideal) trg (ix4 b s 0 0)).toInt.toNat 31999 = _
  rw [start_at trg b s ht]
  exact clamp_cls ht

/-- The token's term at (b, s): its loss times its mask. -/
theorem v17_at : val_main_v17 (F := Ideal) x trg len (ix2 b s) = tokNll x trg b s * tokMask trg len b s := by
  rw [val_main_v17_apply, val_main_v15_apply, val_main_v14_apply, v16_at]
  have e : idx_main_v14 (ix2 b s) = ix3 b s 0 := funext fun a => Fin.ext (by
    have hb := b.isLt; have hs := s.isLt
    match a with
    | ⟨0, _⟩ => show (b.val * 512 + s.val) / 512 = b.val; omega
    | ⟨1, _⟩ => show (b.val * 512 + s.val) / 1 % 512 = s.val; omega
    | ⟨2, _⟩ => rfl)
  rw [e, val_main_v13_apply, v12_at trg b s ht, select_one, v13c_at x trg b s ht, v11_at, hneg, hmul]
  unfold tokNll rowNll
  rfl

end Token

/-! ## The result -/

section Result

variable (x : (⟨3, ![16, 513, 32000]⟩ : Shape).Idx → EReal) (trg : (⟨2, ![16, 513]⟩ : Shape).Idx → BitVec 32)
  (len : (⟨1, ![16]⟩ : Shape).Idx → BitVec 32)

/-- The number of counted tokens. -/
theorem v19_eq (i : S_.Idx) : val_main_v19 (F := Ideal) trg len i = ∑ b : Fin 16, seqMask trg len b := by
  rw [val_main_v19_apply, val_main_cst_0_apply, hbits, Ideal.ofBits_zero_f32, zero_add, sum_idx2]
  unfold seqMask
  exact Finset.sum_congr rfl fun b _ => Finset.sum_congr rfl fun s _ => v16_at trg len b s

/-- The sum of the counted losses, when every target word is in range. -/
theorem v18_eq (htrg : ∀ j, (trg j).toNat < 32000) (i : S_.Idx) :
    val_main_v18 (F := Ideal) x trg len i = ∑ b : Fin 16, seqNll x trg len b := by
  rw [val_main_v18_apply, val_main_cst_apply, hbits, Ideal.ofBits_zero_f32, zero_add, sum_idx2]
  unfold seqNll
  exact Finset.sum_congr rfl fun b _ => Finset.sum_congr rfl fun s _ => v17_at x trg len b s (htrg _)

/-- The reference's result is the specification's loss, when every target word is in range. -/
theorem result_eq (htrg : ∀ j, (trg j).toNat < 32000) :
    val_main_v21 (F := Ideal) x trg len = fun _ => Cert.Xent.loss x trg len := by
  funext i
  rw [val_main_v21_apply, val_main_v20_apply, v18_eq x trg len htrg, v19_eq, val_main_cst_1_apply, hbits,
    Ideal.ofBits_one_f32, hdiv, hmax]
  unfold Cert.Xent.loss
  rfl

end Result

section Run

open Idealize.ShloMosaic.TcCoe Idealize.SL.Sem

/-- The term the reference's run leaves in its result buffer is the loss of the launch contents of the three arguments,
    when every target word of those contents is in range. -/
theorem res_eq (m : (ℓ : Loc nD τ sig) → Buf (Elt Ideal) ℓ) (c : Dev nD)
    (htrg : ∀ j, ((m ((c.tc : Thread nD τ).loc main_arg1) : (⟨2, ![16, 513]⟩ : Shape).Idx → BitVec 32) j).toNat < 32000) :
    Cert.ReferenceIdeal.ValueP.res_main_v21 (F := Ideal) m c
      = fun _ => Cert.Xent.loss (m ((c.tc : Thread nD τ).loc main_arg0)) (m ((c.tc : Thread nD τ).loc main_arg1))
          (m ((c.tc : Thread nD τ).loc main_arg2)) :=
  (val_main_v21_eq m c).trans (result_eq _ _ _ htrg)

end Run

end Cert.ReferenceIdeal.RefValue

end
-- ==== Proof.lean ====
/-
  Masked token-level cross entropy: a kernel that walks each of 16 sequences in nine tiles of 64 positions, keeping two
  running sums per sequence, against the reference that slices off position 0, takes a log-softmax over the 32000 classes,
  gathers the target class and sums over all kept positions at once. Under the precondition — finite logits, targets in
  [0, 32000), lengths at most 512 — both end at ONE function of the three arrays on the extended reals, `Cert.Xent.loss`:
  the sum of the counted tokens' losses divided by the larger of their number and 1.

  Kernel side: a counted row's loss is 0 - ((Σ_v [v = target] (x_v - max)) - log Σ_v exp (x_v - max)), which is the
  reference's -((x_target - max) - log Σ exp) because a sum with one nonzero term is that term; a row that does not count
  is multiplied by 0, and 0 annihilates every extended real, so the 63 rows the ninth tile reads past the arrays' end add
  nothing (their positions exceed every admitted length). The nine tiles' sums regroup to the sum over the 512 kept
  positions by commutativity and associativity of addition alone; finiteness of the logits is not used.
  Reference side: with targets in range the gather reads the log-probability at the target and its out-of-range select
  never fires; the two host sums over [16, 512] are the double sums of the specification.
  The frames: the word-level and the idealized kernel run and leave their arguments unchanged for every input (the same
  argument at two float families); the reference's frame is its run with the result dropped. Nothing was rewritten by the
  ideal pass, so the preservation conjunct is trivial.
-/
import proofs.«429088_j18107582120438_1_alg».proof.Defs
import proofs.«429088_j18107582120438_1_alg».proof.Proof.Gen.Kernel
import proofs.«429088_j18107582120438_1_alg».proof.Proof.Gen.KernelIdeal
import proofs.«429088_j18107582120438_1_alg».proof.Proof.Gen.ReferenceIdeal
import proofs.«429088_j18107582120438_1_alg».proof.Proof.Gen.Pre_finite_inputs
import proofs.«429088_j18107582120438_1_alg».proof.Proof.PreFacts
import proofs.«429088_j18107582120438_1_alg».proof.Proof.FrameR
import proofs.«429088_j18107582120438_1_alg».proof.Proof.FrameRW
import proofs.«429088_j18107582120438_1_alg».proof.Proof.ValueRun
import proofs.«429088_j18107582120438_1_alg».proof.Proof.RefRun
import proofs.«429088_j18107582120438_1_alg».proof.Proof.RefRead
import proofs.«429088_j18107582120438_1_alg».proof.Proof.RefValue

noncomputable section

namespace Cert.Proof

open Idealize.ShloMosaic Idealize.SL.Sem

/-- The word-level kernel runs and leaves its arguments as they were. -/
theorem frame_k : Cert.frame_Kernel := fun m ρ _ => Cert.Kernel.Hand.frame m ρ
/-- So does the idealized kernel. -/
theorem frame_ki : Cert.frame_KernelIdeal := fun m ρ _ => Cert.KernelIdeal.Hand.frame m ρ
/-- The reference's frame is its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the three arrays both programs end at the mean loss of the counted tokens. -/
theorem algebraic : Cert.algebraic_KernelIdeal_ReferenceIdeal := by
  intro m g m' g' hpre hagree
  have hlen : ∀ c j, (Cert.KernelIdeal.Hand.lArr m c j).toInt ≤ 512 := fun c => Cert.PreFacts.len_le _ _ _ (hpre c)
  have htrg : ∀ c j, (Cert.KernelIdeal.Hand.tArr m c j).toNat < 32000 := fun c => Cert.PreFacts.trg_lt _ _ _ (hpre c)
  refine ⟨fun c _ => Cert.Xent.loss (Cert.KernelIdeal.Hand.xArr m c) (Cert.KernelIdeal.Hand.tArr m c) (Cert.KernelIdeal.Hand.lArr m c),
    Cert.KernelIdeal.Hand.kernel_run m g hlen htrg, ?_⟩
  refine (θ_run Cert.ReferenceIdeal.defs _ _).mono (fun r h c => ⟨(h c).1.trans ?_, (h c).2⟩)
    (Cert.ReferenceIdeal.ValueP.run (F := Ideal) m' g')
  rw [Cert.ReferenceIdeal.ReadP.val_main_v21_eq, (hagree c).1, (hagree c).2.1, (hagree c).2.2]
  exact Cert.ReferenceIdeal.RefValue.result_eq _ _ _ (htrg c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
